-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x9 : Shape := ⟨2, ![4, 9]⟩
abbrev S4x512 : Shape := ⟨2, ![4, 512]⟩
abbrev S4x512x3 : Shape := ⟨3, ![4, 512, 3]⟩
abbrev S16 : Shape := ⟨1, ![16]⟩
abbrev S16x32 : Shape := ⟨2, ![16, 32]⟩
abbrev S16x64 : Shape := ⟨2, ![16, 64]⟩
abbrev S_ : Shape := ⟨0, ![]⟩

class Facts : Prop where
  bcast_S_S4x9 : S_.BroadcastsInDim S4x9 (![] : Fin 0 → Fin S4x9.rank)
  reducesTo_S4x9_S_d0_1 : S4x9.ReducesTo [0, 1] S_
  h_S_ : 0 < S_.numel
  bcast_S_S4x512x3 : S_.BroadcastsInDim S4x512x3 (![] : Fin 0 → Fin S4x512x3.rank)
  reducesTo_S4x512x3_S_d0_1_2 : S4x512x3.ReducesTo [0, 1, 2] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S16x64 : S_.BroadcastsInDim S16x64 (![] : Fin 0 → Fin S16x64.rank)
  reducesTo_S16x64_S_d0_1 : S16x64.ReducesTo [0, 1] S_
  bcast_S_S4x512 : S_.BroadcastsInDim S4x512 (![] : Fin 0 → Fin S4x512.rank)
  reducesTo_S4x512_S_d0_1 : S4x512.ReducesTo [0, 1] S_

variable [Facts]

def fn_part2 {F : FTy → Type} [FloatOps F] (main_arg1 : IVec S4x512 32) (main_arg8 : FVec F S16x64 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_c_14 : IVec S_ 32 := constantI S_ 32 0#32
  let main_v39 : IVec S4x512 32 := broadcastInDim S4x512 ![] bcast_S_S4x512 main_c_14
  let main_v40 : IVec S4x512 1 := cmpi .sge main_arg1 main_v39
  let main_c_15 : IVec S_ 1 := constantI S_ 1 1#1
  let main_v41 : IVec S_ 1 := (fun x v => Host.reduce IntOp.andi x v reducesTo_S4x512_S_d0_1 h_S_) main_v40 main_c_15
  let main_v42 : IVec S_ 1 := andi main_v38 main_v41
  let main_c_16 : IVec S_ 32 := constantI S_ 32 4#32
  let main_v43 : IVec S4x512 32 := broadcastInDim S4x512 ![] bcast_S_S4x512 main_c_16
  let main_v44 : IVec S4x512 1 := cmpi .slt main_arg1 main_v43
  let main_c_17 : IVec S_ 1 := constantI S_ 1 1#1
  let main_v45 : IVec S_ 1 := (fun x v => Host.reduce IntOp.andi x v reducesTo_S4x512_S_d0_1 h_S_) main_v44 main_c_17
  let main_v46 : IVec S_ 1 := andi main_v42 main_v45
  main_v46

def fn_part1 {F : FTy → Type} [FloatOps F] (main_arg1 : IVec S4x512 32) (main_arg5 : FVec F S16x32 .f32) (main_arg6 : FVec F S16 .f32) (main_arg7 : FVec F S16 .f32) (main_arg8 : FVec F S16x64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg8 main_v33

def fn {F : FTy → Type} [FloatOps F] (main_arg0 : FVec F S4x9 .f32) (main_arg1 : IVec S4x512 32) (main_arg2 : FVec F S4x512x3 .f32) (main_arg3 : FVec F S16 .f32) (main_arg4 : FVec F S16 .f32) (main_arg5 : FVec F S16x32 .f32) (main_arg6 : FVec F S16 .f32) (main_arg7 : FVec F S16 .f32) (main_arg8 : FVec F S16x64 .f32) : IVec S_ 1 :=
  let main_v0 : FVec F S4x9 .f32 := Host.absf main_arg0
  let main_cst : FVec F S_ .f32 := constant S_ .f32 0x7F800000#32
  let main_v1 : FVec F S4x9 .f32 := broadcastInDim S4x9 ![] bcast_S_S4x9 main_cst
  let main_v2 : IVec S4x9 1 := cmpf .olt main_v0 main_v1
  let main_c : IVec S_ 1 := constantI S_ 1 1#1
  let main_v3 : IVec S_ 1 := (fun x v => Host.reduce IntOp.andi x v reducesTo_S4x9_S_d0_1 h_S_) main_v2 main_c
  let main_v4 : FVec F S4x512x3 .f32 := Host.absf main_arg2
  let main_cst_0 : FVec F S_ .f32 := constant S_ .f32 0x7F800000#32
  let main_v5 : FVec F S4x512x3 .f32 := broadcastInDim S4x512x3 ![] bcast_S_S4x512x3 main_cst_0
  let main_v6 : IVec S4x512x3 1 := cmpf .olt main_v4 main_v5
  let main_c_1 : IVec S_ 1 := constantI S_ 1 1#1
  let main_v7 : IVec S_ 1 := (fun x v => Host.reduce IntOp.andi x v reducesTo_S4x512x3_S_d0_1_2 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_v13 main_v16
-- ==== Kernel.lean ====
abbrev S4x9 : Shape := ⟨2, ![4, 9]⟩
abbrev S4x512 : Shape := ⟨2, ![4, 512]⟩
abbrev S4x512x3 : Shape := ⟨3, ![4, 512, 3]⟩
abbrev S16 : Shape := ⟨1, ![16]⟩
abbrev S16x32 : Shape := ⟨2, ![16, 32]⟩
abbrev S16x64 : Shape := ⟨2, ![16, 64]⟩
abbrev S4x1x512 : Shape := ⟨3, ![4, 1, 512]⟩
abbrev S16x1 : Shape := ⟨2, ![16, 1]⟩
abbrev S16x34 : Shape := ⟨2, ![16, 34]⟩
abbrev S16x66 : Shape := ⟨2, ![16, 66]⟩
abbrev S4x4x34 : Shape := ⟨3, ![4, 4, 34]⟩
abbrev S4x34x4 : Shape := ⟨3, ![4, 34, 4]⟩
abbrev S136x4 : Shape := ⟨2, ![136, 4]⟩
abbrev S4x4x66 : Shape := ⟨3, ![4, 4, 66]⟩
abbrev S4x66x4 : Shape := ⟨3, ![4, 66, 4]⟩
abbrev S264x4 : Shape := ⟨2, ![264, 4]⟩
abbrev S4x512x4096 : Shape := ⟨3, ![4, 512, 4096]⟩
abbrev S1x512x3 : Shape := ⟨3, ![1, 512, 3]⟩
abbrev S1x1x512 : Shape := ⟨3, ![1, 1, 512]⟩
abbrev S1x128x4096 : Shape := ⟨3, ![1, 128, 4096]⟩
abbrev S128x4x64 : Shape := ⟨3, ![128, 4, 64]⟩
abbrev S1x128x3 : Shape := ⟨3, ![1, 128, 3]⟩
abbrev S128x3 : Shape := ⟨2, ![128, 3]⟩
abbrev S1x1x128 : Shape := ⟨3, ![1, 1, 128]⟩
abbrev S128 : Shape := ⟨1, ![128]⟩
abbrev S3x128 : Shape := ⟨2, ![3, 128]⟩
abbrev S1x3x128 : Shape := ⟨3, ![1, 3, 128]⟩
abbrev S128x3x1 : Shape := ⟨3, ![128, 3, 1]⟩
abbrev S128x3x128 : Shape := ⟨3, ![128, 3, 128]⟩
abbrev S128x128 : Shape := ⟨2, ![128, 128]⟩
abbrev S128x1x128 : Shape := ⟨3, ![128, 1, 128]⟩
abbrev S128x4x128 : Shape := ⟨3, ![128, 4, 128]⟩
abbrev S4x128 : Shape := ⟨2, ![4, 128]⟩
abbrev S1x128 : Shape := ⟨2, ![1, 128]⟩
abbrev S136x128 : Shape := ⟨2, ![136, 128]⟩
abbrev S128x34x128 : Shape := ⟨3, ![128, 34, 128]⟩
abbrev S34x128 : Shape := ⟨2, ![34, 128]⟩
abbrev S128x1x1 : Shape := ⟨3, ![128, 1, 1]⟩
abbrev S1x34x128 : Shape := ⟨3, ![1, 34, 128]⟩
abbrev S128x32x128 : Shape := ⟨3, ![128, 32, 128]⟩
abbrev S264x128 : Shape := ⟨2, ![264, 128]⟩
abbrev S128x66x128 : Shape := ⟨3, ![128, 66, 128]⟩
abbrev S66x128 : Shape := ⟨2, ![66, 128]⟩
abbrev S1x66x128 : Shape := ⟨3, ![1, 66, 128]⟩
abbrev S128x64x128 : Shape := ⟨3, ![128, 64, 128]⟩
abbrev S128x64x64 : Shape := ⟨3, ![128, 64, 64]⟩
abbrev S128x64 : Shape := ⟨2, ![128, 64]⟩
abbrev S128x64x1 : Shape := ⟨3, ![128, 64, 1]⟩
abbrev S128x1 : Shape := ⟨2, ![128, 1]⟩
abbrev S128x4096 : Shape := ⟨2, ![128, 4096]⟩

abbrev nBuf : Space → Nat
  | .hbm => 23
  | .vmem => 9
  | .smem => 0
  | _ => 0

abbrev bufTy : (tb : Table) → Fin (tcTables nBuf tb) → BufTy
  | .hbm, ⟨0, _⟩ => ⟨S4x9, .f32⟩
  | .hbm, ⟨1, _⟩ => ⟨S4x512, .i32⟩
  | .hbm, ⟨2, _⟩ => ⟨S4x512x3, .f32⟩
  | .hbm, ⟨3, _⟩ => ⟨S16, .f32⟩
  | .hbm, ⟨4, _⟩ => ⟨S16, .f32⟩
  | .hbm, ⟨5, _⟩ => ⟨S16x32, .f32⟩
  | .hbm, ⟨6, _⟩ => ⟨S16, .f32⟩
  | .hbm, ⟨7, _⟩ => ⟨S16, .f32⟩
  | .hbm, ⟨8, _⟩ => ⟨S16x64, .f32⟩
  | .hbm, ⟨9, _⟩ => ⟨S4x1x512, .i32⟩
  | .hbm, ⟨10, _⟩ => ⟨S16x1, .f32⟩
  | .hbm, ⟨11, _⟩ => ⟨S16x1, .f32⟩
  | .hbm, ⟨12, _⟩ => ⟨S16x34, .f32⟩
  | .hbm, ⟨13, _⟩ => ⟨S16x1, .f32⟩
  | .hbm, ⟨14, _⟩ => ⟨S16x1, .f32⟩
  | .hbm, ⟨15, _⟩ => ⟨S16x66, .f32⟩
  | .hbm, ⟨16, _⟩ => ⟨S4x4x34, .f32⟩
  | .hbm, ⟨17, _⟩ => ⟨S4x34x4, .f32⟩
  | .hbm, ⟨18, _⟩ => ⟨S136x4, .f32⟩
  | .hbm, ⟨19, _⟩ => ⟨S4x4x66, .f32⟩
  | .hbm, ⟨20, _⟩ => ⟨S4x66x4, .f32⟩
  | .hbm, ⟨21, _⟩ => ⟨S264x4, .f32⟩
  | .hbm, ⟨22, _⟩ => ⟨S4x512x4096, .f32⟩
  | .local _ .vmem, ⟨0, _⟩ => ⟨S1x512x3, .f32⟩
  | .local _ .vmem, ⟨1, _⟩ => ⟨S1x512x3, .f32⟩
  | .local _ .vmem, ⟨2, _⟩ => ⟨S1x1x512, .i32⟩
  | .local _ .vmem, ⟨3, _⟩ => ⟨S1x1x512, .i32⟩
  | .local _ .vmem, ⟨4, _⟩ => ⟨S136x4, .f32⟩
  | .local _ .vmem, ⟨5, _⟩ => ⟨S264x4, .f32⟩
  | .local _ .vmem, ⟨6, _⟩ => ⟨S1x128x4096, .f32⟩
  | .local _ .vmem, ⟨7, _⟩ => ⟨S1x128x4096, .f32⟩
  | .local _ .vmem, ⟨8, _⟩ => ⟨S128x4x64, .f32⟩
  | _, _ => ⟨S4x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_mult2 (i : grid0.Coords) : BitVec 32 :=
  let arg2 : BitVec 32 := BitVec.ofNat 32 (i 2).val
  let c128_i32_0 : BitVec 32 := 128#32
  let v2 : BitVec 32 := Scalar.muli arg2 c128_i32_0
  v2
def k0_off1 (i : grid0.Coords) : Fin 3 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v7 : Index := Scalar.indexCast v1
  let c0_2 : Index := 0#32
  ![0, v7.toNat, 0]
def k0_off2 (i : grid0.Coords) : Fin 3 → Nat :=
  let c0_3 : Index := 0#32
  let arg2 : BitVec 32 := BitVec.ofNat 32 (i 2).val
  let c128_i32_0 : BitVec 32 := 128#32
  let v2 : BitVec 32 := Scalar.muli arg2 c128_i32_0
  let v3 : BitVec 32 := v2
  let v10 : Index := Scalar.indexCast v3
  let c0_4 : Index := 0#32
  ![0, v10.toNat, 0]
def k0_off3 (i : grid0.Coords) : Fin 3 → Nat :=
  let c0_5 : Index := 0#32
  let c0_6 : Index := 0#32
  let arg1 : BitVec 32 := BitVec.ofNat 32 (i 1).val
  let c128_i32 : BitVec 32 := 128#32
  let v0 : BitVec 32 := Scalar.muli arg1 c128_i32
  let v1 : BitVec 32 := v0
  let v13 : Index := Scalar.indexCast v1
  ![0, 0, v13.toNat]
def k0_off4 (i : grid0.Coords) : Fin 3 → Nat :=
  let c0_7 : Index := 0#32
  let c0_8 : Index := 0#32
  let arg2 : BitVec 32 := BitVec.ofNat 32 (i 2).val
  let c128_i32_0 : BitVec 32 := 128#32
  let v2 : BitVec 32 := Scalar.muli arg2 c128_i32_0
  let v3 : BitVec 32 := v2
  let v16 : Index := Scalar.indexCast v3
  ![0, 0, v16.toNat]
def k0_cond2 (i : grid0.Coords) : BitVec 1 :=
  let arg2 : BitVec 32 := BitVec.ofNat 32 (i 2).val
  let c3_i32_41 : BitVec 32 := 3#32
  let v212 : BitVec 1 := Scalar.cmpi .eq arg2 c3_i32_41
  let v213 : BitVec 32 := Scalar.extui v212
  let c0_i32_42 : BitVec 32 := 0#32
  let v214 : BitVec 1 := Scalar.cmpi .ne v213 c0_i32_42
  v214

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S136x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S264x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x512_S4x1x512 : S4x512.ShapeCasts S4x1x512
  bcast_S16_S16x1_0 : S16.BroadcastsInDim S16x1 (![0] : Fin 1 → Fin S16x1.rank)
  concatenates_S16x32_S16x1_S16x1_S16x34_d1 : Shape.Concatenates [S16x32, S16x1, S16x1] S16x34 1
  concatenates_S16x64_S16x1_S16x1_S16x66_d1 : Shape.Concatenates [S16x64, S16x1, S16x1] S16x66 1
  shapeCasts_S16x34_S4x4x34 : S16x34.ShapeCasts S4x4x34
  transposes_S4x4x34_S4x34x4_0_2_1 : S4x4x34.Transposes [0, 2, 1] S4x34x4
  shapeCasts_S4x34x4_S136x4 : S4x34x4.ShapeCasts S136x4
  shapeCasts_S16x66_S4x4x66 : S16x66.ShapeCasts S4x4x66
  transposes_S4x4x66_S4x66x4_0_2_1 : S4x4x66.Transposes [0, 2, 1] S4x66x4
  shapeCasts_S4x66x4_S264x4 : S4x66x4.ShapeCasts S264x4
  inb_S128x4x64_S128x4x64_0_0_0 : ∀ a, (![0, 0, 0] : Fin 3 → Nat) a + S128x4x64.size a ≤ S128x4x64.size a
  h_S128x4x64 : 0 < S128x4x64.numel
  shapeCasts_S128x4x64_S128x4x64 : S128x4x64.ShapeCasts S128x4x64
  h_S1x128x3 : 0 < S1x128x3.numel
  shapeCasts_S1x128x3_S128x3 : S1x128x3.ShapeCasts S128x3
  h_S1x1x128 : 0 < S1x1x128.numel
  shapeCasts_S1x1x128_S128 : S1x1x128.ShapeCasts S128
  transposes_S128x3_p1_0_S3x128 : S128x3.Transposes [1, 0] S3x128
  shapeCasts_S3x128_S1x3x128 : S3x128.ShapeCasts S1x3x128
  shapeCasts_S128x3_S128x3x1 : S128x3.ShapeCasts S128x3x1
  broadcasts_S1x3x128_S128x3x128 : S1x3x128.Broadcasts S128x3x128
  broadcasts_S128x3x1_S128x3x128 : S128x3x1.Broadcasts S128x3x128
  reduces_S128x3x128_S128x128 : S128x3x128.Reduces [1] S128x128
  iota_S128x128_d0_w32 : S128x128.Iotas .tc 32 [0]
  iota_S128x128_d1_w32 : S128x128.Iotas .tc 32 [1]
  shapeCasts_S128x128_S128x1x128 : S128x128.ShapeCasts S128x1x128
  broadcasts_S128x1x128_S128x3x128 : S128x1x128.Broadcasts S128x3x128
  concatenates_S128x1x128_S128x3x128_S128x4x128_d1 : Shape.Concatenates [S128x1x128, S128x3x128] S128x4x128 1
  iota_S4x128_d0_w32 : S4x128.Iotas .tc 32 [0]
  shapeCasts_S128_S1x128 : S128.ShapeCasts S1x128
  broadcasts_S1x128_S4x128 : S1x128.Broadcasts S4x128
  natLt_1_32 : 1 < 32
  inb_S136x4_S136x4_0_0 : ∀ a, (![0, 0] : Fin 2 → Nat) a + S136x4.size a ≤ S136x4.size a
  h_S136x4 : 0 < S136x4.numel
  shapeCasts_S136x4_S136x4 : S136x4.ShapeCasts S136x4
  slices_S136x128_o0_0_S34x128 : S136x128.Slices ![0, 0] S34x128
  shapeCasts_S128_S128x1x1 : S128.ShapeCasts S128x1x1
  shapeCasts_S34x128_S1x34x128 : S34x128.ShapeCasts S1x34x128
  broadcasts_S128x1x1_S128x34x128 : S128x1x1.Broadcasts S128x34x128
  broadcasts_S1x34x128_S128x34x128 : S1x34x128.Broadcasts S128x34x128
  slices_S136x128_o34_0_S34x128 : S136x128.Slices ![34, 0] S34x128
  slices_S136x128_o68_0_S34x128 : S136x128.Slices ![68, 0] S34x128
  slices_S136x128_o102_0_S34x128 : S136x128.Slices ![102, 0] S34x128
  slices_S128x34x128_o0_0_0_S128x32x128 : S128x34x128.Slices ![0, 0, 0] S128x32x128
  slices_S128x34x128_o0_32_0_S128x1x128 : S128x34x128.Slices ![0, 32, 0] S128x1x128
  shapeCasts_S128x1x128_S128x128 : S128x1x128.ShapeCasts S128x128
  slices_S128x34x128_o0_33_0_S128x1x128 : S128x34x128.Slices ![0, 33, 0] S128x1x128
  broadcasts_S128x1x128_S128x32x128 : S128x1x128.Broadcasts S128x32x128
  reduces_S128x32x128_S128x128 : S128x32x128.Reduces [1] S128x128
  inb_S264x4_S264x4_0_0 : ∀ a, (![0, 0] : Fin 2 → Nat) a + S264x4.size a ≤ S264x4.size a
  h_S264x4 : 0 < S264x4.numel
  shapeCasts_S264x4_S264x4 : S264x4.ShapeCasts S264x4
  slices_S264x128_o0_0_S66x128 : S264x128.Slices ![0, 0] S66x128
  shapeCasts_S66x128_S1x66x128 : S66x128.ShapeCasts S1x66x128
  broadcasts_S128x1x1_S128x66x128 : S128x1x1.Broadcasts S128x66x128
  broadcasts_S1x66x128_S128x66x128 : S1x66x128.Broadcasts S128x66x128
  slices_S264x128_o66_0_S66x128 : S264x128.Slices ![66, 0] S66x128
  slices_S264x128_o132_0_S66x128 : S264x128.Slices ![132, 0] S66x128
  slices_S264x128_o198_0_S66x128 : S264x128.Slices ![198, 0] S66x128
  slices_S128x66x128_o0_0_0_S128x64x128 : S128x66x128.Slices ![0, 0, 0] S128x64x128
  slices_S128x66x128_o0_64_0_S128x1x128 : S128x66x128.Slices ![0, 64, 0] S128x1x128
  slices_S128x66x128_o0_65_0_S128x1x128 : S128x66x128.Slices ![0, 65, 0] S128x1x128
  broadcasts_S128x1x128_S128x64x128 : S128x1x128.Broadcasts S128x64x128
  reduces_S128x64x64_S128x64 : S128x64x64.Reduces [2] S128x64
  shapeCasts_S128x64_S128x64x1 : S128x64.ShapeCasts S128x64x1
  reduces_S128x64x1_S128x1 : S128x64x1.Reduces [1] S128x1
  shapeCasts_S128x1_S128x1x1 : S128x1.ShapeCasts S128x1x1
  broadcasts_S128x1x1_S128x64x64 : S128x1x1.Broadcasts S128x64x64
  shapeCasts_S128x64x64_S128x4096 : S128x64x64.ShapeCasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  dot_S136x4_S4x128_S136x128_1_0_0_1_n_n_wf : DotDims.WF S136x4 S4x128 S136x128 [1] [0] [0] [1] [] []
  dot_S264x4_S4x128_S264x128_1_0_0_1_n_n_wf : DotDims.WF S264x4 S4x128 S264x128 [1] [0] [0] [1] [] []
  dot_S128x4x128_S128x64x128_S128x4x64_2_2_1_1_0_0_wf : DotDims.WF S128x4x128 S128x64x128 S128x4x64 [2] [2] [1] [1] [0] [0]
  dot_S128x4x64_S128x4x64_S128x64x64_1_1_2_2_0_0_wf : DotDims.WF S128x4x64 S128x4x64 S128x64x64 [1] [1] [2] [2] [0] [0]
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x128x3.size a ≤ S1x512x3.size a
  k0_off2_inb : ∀ i : grid0.Coords, ∀ a, (k0_off2 i) a + S1x128x3.size a ≤ S1x512x3.size a
  k0_off3_inb : ∀ i : grid0.Coords, ∀ a, (k0_off3 i) a + S1x1x128.size a ≤ S1x1x512.size a
  k0_off4_inb : ∀ i : grid0.Coords, ∀ a, (k0_off4 i) a + S1x1x128.size a ≤ S1x1x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x512x3.size a
  hwx0_0 : ∀ i : grid0.Coords, EltTy.bits .f32 = 32 ∨ (Rect.block (s := S4x512x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S4x1x512.size a
  hwx0_1 : ∀ i : grid0.Coords, EltTy.bits .i32 = 32 ∨ (Rect.block (s := S4x1x512) S1x1x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S136x4.size a ≤ S136x4.size a
  hwx0_2 : ∀ i : grid0.Coords, EltTy.bits .f32 = 32 ∨ (Rect.block (s := S136x4) S136x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S264x4.size a ≤ S264x4.size a
  hwx0_3 : ∀ i : grid0.Coords, EltTy.bits .f32 = 32 ∨ (Rect.block (s := S264x4) S264x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S4x512x4096.size a
  hwx0_4 : ∀ i : grid0.Coords, EltTy.bits .f32 = 32 ∨ (Rect.block (s := S4x512x4096) S1x128x4096.size (cc0_transform_4 i) (hinb0_4 i)).WholeWords (EltTy.packing .f32)

variable [Facts₀]

def dot_S136x4_S4x128_S136x128_1_0_0_1_n_n : DotDims S136x4 S4x128 S136x128 where
  lhsContracting := [1]
  rhsContracting := [0]
  lhsNonContracting := [0]
  rhsNonContracting := [1]
  lhsBatch := []
  rhsBatch := []
  wf := dot_S136x4_S4x128_S136x128_1_0_0_1_n_n_wf
def dot_S264x4_S4x128_S264x128_1_0_0_1_n_n : DotDims S264x4 S4x128 S264x128 where
  lhsContracting := [1]
  rhsContracting := [0]
  lhsNonContracting := [0]
  rhsNonContracting := [1]
  lhsBatch := []
  rhsBatch := []
  wf := dot_S264x4_S4x128_S264x128_1_0_0_1_n_n_wf
def dot_S128x4x128_S128x64x128_S128x4x64_2_2_1_1_0_0 : DotDims S128x4x128 S128x64x128 S128x4x64 where
  lhsContracting := [2]
  rhsContracting := [2]
  lhsNonContracting := [1]
  rhsNonContracting := [1]
  lhsBatch := [0]
  rhsBatch := [0]
  wf := dot_S128x4x128_S128x64x128_S128x4x64_2_2_1_1_0_0_wf
def dot_S128x4x64_S128x4x64_S128x64x64_1_1_2_2_0_0 : DotDims S128x4x64 S128x4x64 S128x64x64 where
  lhsContracting := [1]
  rhsContracting := [1]
  lhsNonContracting := [2]
  rhsNonContracting := [2]
  lhsBatch := [0]
  rhsBatch := [0]
  wf := dot_S128x4x64_S128x4x64_S128x64x64_1_1_2_2_0_0_wf

abbrev win0_0 : Pipeline.Window sig grid0 :=
  Pipeline.Window.ofSpec (Memref.whole main_arg2) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S136x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S264x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x9 : Shape := ⟨2, ![4, 9]⟩
abbrev S4x512 : Shape := ⟨2, ![4, 512]⟩
abbrev S4x512x3 : Shape := ⟨3, ![4, 512, 3]⟩
abbrev S16 : Shape := ⟨1, ![16]⟩
abbrev S16x32 : Shape := ⟨2, ![16, 32]⟩
abbrev S16x64 : Shape := ⟨2, ![16, 64]⟩
abbrev S4x1x512x3 : Shape := ⟨4, ![4, 1, 512, 3]⟩
abbrev S4x512x1x3 : Shape := ⟨4, ![4, 512, 1, 3]⟩
abbrev S4x512x512x3 : Shape := ⟨4, ![4, 512, 512, 3]⟩
abbrev S_ : Shape := ⟨0, ![]⟩
abbrev S4x512x512 : Shape := ⟨3, ![4, 512, 512]⟩
abbrev S512x512 : Shape := ⟨2, ![512, 512]⟩
abbrev S1x512x512 : Shape := ⟨3, ![1, 512, 512]⟩
abbrev S4x512x512x1 : Shape := ⟨4, ![4, 512, 512, 1]⟩
abbrev S4x512x512x4 : Shape := ⟨4, ![4, 512, 512, 4]⟩
abbrev S4x512x1 : Shape := ⟨3, ![4, 512, 1]⟩
abbrev S4x1x512 : Shape := ⟨3, ![4, 1, 512]⟩
abbrev S4x512x512x32 : Shape := ⟨4, ![4, 512, 512, 32]⟩
abbrev S4x512x512x64 : Shape := ⟨4, ![4, 512, 512, 64]⟩
abbrev S4x512x64x4 : Shape := ⟨4, ![4, 512, 64, 4]⟩
abbrev S4x512x64x64 : Shape := ⟨4, ![4, 512, 64, 64]⟩
abbrev S4x512x1x1 : Shape := ⟨4, ![4, 512, 1, 1]⟩
abbrev S4x512x4096 : Shape := ⟨3, ![4, 512, 4096]⟩

abbrev nBuf : Space → Nat
  | .hbm => 168
  | .vmem => 0
  | .smem => 0
  | _ => 0

abbrev hbmTy0_0 (i : Nat) : BufTy := match i % 128 with
  | 0 => ⟨S4x9, .f32⟩
  | 1 => ⟨S4x512, .i32⟩
  | 2 => ⟨S4x512x3, .f32⟩
  | 3 => ⟨S16, .f32⟩
  | 4 => ⟨S16, .f32⟩
  | 5 => ⟨S16x32, .f32⟩
  | 6 => ⟨S16, .f32⟩
  | 7 => ⟨S16, .f32⟩
  | 8 => ⟨S16x64, .f32⟩
  | 9 => ⟨S4x1x512x3, .f32⟩
  | 10 => ⟨S4x512x1x3, .f32⟩
  | 11 => ⟨S4x512x512x3, .f32⟩
  | 12 => ⟨S4x512x512x3, .f32⟩
  | 13 => ⟨S4x512x512x3, .f32⟩
  | 14 => ⟨S4x512x512x3, .f32⟩
  | 15 => ⟨S_, .f32⟩
  | 16 => ⟨S4x512x512, .f32⟩
  | 17 => ⟨S_, .f32⟩
  | 18 => ⟨S4x512x512, .f32⟩
  | 19 => ⟨S4x512x512, .i1⟩
  | 20 => ⟨S_, .f32⟩
  | 21 => ⟨S_, .f32⟩
  | 22 => ⟨S4x512x512, .f32⟩
  | 23 => ⟨S4x512x512, .f32⟩
  | 24 => ⟨S4x512x512, .f32⟩
  | 25 => ⟨S_, .f32⟩
  | 26 => ⟨S4x512x512, .f32⟩
  | 27 => ⟨S4x512x512, .i1⟩
  | 28 => ⟨S_, .f32⟩
  | 29 => ⟨S_, .f32⟩
  | 30 => ⟨S4x512x512, .f32⟩
  | 31 => ⟨S4x512x512, .f32⟩
  | 32 => ⟨S512x512, .i32⟩
  | 33 => ⟨S512x512, .i32⟩
  | 34 => ⟨S_, .i32⟩
  | 35 => ⟨S512x512, .i32⟩
  | 36 => ⟨S512x512, .i32⟩
  | 37 => ⟨S512x512, .i1⟩
  | 38 => ⟨S_, .f32⟩
  | 39 => ⟨S4x512x512, .f32⟩
  | 40 => ⟨S4x512x512, .i1⟩
  | 41 => ⟨S512x512, .i1⟩
  | 42 => ⟨S1x512x512, .i1⟩
  | 43 => ⟨S4x512x512, .i1⟩
  | 44 => ⟨S4x512x512, .i1⟩
  | 45 => ⟨S_, .f32⟩
  | 46 => ⟨S4x512x512, .f32⟩
  | 47 => ⟨S4x512x512, .f32⟩
  | 48 => ⟨S4x512x512, .f32⟩
  | 49 => ⟨S_, .f32⟩
  | 50 => ⟨S4x512x512, .f32⟩
  | 51 => ⟨S4x512x512, .f32⟩
  | 52 => ⟨S_, .f32⟩
  | 53 => ⟨S4x512x512, .f32⟩
  | 54 => ⟨S4x512x512, .f32⟩
  | 55 => ⟨S4x512x512x1, .f32⟩
  | 56 => ⟨S4x512x512x3, .f32⟩
  | 57 => ⟨S4x512x512x3, .f32⟩
  | 58 => ⟨S4x512x512x1, .f32⟩
  | 59 => ⟨S4x512x512x1, .f32⟩
  | 60 => ⟨S4x512x512x3, .f32⟩
  | 61 => ⟨S4x512x512x3, .f32⟩
  | 62 => ⟨S4x512x512x4, .f32⟩
  | 63 => ⟨S4x512x1, .i32⟩
  | 64 => ⟨S_, .i32⟩
  | 65 => ⟨S4x512x1, .i32⟩
  | 66 => ⟨S4x512x1, .i32⟩
  | 67 => ⟨S4x1x512, .i32⟩
  | 68 => ⟨S4x512x512, .i32⟩
  | 69 => ⟨S4x512x512, .i32⟩
  | 70 => ⟨S4x512x512, .i32⟩
  | 71 => ⟨S4x512x512x1, .f32⟩
  | 72 => ⟨S_, .f32⟩
  | 73 => ⟨S4x512x512, .f32⟩
  | 74 => ⟨S4x512x512x1, .f32⟩
  | 75 => ⟨S_, .i32⟩
  | 76 => ⟨S4x512x512, .i32⟩
  | 77 => ⟨S4x512x512, .i1⟩
  | 78 => ⟨S_, .i32⟩
  | 79 => ⟨S4x512x512, .i32⟩
  | 80 => ⟨S4x512x512, .i32⟩
  | 81 => ⟨S4x512x512, .i32⟩
  | 82 => ⟨S4x512x512x1, .i32⟩
  | 83 => ⟨S4x512x512, .f32⟩
  | 84 => ⟨S4x512x512x1, .f32⟩
  | 85 => ⟨S_, .i32⟩
  | 86 => ⟨S4x512x512, .i32⟩
  | 87 => ⟨S4x512x512, .i1⟩
  | 88 => ⟨S_, .i32⟩
  | 89 => ⟨S4x512x512, .i32⟩
  | 90 => ⟨S4x512x512, .i32⟩
  | 91 => ⟨S4x512x512, .i32⟩
  | 92 => ⟨S4x512x512x1, .i32⟩
  | 93 => ⟨S4x512x512, .f32⟩
  | 94 => ⟨S4x512x512x1, .f32⟩
  | 95 => ⟨S_, .i32⟩
  | 96 => ⟨S4x512x512, .i32⟩
  | 97 => ⟨S4x512x512, .i1⟩
  | 98 => ⟨S_, .i32⟩
  | 99 => ⟨S4x512x512, .i32⟩
  | 100 => ⟨S4x512x512, .i32⟩
  | 101 => ⟨S4x512x512, .i32⟩
  | 102 => ⟨S4x512x512x1, .i32⟩
  | 103 => ⟨S4x512x512x32, .f32⟩
  | 104 => ⟨S4x512x512x32, .f32⟩
  | 105 => ⟨S4x512x512x32, .f32⟩
  | 106 => ⟨S4x512x512x32, .f32⟩
  | 107 => ⟨S4x512x512x32, .f32⟩
  | 108 => ⟨S4x512x512x32, .f32⟩
  | 109 => ⟨S4x512x512x32, .f32⟩
  | 110 => ⟨S4x512x512x32, .f32⟩
  | 111 => ⟨S4x512x512x32, .f32⟩
  | 112 => ⟨S4x512x512x32, .f32⟩
  | 113 => ⟨S_, .f32⟩
  | 114 => ⟨S4x512x512, .f32⟩
  | 115 => ⟨S4x512x512x1, .f32⟩
  | 116 => ⟨S_, .i32⟩
  | 117 => ⟨S4x512x512, .i32⟩
  | 118 => ⟨S4x512x512, .i1⟩
  | 119 => ⟨S_, .i32⟩
  | 120 => ⟨S4x512x512, .i32⟩
  | 121 => ⟨S4x512x512, .i32⟩
  | 122 => ⟨S4x512x512, .i32⟩
  | 123 => ⟨S4x512x512x1, .i32⟩
  | 124 => ⟨S4x512x512, .f32⟩
  | 125 => ⟨S4x512x512x1, .f32⟩
  | 126 => ⟨S_, .i32⟩
  | 127 => ⟨S4x512x512, .i32⟩
  | _ => ⟨S4x9, .f32⟩

abbrev hbmTy0_1 (i : Nat) : BufTy := match i % 128 with
  | 0 => ⟨S4x512x512, .i1⟩
  | 1 => ⟨S_, .i32⟩
  | 2 => ⟨S4x512x512, .i32⟩
  | 3 => ⟨S4x512x512, .i32⟩
  | 4 => ⟨S4x512x512, .i32⟩
  | 5 => ⟨S4x512x512x1, .i32⟩
  | 6 => ⟨S4x512x512, .f32⟩
  | 7 => ⟨S4x512x512x1, .f32⟩
  | 8 => ⟨S_, .i32⟩
  | 9 => ⟨S4x512x512, .i32⟩
  | 10 => ⟨S4x512x512, .i1⟩
  | 11 => ⟨S_, .i32⟩
  | 12 => ⟨S4x512x512, .i32⟩
  | 13 => ⟨S4x512x512, .i32⟩
  | 14 => ⟨S4x512x512, .i32⟩
  | 15 => ⟨S4x512x512x1, .i32⟩
  | 16 => ⟨S4x512x512x64, .f32⟩
  | 17 => ⟨S4x512x512x64, .f32⟩
  | 18 => ⟨S4x512x512x64, .f32⟩
  | 19 => ⟨S4x512x512x64, .f32⟩
  | 20 => ⟨S4x512x512x64, .f32⟩
  | 21 => ⟨S4x512x512x64, .f32⟩
  | 22 => ⟨S4x512x512x64, .f32⟩
  | 23 => ⟨S4x512x512x64, .f32⟩
  | 24 => ⟨S4x512x512x64, .f32⟩
  | 25 => ⟨S4x512x512x64, .f32⟩
  | 26 => ⟨S4x512x512x1, .i1⟩
  | 27 => ⟨S4x512x512x1, .f32⟩
  | 28 => ⟨S4x512x512x64, .f32⟩
  | 29 => ⟨S4x512x512x64, .f32⟩
  | 30 => ⟨S4x512x64x4, .f32⟩
  | 31 => ⟨S4x512x64x64, .f32⟩
  | 32 => ⟨S4x512x64x64, .f32⟩
  | 33 => ⟨S_, .f32⟩
  | 34 => ⟨S4x512, .f32⟩
  | 35 => ⟨S4x512x1x1, .f32⟩
  | 36 => ⟨S4x512x1x1, .f32⟩
  | 37 => ⟨S4x512x64x64, .f32⟩
  | 38 => ⟨S4x512x64x64, .f32⟩
  | 39 => ⟨S4x512x4096, .f32⟩
  | _ => ⟨S4x9, .f32⟩

abbrev hbmTy (i : Nat) : BufTy := match i / 128 with
  | 0 => hbmTy0_0 i
  | 1 => hbmTy0_1 i
  | _ => ⟨S4x9, .f32⟩

abbrev bufTy : (tb : Table) → Fin (tcTables nBuf tb) → BufTy
  | .hbm, ⟨i, _⟩ => hbmTy i
  | _, _ => ⟨S4x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_19 : Ref sig .tc := ⟨.hbm, 126, rfl⟩
abbrev main_v92 : Ref sig .tc := ⟨.hbm, 127, rfl⟩
abbrev main_v93 : Ref sig .tc := ⟨.hbm, 128, rfl⟩
abbrev main_c_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_21 : Ref sig .tc := ⟨.hbm, 136, rfl⟩
abbrev main_v100 : Ref sig .tc := ⟨.hbm, 137, rfl⟩
abbrev main_v101 : Ref sig .tc := ⟨.hbm, 138, rfl⟩
abbrev main_c_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_23 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩

abbrev nD : Nat := 1
abbrev τ : Topo := Topo.v7x

variable {F : FTy → Type} [FloatOps F]

class Facts₀ : Prop where
  bcast_S4x512x3_S4x1x512x3_0_2_3 : S4x512x3.BroadcastsInDim S4x1x512x3 (![0, 2, 3] : Fin 3 → Fin S4x1x512x3.rank)
  bcast_S4x512x3_S4x512x1x3_0_1_3 : S4x512x3.BroadcastsInDim S4x512x1x3 (![0, 1, 3] : Fin 3 → Fin S4x512x1x3.rank)
  bcast_S4x1x512x3_S4x512x512x3_0_1_2_3 : S4x1x512x3.BroadcastsInDim S4x512x512x3 (![0, 1, 2, 3] : Fin 4 → Fin S4x512x512x3.rank)
  bcast_S4x512x1x3_S4x512x512x3_0_1_2_3 : S4x512x1x3.BroadcastsInDim S4x512x512x3 (![0, 1, 2, 3] : Fin 4 → Fin S4x512x512x3.rank)
  reducesTo_S4x512x512x3_S4x512x512_d3 : S4x512x512x3.ReducesTo [3] S4x512x512
  h_S_ : 0 < S_.numel
  bcast_S_S4x512x512 : S_.BroadcastsInDim S4x512x512 (![] : Fin 0 → Fin S4x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S4x512x512_0_1_2 : S1x512x512.BroadcastsInDim S4x512x512 (![0, 1, 2] : Fin 3 → Fin S4x512x512.rank)
  bcast_S4x512x512_S4x512x512x1_0_1_2 : S4x512x512.BroadcastsInDim S4x512x512x1 (![0, 1, 2] : Fin 3 → Fin S4x512x512x1.rank)
  bcast_S4x512x512x1_S4x512x512x3_0_1_2_3 : S4x512x512x1.BroadcastsInDim S4x512x512x3 (![0, 1, 2, 3] : Fin 4 → Fin S4x512x512x3.rank)
  concatenates_S4x512x512x1_S4x512x512x3_S4x512x512x4_d3 : Shape.Concatenates [S4x512x512x1, S4x512x512x3] S4x512x512x4 3
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512_S4x1x512_0_2 : S4x512.BroadcastsInDim S4x1x512 (![0, 2] : Fin 2 → Fin S4x1x512.rank)
  bcast_S4x512x1_S4x512x512_0_1_2 : S4x512x1.BroadcastsInDim S4x512x512 (![0, 1, 2] : Fin 3 → Fin S4x512x512.rank)
  bcast_S4x1x512_S4x512x512_0_1_2 : S4x1x512.BroadcastsInDim S4x512x512 (![0, 1, 2] : Fin 3 → Fin S4x512x512.rank)
  reducesTo_S4x512x512x1_S4x512x512_d3 : S4x512x512x1.ReducesTo [3] S4x512x512
  bcast_S4x512x512x1_S4x512x512x32_0_1_2_3 : S4x512x512x1.BroadcastsInDim S4x512x512x32 (![0, 1, 2, 3] : Fin 4 → Fin S4x512x512x32.rank)
  reducesTo_S4x512x512x32_S4x512x512_d3 : S4x512x512x32.ReducesTo [3] S4x512x512
  bcast_S4x512x512x1_S4x512x512x64_0_1_2_3 : S4x512x512x1.BroadcastsInDim S4x512x512x64 (![0, 1, 2, 3] : Fin 4 → Fin S4x512x512x64.rank)
  reducesTo_S4x512x64x64_S4x512_d2_3 : S4x512x64x64.ReducesTo [2, 3] S4x512
  bcast_S4x512_S4x512x1x1_0_1 : S4x512.BroadcastsInDim S4x512x1x1 (![0, 1] : Fin 2 → Fin S4x512x1x1.rank)
  bcast_S4x512x1x1_S4x512x64x64_0_1_2_3 : S4x512x1x1.BroadcastsInDim S4x512x64x64 (![0, 1, 2, 3] : Fin 4 → Fin S4x512x64x64.rank)
  shapeCasts_S4x512x64x64_S4x512x4096 : S4x512x64x64.ShapeCasts S4x512x4096
  gather_S16_S4x512x512x1_S4x512x512_n_0_n_n_0_3_1_wf : GatherDims.WF S16 S4x512x512x1 S4x512x512 [] [0] [] [0] [] 3 ![1]
  gather_S16x32_S4x512x512x1_S4x512x512x32_3_0_n_n_0_3_132_wf : GatherDims.WF S16x32 S4x512x512x1 S4x512x512x32 [3] [0] [] [0] [] 3 ![1, 32]
  gather_S16x64_S4x512x512x1_S4x512x512x64_3_0_n_n_0_3_164_wf : GatherDims.WF S16x64 S4x512x512x1 S4x512x512x64 [3] [0] [] [0] [] 3 ![1, 64]
  dot_S4x512x512x64_S4x512x512x4_S4x512x64x4_2_2_3_3_01_01_wf : DotDims.WF S4x512x512x64 S4x512x512x4 S4x512x64x4 [2] [2] [3] [3] [0, 1] [0, 1]
  dot_S4x512x64x4_S4x512x64x4_S4x512x64x64_3_3_2_2_01_01_wf : DotDims.WF S4x512x64x4 S4x512x64x4 S4x512x64x64 [3] [3] [2] [2] [0, 1] [0, 1]

variable [Facts₀]

def gather_S16_S4x512x512x1_S4x512x512_n_0_n_n_0_3_1 : GatherDims S16 S4x512x512x1 S4x512x512 where
  offsetDims := []
  collapsedSliceDims := [0]
  operandBatchingDims := []
  startIndicesBatchingDims := []
  startIndexMap := [0]
  indexVectorDim := 3
  sliceSizes := ![1]
  wf := gather_S16_S4x512x512x1_S4x512x512_n_0_n_n_0_3_1_wf
def gather_S16x32_S4x512x512x1_S4x512x512x32_3_0_n_n_0_3_132 : GatherDims S16x32 S4x512x512x1 S4x512x512x32 where
  offsetDims := [3]
  collapsedSliceDims := [0]
  operandBatchingDims := []
  startIndicesBatchingDims := []
  startIndexMap := [0]
  indexVectorDim := 3
  sliceSizes := ![1, 32]
  wf := gather_S16x32_S4x512x512x1_S4x512x512x32_3_0_n_n_0_3_132_wf
def gather_S16x64_S4x512x512x1_S4x512x512x64_3_0_n_n_0_3_164 : GatherDims S16x64 S4x512x512x1 S4x512x512x64 where
  offsetDims := [3]
  collapsedSliceDims := [0]
  operandBatchingDims := []
  startIndicesBatchingDims := []
  startIndexMap := [0]
  indexVectorDim := 3
  sliceSizes := ![1, 64]
  wf := gather_S16x64_S4x512x512x1_S4x512x512x64_3_0_n_n_0_3_164_wf
def dot_S4x512x512x64_S4x512x512x4_S4x512x64x4_2_2_3_3_01_01 : DotDims S4x512x512x64 S4x512x512x4 S4x512x64x4 where
  lhsContracting := [2]
  rhsContracting := [2]
  lhsNonContracting := [3]
  rhsNonContracting := [3]
  lhsBatch := [0, 1]
  rhsBatch := [0, 1]
  wf := dot_S4x512x512x64_S4x512x512x4_S4x512x64x4_2_2_3_3_01_01_wf
def dot_S4x512x64x4_S4x512x64x4_S4x512x64x64_3_3_2_2_01_01 : DotDims S4x512x64x4 S4x512x64x4 S4x512x64x64 where
  lhsContracting := [3]
  rhsContracting := [3]
  lhsNonContracting := [2]
  rhsNonContracting := [2]
  lhsBatch := [0, 1]
  rhsBatch := [0, 1]
  wf := dot_S4x512x64x4_S4x512x64x4_S4x512x64x64_3_3_2_2_01_01_wf

class Facts : Prop extends Facts₀ where

variable [Facts]
-- ==== Proof.K.Kit.lean ====
/-
  The launch side of the kernel's frame: the program up to its one pallas_call, what each array holds when the call is
  entered, each window's block at a grid point, the two conditions the body branches on (first and last step of the
  neighbour-block axis) decided over the 64 grid points, and where the output window is idle.
-/
import proofs.«418662_j3908420239890_3_alg».proof.Proof.Gen.Kernel.Launch
import proofs.«418662_j3908420239890_3_alg».proof.Proof.Gen.Kernel.Skeleton
import proofs.«418662_j3908420239890_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core c's buffers when the call is entered: after the thirteen host operations that lay out the two parameter tables. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

/-- A run ending with every window's array at what the proof data computes and every other buffer as the call found it
    leaves the nine arguments unchanged: the coordinates are window 0's array, an input; the others no window's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c), ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's two conditions -/

/-- The first condition: the neighbour-block coordinate is 0 (the accumulator is reset). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second condition: the neighbour-block coordinate is the last, 3 (the result is formed and stored). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step nothing is stored into the output window, and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last step the output window is live. -/
theorem liveAt0_4 : ∀ t : Fin cfg0.N, cond0_1 (grid0.coords t) → cfg0.idle 4 (grid0.coords t) = false := by decide +kernel

/-! ## The staging and scratch buffers the body is called with -/

abbrev VO0_4 : View sig .tc .vmem S1x128x4096 .f32 := (Memref.whole cc0_stg4_0 : Memref sig .tc .vmem S1x128x4096 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S136x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S264x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x4096 .f32 := win0_4.stage (cfg0.slots t 4)
abbrev hs0_4 (t : Fin cfg0.N) : (ms0_4 t).IsWhole := hstage0_4 ((cfg0.slots t 4).cast nbuf0_4)
/-- The accumulator: a whole scratch buffer of the kernel's own, kept from one grid point to the next. -/
abbrev scM0_0 : Memref sig .tc .vmem S128x4x64 .f32 := Memref.whole cc0_scratch0
abbrev VS0_0 : View sig .tc .vmem S128x4x64 .f32 := scM0_0.view

/-- The region's invariant with the accumulator as a buffer owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.K.RunA.lean ====
/-
  The kernel body at a first step of the neighbour-block axis: the accumulator is reset to zero, then this block's contribution is added; nothing is stored into the output window.
-/
import proofs.«418662_j3908420239890_3_alg».proof.Proof.K.Kit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the accumulator in this case, with the proof
    that from whole buffers — the four inputs at their contents — the body runs to a continuation that gets the inputs
    back as they were and each stored buffer with its pieces written. -/
noncomputable def kernelRun0_A (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) :
    Σ' (L4 : List (View.Piece (Elt F) S1x128x4096 .f32)), { LS0 : List (View.Piece (Elt F) S128x4x64 .f32) //
      ∀ (xi4 : Vec F S1x128x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg3 harg3 arg4 harg4 arg5 harg5 arg6 harg6 arg7 harg7 arg8 harg8) K } := by
  refine ⟨[], ?_, fun xi4 E K => ?run⟩
  case run =>
    simp only [cc0__gnn_kernel_eq_skeleton]; unfold cc0__gnn_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.K.RunB.lean ====
/-
  The kernel body at a middle step of the neighbour-block axis: this block's contribution is added to what the accumulator held; nothing is stored into the output window.
-/
import proofs.«418662_j3908420239890_3_alg».proof.Proof.K.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the accumulator in this case, with the proof
    that from whole buffers — the four inputs at their contents — the body runs to a continuation that gets the inputs
    back as they were and each stored buffer with its pieces written. -/
noncomputable def kernelRun0_B (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) :
    Σ' (L4 : List (View.Piece (Elt F) S1x128x4096 .f32)), { LS0 : List (View.Piece (Elt F) S128x4x64 .f32) //
      ∀ (xi4 : Vec F S1x128x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg3 harg3 arg4 harg4 arg5 harg5 arg6 harg6 arg7 harg7 arg8 harg8) K } := by
  refine ⟨[], ?_, fun xi4 E K => ?run⟩
  case run =>
    simp only [cc0__gnn_kernel_eq_skeleton]; unfold cc0__gnn_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.K.RunC.lean ====
/-
  The kernel body at the last step of the neighbour-block axis: this block's contribution is added to the accumulator, and the normalised matrix formed from the total is stored into the output window.
-/
import proofs.«418662_j3908420239890_3_alg».proof.Proof.K.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the accumulator in this case, with the proof
    that from whole buffers — the four inputs at their contents — the body runs to a continuation that gets the inputs
    back as they were and each stored buffer with its pieces written. -/
noncomputable def kernelRun0_C (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) :
    Σ' (L4 : List (View.Piece (Elt F) S1x128x4096 .f32)), { LS0 : List (View.Piece (Elt F) S128x4x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg3 harg3 arg4 harg4 arg5 harg5 arg6 harg6 arg7 harg7 arg8 harg8) K } := by
  refine ⟨?_, ?_, fun E K => ?run⟩
  case run =>
    simp only [cc0__gnn_kernel_eq_skeleton]; unfold cc0__gnn_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Gen

end
-- ==== Proof.K.Frame.lean ====
/-
  The kernel's frame: what the accumulator and the output window hold after each of the 64 grid points (the accumulator
  reset at a first step of the neighbour-block axis, added to at every step, read out at the last), the proof data built
  on that, the body's obligation at every point, and the run of the whole program to the library's post.
-/
import proofs.«418662_j3908420239890_3_alg».proof.Proof.K.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output window's buffer: its pieces read back (none: a placeholder nothing consults, the window being idle there). -/
def out0_A_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) : Vec F S1x128x4096 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- The pieces stored into the accumulator in case A cover it. -/
theorem scover0_A_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) (y : S128x4x64.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S128x4x64.size (by sl_kernel_rfl) y

/-- What case A leaves in the accumulator: its pieces read back. -/
def sout0_A_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) : Vec F S128x4x64 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- What case B leaves in the output window's buffer: its pieces read back (none: a placeholder nothing consults, the window being idle there). -/
def out0_B_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) : Vec F S1x128x4096 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- The pieces stored into the accumulator in case B cover it. -/
theorem scover0_B_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) (y : S128x4x64.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S128x4x64.size (by sl_kernel_rfl) y

/-- What case B leaves in the accumulator: its pieces read back. -/
def sout0_B_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) : Vec F S128x4x64 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- The pieces stored into the output window in case C tile its block, so they cover it. -/
theorem cover0_C_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) (y : S1x128x4096.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x128x4096.size (by sl_kernel_rfl) y

/-- What case C leaves in the output window's buffer: its pieces read back. -/
def out0_C_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) : Vec F S1x128x4096 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- The pieces stored into the accumulator in case C cover it. -/
theorem scover0_C_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) (y : S128x4x64.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S128x4x64.size (by sl_kernel_rfl) y

/-- What case C leaves in the accumulator: its pieces read back. -/
def sout0_C_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) : Vec F S128x4x64 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the buffers hold after each point -/

/-- After the body at position n: the output window's buffer, then the accumulator. The case is read off n mod 4; a case
    that reads the accumulator takes what position n - 1 left in it. -/
def outsAt0 (c : Dev nD) : (n : ℕ) → n < cfg0.N → Vec F S1x128x4096 .f32 × Vec F S128x4x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: at the start the accumulator holds anything; afterwards what position n - 1 left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- On core c: the arrays as the call finds them; after the body at point t each input's buffer at its block and the
    output window's at what the accumulation says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- At any point the inputs' buffers hold their blocks; the point's position mod 4 says which case runs; the invariant
    hands the body the accumulator at what the point before left (at anything at the very first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · by_cases h1 : t.val % 4 = 3
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program ends, without a fault, with each window's array at what the proof data
    computes and every other buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Gen

end
-- ==== Proof.KI.Kit.lean ====
/-
  The launch side of the kernel's frame: the program up to its one pallas_call, what each array holds when the call is
  entered, each window's block at a grid point, the two conditions the body branches on (first and last step of the
  neighbour-block axis) decided over the 64 grid points, and where the output window is idle.
-/
import proofs.«418662_j3908420239890_3_alg».proof.Proof.Gen.KernelIdeal.Launch
import proofs.«418662_j3908420239890_3_alg».proof.Proof.Gen.KernelIdeal.Skeleton
import proofs.«418662_j3908420239890_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core c's buffers when the call is entered: after the thirteen host operations that lay out the two parameter tables. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

/-- A run ending with every window's array at what the proof data computes and every other buffer as the call found it
    leaves the nine arguments unchanged: the coordinates are window 0's array, an input; the others no window's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c), ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's two conditions -/

/-- The first condition: the neighbour-block coordinate is 0 (the accumulator is reset). -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second condition: the neighbour-block coordinate is the last, 3 (the result is formed and stored). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last step nothing is stored into the output window, and its block is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last step the output window is live. -/
theorem liveAt0_4 : ∀ t : Fin cfg0.N, cond0_1 (grid0.coords t) → cfg0.idle 4 (grid0.coords t) = false := by decide +kernel

/-! ## The staging and scratch buffers the body is called with -/

abbrev VO0_4 : View sig .tc .vmem S1x128x4096 .f32 := (Memref.whole cc0_stg4_0 : Memref sig .tc .vmem S1x128x4096 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S136x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S264x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x4096 .f32 := win0_4.stage (cfg0.slots t 4)
abbrev hs0_4 (t : Fin cfg0.N) : (ms0_4 t).IsWhole := hstage0_4 ((cfg0.slots t 4).cast nbuf0_4)
/-- The accumulator: a whole scratch buffer of the kernel's own, kept from one grid point to the next. -/
abbrev scM0_0 : Memref sig .tc .vmem S128x4x64 .f32 := Memref.whole cc0_scratch0
abbrev VS0_0 : View sig .tc .vmem S128x4x64 .f32 := scM0_0.view

/-- The region's invariant with the accumulator as a buffer owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KI.RunA.lean ====
/-
  The kernel body at a first step of the neighbour-block axis: the accumulator is reset to zero, then this block's contribution is added; nothing is stored into the output window.
-/
import proofs.«418662_j3908420239890_3_alg».proof.Proof.KI.Kit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the accumulator in this case, with the proof
    that from whole buffers — the four inputs at their contents — the body runs to a continuation that gets the inputs
    back as they were and each stored buffer with its pieces written. -/
noncomputable def kernelRun0_A (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) :
    Σ' (L4 : List (View.Piece (Elt F) S1x128x4096 .f32)), { LS0 : List (View.Piece (Elt F) S128x4x64 .f32) //
      ∀ (xi4 : Vec F S1x128x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg3 harg3 arg4 harg4 arg5 harg5 arg6 harg6 arg7 harg7 arg8 harg8) K } := by
  refine ⟨[], ?_, fun xi4 E K => ?run⟩
  case run =>
    simp only [cc0__gnn_kernel_eq_skeleton]; unfold cc0__gnn_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.KI.RunB.lean ====
/-
  The kernel body at a middle step of the neighbour-block axis: this block's contribution is added to what the accumulator held; nothing is stored into the output window.
-/
import proofs.«418662_j3908420239890_3_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the accumulator in this case, with the proof
    that from whole buffers — the four inputs at their contents — the body runs to a continuation that gets the inputs
    back as they were and each stored buffer with its pieces written. -/
noncomputable def kernelRun0_B (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) :
    Σ' (L4 : List (View.Piece (Elt F) S1x128x4096 .f32)), { LS0 : List (View.Piece (Elt F) S128x4x64 .f32) //
      ∀ (xi4 : Vec F S1x128x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg3 harg3 arg4 harg4 arg5 harg5 arg6 harg6 arg7 harg7 arg8 harg8) K } := by
  refine ⟨[], ?_, fun xi4 E K => ?run⟩
  case run =>
    simp only [cc0__gnn_kernel_eq_skeleton]; unfold cc0__gnn_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.KI.RunC.lean ====
/-
  The kernel body at the last step of the neighbour-block axis: this block's contribution is added to the accumulator, and the normalised matrix formed from the total is stored into the output window.
-/
import proofs.«418662_j3908420239890_3_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's buffer and in the accumulator in this case, with the proof
    that from whole buffers — the four inputs at their contents — the body runs to a continuation that gets the inputs
    back as they were and each stored buffer with its pieces written. -/
noncomputable def kernelRun0_C (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) :
    Σ' (L4 : List (View.Piece (Elt F) S1x128x4096 .f32)), { LS0 : List (View.Piece (Elt F) S128x4x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__gnn_kernel i arg3 harg3 arg4 harg4 arg5 harg5 arg6 harg6 arg7 harg7 arg8 harg8) K } := by
  refine ⟨?_, ?_, fun E K => ?run⟩
  case run =>
    simp only [cc0__gnn_kernel_eq_skeleton]; unfold cc0__gnn_kernel_skel
    simp only [k0_part1_eq_skeleton, k0_part2_eq_skeleton, k0_part3_eq_skeleton, k0_part4_eq_skeleton]
    unfold k0_part1_skel k0_part2_skel k0_part3_skel k0_part4_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Gen

end
-- ==== Proof.KI.Frame.lean ====
/-
  The kernel's frame: what the accumulator and the output window hold after each of the 64 grid points (the accumulator
  reset at a first step of the neighbour-block axis, added to at every step, read out at the last), the proof data built
  on that, the body's obligation at every point, and the run of the whole program to the library's post.
-/
import proofs.«418662_j3908420239890_3_alg».proof.Proof.KI.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output window's buffer: its pieces read back (none: a placeholder nothing consults, the window being idle there). -/
def out0_A_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) : Vec F S1x128x4096 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- The pieces stored into the accumulator in case A cover it. -/
theorem scover0_A_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) (y : S128x4x64.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S128x4x64.size (by sl_kernel_rfl) y

/-- What case A leaves in the accumulator: its pieces read back. -/
def sout0_A_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) : Vec F S128x4x64 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- What case B leaves in the output window's buffer: its pieces read back (none: a placeholder nothing consults, the window being idle there). -/
def out0_B_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) : Vec F S1x128x4096 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- The pieces stored into the accumulator in case B cover it. -/
theorem scover0_B_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) (y : S128x4x64.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S128x4x64.size (by sl_kernel_rfl) y

/-- What case B leaves in the accumulator: its pieces read back. -/
def sout0_B_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) : Vec F S128x4x64 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- The pieces stored into the output window in case C tile its block, so they cover it. -/
theorem cover0_C_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) (y : S1x128x4096.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x128x4096.size (by sl_kernel_rfl) y

/-- What case C leaves in the output window's buffer: its pieces read back. -/
def out0_C_4 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) : Vec F S1x128x4096 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-- The pieces stored into the accumulator in case C cover it. -/
theorem scover0_C_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) (y : S128x4x64.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S128x4x64.size (by sl_kernel_rfl) y

/-- What case C leaves in the accumulator: its pieces read back. -/
def sout0_C_0 (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) : Vec F S128x4x64 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-! ## What the buffers hold after each point -/

/-- After the body at position n: the output window's buffer, then the accumulator. The case is read off n mod 4; a case
    that reads the accumulator takes what position n - 1 left in it. -/
def outsAt0 (c : Dev nD) : (n : ℕ) → n < cfg0.N → Vec F S1x128x4096 .f32 × Vec F S128x4x64 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: at the start the accumulator holds anything; afterwards what position n - 1 left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- On core c: the arrays as the call finds them; after the body at point t each input's buffer at its block and the
    output window's at what the accumulation says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- At any point the inputs' buffers hold their blocks; the point's position mod 4 says which case runs; the invariant
    hands the body the accumulator at what the point before left (at anything at the very first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 4 = 0
  · by_cases h1 : t.val % 4 = 3
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program ends, without a fault, with each window's array at what the proof data
    computes and every other buffer as the call found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Gen

end
-- ==== Proof.KI.Pieces.lean ====
/-
  What the body's stores amount to, as one pure function: at a grid point the accumulator becomes `incr` of the values
  loaded there and of what it held (zero, at a first step); at a last step the output block is the normalised matrix of
  the new accumulator.
-/
import proofs.«418662_j3908420239890_3_alg».proof.Proof.KI.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values loaded at a point -/

/-- The coordinate rows of the point's 128 atoms i, read from the structure's block. -/
abbrev ldCi (i : grid0.Coords) (x0 : Vec F S1x512x3 .f32) : Vec F S1x128x3 .f32 :=
  View.ld x0 (Rect.unit (s := S1x512x3) (k0_off1 i) S1x128x3.size (k0_off1_inb i))
/-- The coordinate rows of the point's 128 atoms j. -/
abbrev ldCj (i : grid0.Coords) (x0 : Vec F S1x512x3 .f32) : Vec F S1x128x3 .f32 :=
  View.ld x0 (Rect.unit (s := S1x512x3) (k0_off2 i) S1x128x3.size (k0_off2_inb i))
/-- The types of the atoms i. -/
abbrev ldZi (i : grid0.Coords) (x1 : Vec F S1x1x512 .i32) : Vec F S1x1x128 .i32 :=
  View.ld x1 (Rect.unit (s := S1x1x512) (k0_off3 i) S1x1x128.size (k0_off3_inb i))
/-- The types of the atoms j. -/
abbrev ldZj (i : grid0.Coords) (x1 : Vec F S1x1x512 .i32) : Vec F S1x1x128 .i32 :=
  View.ld x1 (Rect.unit (s := S1x1x512) (k0_off4 i) S1x1x128.size (k0_off4_inb i))

/-- One step of the accumulation, from the loaded values: what the accumulator held (v207) plus the tile's contribution. -/
def incr (i : grid0.Coords) (v8 v11 : Vec F S1x128x3 .f32) (v14 v17 : Vec F S1x1x128 .i32) (v68 : Vec F S136x4 .f32)
    (v135 : Vec F S264x4 .f32) (v207 : Vec F S128x4x64 .f32) : FVec F S128x4x64 .f32 :=
  k0_pay1
    (k0_pay11 (Scalar.muli (BitVec.ofNat 32 (i 2).val) 128#32) (k0_pay9 v8 v11) (k0_pay10 i))
    (k0_pay13 (k0_pay6 v8 v11) (k0_pay8 v8 v11) (k0_pay9 v8 v11))
    (k0_pay24 (k0_pay4 v14) (k0_pay20 (k0_pay14 (k0_pay5 v17)) v135) k0_pay21 (k0_pay22 (k0_pay14 (k0_pay5 v17)) v135))
    (k0_pay25 (k0_pay4 v14)
      (k0_pay19 (k0_pay4 v14) (k0_pay12 (k0_pay9 v8 v11)) (k0_pay15 (k0_pay5 v17) v68) (k0_pay16 (k0_pay4 v14) (k0_pay5 v17) v68)
        (k0_pay17 (k0_pay5 v17) v68) (k0_pay18 (k0_pay4 v14)))
      (k0_pay20 (k0_pay14 (k0_pay5 v17)) v135) k0_pay21 (k0_pay22 (k0_pay14 (k0_pay5 v17)) v135))
    v207

/-- The step at a point, from the blocks the point's windows hold. -/
def stepAt (i : grid0.Coords) (x0 : Vec F S1x512x3 .f32) (x1 : Vec F S1x1x512 .i32) (x2 : Vec F S136x4 .f32) (x3 : Vec F S264x4 .f32) (prev : Vec F S128x4x64 .f32) : FVec F S128x4x64 .f32 :=
  incr i (ldCi i x0) (ldCj i x0) (ldZi i x1) (ldZj i x1) x2 x3 prev

theorem hz3 : (![0, 0, 0] : Fin 3 → Nat) = fun _ => 0 := by funext a; fin_cases a <;> rfl
theorem hz2 : (![0, 0] : Fin 2 → Nat) = fun _ => 0 := by funext a; fin_cases a <;> rfl

set_option maxHeartbeats 2000000 in
/-- At a middle step the accumulator ends at the step of what it held. -/
theorem sout0_B_0_eq (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : ¬cond0_1 i)
    (x0 : Vec F S1x512x3 .f32) (x1 : Vec F S1x1x512 .i32) (x2 : Vec F S136x4 .f32) (x3 : Vec F S264x4 .f32) (xs0 : Vec F S128x4x64 .f32) :
    sout0_B_0 c i arg3 harg3 arg4 harg4 arg5 harg5 arg6 harg6 arg7 harg7 arg8 harg8 hc0 hc1 x0 x1 x2 x3 xs0 = stepAt i x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz3]
  simp only [View.readAt_eq_ld, Memref.IsWhole.read_unread, View.ld_unit_zero (S := S136x4) hz2,
    View.ld_unit_zero (S := S264x4) hz2, View.ld_unit_zero (S := S128x4x64) hz3]
  rfl

set_option maxHeartbeats 2000000 in
/-- At a last step the accumulator ends at the step of what it held. -/
theorem sout0_C_0_eq (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) :
    sout0_C_0 c i arg3 harg3 arg4 harg4 arg5 harg5 arg6 harg6 arg7 harg7 arg8 harg8 hc0 hc1 x0 x1 x2 x3 xs0 = stepAt i x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, Memref.IsWhole.read_unread, View.ld_unit_zero (S := S136x4) hz2,
    View.ld_unit_zero (S := S264x4) hz2, View.ld_unit_zero (S := S128x4x64) hz3]
  rfl

set_option maxHeartbeats 2000000 in
/-- At a last step the output block is the normalised matrix of the new accumulator. -/
theorem out0_C_4_eq (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : ¬cond0_0 i) (hc1 : cond0_1 i)
    (x0 : Vec F S1x512x3 .f32) (x1 : Vec F S1x1x512 .i32) (x2 : Vec F S136x4 .f32) (x3 : Vec F S264x4 .f32) (xs0 : Vec F S128x4x64 .f32) :
    out0_C_4 c i arg3 harg3 arg4 harg4 arg5 harg5 arg6 harg6 arg7 harg7 arg8 harg8 hc0 hc1 x0 x1 x2 x3 xs0 = k0_pay2 (stepAt i x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readCov_unit_zero (S := S128x4x64) _ hz3, View.readAt_eq_ld, Memref.IsWhole.read_unread, View.ld_unit_zero (S := S136x4) hz2,
    View.ld_unit_zero (S := S264x4) hz2, View.ld_unit_zero (S := S128x4x64) hz3]
  rfl

set_option maxHeartbeats 2000000 in
/-- At a first step the accumulator ends at the step of zero. -/
theorem sout0_A_0_eq (c : Dev nD) (i : grid0.Coords) (arg3 : Memref sig .tc .vmem S1x512x3 .f32) (harg3 : arg3.IsWhole) (arg4 : Memref sig .tc .vmem S1x1x512 .i32) (harg4 : arg4.IsWhole) (arg5 : Memref sig .tc .vmem S136x4 .f32) (harg5 : arg5.IsWhole) (arg6 : Memref sig .tc .vmem S264x4 .f32) (harg6 : arg6.IsWhole) (arg7 : Memref sig .tc .vmem S1x128x4096 .f32) (harg7 : arg7.IsWhole) (arg8 : Memref sig .tc .vmem S128x4x64 .f32) (harg8 : arg8.IsWhole) (hc0 : cond0_0 i) (hc1 : ¬cond0_1 i)
    (x0 : Vec F S1x512x3 .f32) (x1 : Vec F S1x1x512 .i32) (x2 : Vec F S136x4 .f32) (x3 : Vec F S264x4 .f32) :
    sout0_A_0 c i arg3 harg3 arg4 harg4 arg5 harg5 arg6 harg6 arg7 harg7 arg8 harg8 hc0 hc1 x0 x1 x2 x3 = stepAt i x0 x1 x2 x3 (k0_pay3 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S128x4x64) hz3]
  simp only [View.readCov_unit_zero (S := S128x4x64) _ hz3, View.readAt_eq_ld, Memref.IsWhole.read_unread, View.ld_unit_zero (S := S136x4) hz2,
    View.ld_unit_zero (S := S264x4) hz2, View.ld_unit_zero (S := S128x4x64) hz3]
  rfl

end Cert.KernelIdeal.Gen

end
-- ==== Proof.Spec.lean ====
/-
  The descriptor both programs compute, written once as plain functions of extended reals.

  For every structure b and atom i the result is the 64 x 64 matrix R = Lᵀ L divided by its Frobenius norm, where
  L[f, c] = Σ_j feat(i, j)[f] · φ(i, j)[c] · [j is a neighbour of i].  Here feat is the cutoff value and the three unit
  direction components scaled by it, φ is a radial basis expansion applied twice (its parameters picked by the pair's
  type label 4·z_i + z_j), and j is a neighbour of i when it lies within the cutoff radius and is not i itself.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

/-- The float literals both programs carry, kept as their words: 0, 1, the cutoff radius 6, π/6 rounded, 1/2. -/
abbrev Zr : EReal := Ideal.ofBits .f32 0x00000000#32
abbrev One : EReal := Ideal.ofBits .f32 0x3F800000#32
abbrev Six : EReal := Ideal.ofBits .f32 0x40C00000#32
abbrev Pi6 : EReal := Ideal.ofBits .f32 0x3F060A92#32
abbrev Half : EReal := Ideal.ofBits .f32 0x3F000000#32

/-! ## One pair of atoms, from their coordinates -/

/-- The displacement from atom i (at xi) to atom j (at xj) along axis k. -/
def disp (xi xj : Fin 3 → EReal) (k : Fin 3) : EReal := xj k - xi k

/-- The squared distance. -/
def dsq (xi xj : Fin 3 → EReal) : EReal := ∑ k : Fin 3, disp xi xj k * disp xi xj k

/-- Whether the squared distance is positive (it is zero for a pair of coincident atoms, the pair (i, i) among them). -/
def pos (xi xj : Fin 3 → EReal) : BitVec 1 := Ideal.cmp .ogt (dsq xi xj) Zr

/-- The distance with 1 in place of 0, so that dividing by it is harmless. -/
def safe (xi xj : Fin 3 → EReal) : EReal := Ideal.sqrt (Scalar.select (pos xi xj) (dsq xi xj) One)

/-- The distance. -/
def dist (xi xj : Fin 3 → EReal) : EReal := Scalar.select (pos xi xj) (safe xi xj) Zr

/-- The cosine cutoff ½ cos(d · π/6) + ½. -/
def cut (xi xj : Fin 3 → EReal) : EReal := Half * Ideal.cos (dist xi xj * Pi6) + Half

/-- Component k of the unit direction, scaled by the cutoff. -/
def dirc (xi xj : Fin 3 → EReal) (k : Fin 3) : EReal := Ideal.div (disp xi xj k) (safe xi xj) * cut xi xj

/-- The four geometric features of the pair: the cutoff, then the three scaled direction components. -/
def feat (xi xj : Fin 3 → EReal) (f : Fin 4) : EReal :=
  if h : f.val = 0 then cut xi xj else dirc xi xj ⟨f.val - 1, by omega⟩

/-! ## The radial basis expansion -/

/-- One layer's parameters, per pair label: a weight, a width, and C centres. -/
structure Tab (C : Nat) where
  w : Fin 16 → EReal
  s : Fin 16 → EReal
  c : Fin 16 → Fin C → EReal

/-- Channel k of the expansion of the scalar r under label l: w · exp(−((r − centre_k) · s)²). -/
def rbf {C : Nat} (T : Tab C) (l : Fin 16) (r : EReal) (k : Fin C) : EReal :=
  T.w l * Ideal.exp (-(((r - T.c l k) * T.s l) * ((r - T.c l k) * T.s l)))

/-- The pair label 4·z_i + z_j of two atom types in 0..3 (the remainders make it total). -/
def lab (zi zj : BitVec 32) : Fin 16 := ⟨4 * (zi.toNat % 4) + zj.toNat % 4, by omega⟩

/-- A one-bit word as the number 0 or 1. -/
def bitE (b : BitVec 1) : EReal := if b = 1#1 then 1 else 0

/-- j is a neighbour of i: within the cutoff radius, and not i itself. -/
def nbr (i j : Fin 512) (xi xj : Fin 3 → EReal) : BitVec 1 :=
  Ideal.cmp .ole (dist xi xj) Six &&& (if i = j then 0#1 else 1#1)

/-- The second layer's channel c for the pair: the expansion of the first layer's channel sum. -/
def phi {T0 : Tab 32} {T1 : Tab 64} (zi zj : BitVec 32) (xi xj : Fin 3 → EReal) (c : Fin 64) : EReal :=
  rbf T1 (lab zi zj) (∑ k : Fin 32, rbf T0 (lab zi zj) (cut xi xj) k) c

/-- What the pair (i, j) adds to L[f, c]. -/
def pairTerm (T0 : Tab 32) (T1 : Tab 64) (i j : Fin 512) (zi zj : BitVec 32) (xi xj : Fin 3 → EReal) (f : Fin 4) (c : Fin 64) : EReal :=
  feat xi xj f * (phi (T0 := T0) (T1 := T1) zi zj xi xj c * bitE (nbr i j xi xj))

/-! ## The whole descriptor -/

/-- The inputs: atom types and coordinates per structure and atom, and the two layers' parameters. -/
structure Inp where
  z : Fin 4 → Fin 512 → BitVec 32
  x : Fin 4 → Fin 512 → Fin 3 → EReal
  T0 : Tab 32
  T1 : Tab 64

def Lmat (I : Inp) (b : Fin 4) (i : Fin 512) (f : Fin 4) (c : Fin 64) : EReal :=
  ∑ j : Fin 512, pairTerm I.T0 I.T1 i j (I.z b i) (I.z b j) (I.x b i) (I.x b j) f c

def Rmat (I : Inp) (b : Fin 4) (i : Fin 512) (c d : Fin 64) : EReal :=
  ∑ f : Fin 4, Lmat I b i f c * Lmat I b i f d

def fro (I : Inp) (b : Fin 4) (i : Fin 512) : EReal :=
  Ideal.sqrt (∑ c : Fin 64, ∑ d : Fin 64, Rmat I b i c d * Rmat I b i c d)

/-- Entry e = 64·c + d of atom i's flattened matrix. -/
def out (I : Inp) (b : Fin 4) (i : Fin 512) (e : Fin 4096) : EReal :=
  Ideal.div (Rmat I b i ⟨e.val / 64, by omega⟩ ⟨e.val % 64, by omega⟩) (fro I b i)

/-- The inputs read off the argument arrays. -/
def inpOf (numbers : (⟨2, ![4, 512]⟩ : Shape).Idx → BitVec 32) (coords : (⟨3, ![4, 512, 3]⟩ : Shape).Idx → EReal)
    (nuww0 sigmas0 : (⟨1, ![16]⟩ : Shape).Idx → EReal) (centres0 : (⟨2, ![16, 32]⟩ : Shape).Idx → EReal)
    (nuww1 sigmas1 : (⟨1, ![16]⟩ : Shape).Idx → EReal) (centres1 : (⟨2, ![16, 64]⟩ : Shape).Idx → EReal) : Inp where
  z b n := numbers (ix2 b n)
  x b n k := coords (ix3 b n k)
  T0 := ⟨fun l => nuww0 (ix1 l), fun l => sigmas0 (ix1 l), fun l k => centres0 (ix2 l k)⟩
  T1 := ⟨fun l => nuww1 (ix1 l), fun l => sigmas1 (ix1 l), fun l k => centres1 (ix2 l k)⟩

/-- The result array. -/
def outArr (I : Inp) : (⟨3, ![4, 512, 4096]⟩ : Shape).Idx → EReal := fun j => out I (j 0) (j 1) (j 2)

end Cert.Gnn

end
-- ==== Proof.KTab.lean ====
/-
  The kernel's two parameter tables as it lays them out: for pair label l = 4a + b, layer-0 row 34a + k, column b holds
  centre k (k < 32), the weight (k = 32) and the width (k = 33); layer 1 likewise with 66 rows per a (64 centres, then
  weight and width).
-/
import proofs.«418662_j3908420239890_3_alg».proof.Proof.Spec

noncomputable section

namespace Cert.Gnn

open Idealize.ShloMosaic Idealize.ShloMosaic.ValueIdx

/-- Layer 0's parameters read off the 136 x 4 table. -/
def tab0 (v : (⟨2, ![136, 4]⟩ : Shape).Idx → EReal) : Tab 32 where
  w l := v (ix2 (⟨34 * (l.val / 4) + 32, by omega⟩ : Fin 136) (⟨l.val % 4, by omega⟩ : Fin 4))
  s l := v (ix2 (⟨34 * (l.val / 4) + 33, by omega⟩ : Fin 136) (⟨l.val % 4, by omega⟩ : Fin 4))
  c l k := v (ix2 (⟨34 * (l.val / 4) + k.val, by omega⟩ : Fin 136) (⟨l.val % 4, by omega⟩ : Fin 4))

/-- Layer 1's parameters read off the 264 x 4 table. -/
def tab1 (v : (⟨2, ![264, 4]⟩ : Shape).Idx → EReal) : Tab 64 where
  w l := v (ix2 (⟨66 * (l.val / 4) + 64, by omega⟩ : Fin 264) (⟨l.val % 4, by omega⟩ : Fin 4))
  s l := v (ix2 (⟨66 * (l.val / 4) + 65, by omega⟩ : Fin 264) (⟨l.val % 4, by omega⟩ : Fin 4))
  c l k := v (ix2 (⟨66 * (l.val / 4) + k.val, by omega⟩ : Fin 264) (⟨l.val % 4, by omega⟩ : Fin 4))

/-- The global atom index of row p of block n (blocks of 128 atoms, four of them). -/
def gidx (n : Fin 4) (p : Fin 128) : Fin 512 := ⟨128 * n.val + p.val, by omega⟩

end Cert.Gnn

end
-- ==== Proof.KI.Loads.lean ====
/-
  The four loads of a grid point (b, i, j), read at an index: rows 128 i … 128 i + 127 of the structure's coordinates
  and types for the atoms i, rows 128 j … 128 j + 127 for the atoms j.
-/
import proofs.«418662_j3908420239890_3_alg».proof.Proof.KI.Kit
import proofs.«418662_j3908420239890_3_alg».proof.Proof.KTab
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx Cert.Gnn
open Idealize.SL Idealize.SL.Sem
open Idealize.ShloMosaic.Pipeline (Dat Cfg Window)

variable {F : FTy → Type} [FloatOps F]

/-- The 32-bit word 128 n, for a grid coordinate n < 4, is the number 128 n: the product stays below 2 ^ 32,
    so the word arithmetic does not wrap. -/
private theorem word_mul_128 (n : Nat) (h : n < 4) :
    (Scalar.indexCast (Scalar.muli (BitVec.ofNat 32 n) 128#32)).toNat = 128 * n := by
  show ((BitVec.ofNat 32 n) * 128#32).toNat = 128 * n
  rw [BitVec.toNat_mul, BitVec.toNat_ofNat]
  show n % 2 ^ 32 * 128 % 2 ^ 32 = 128 * n
  rw [Nat.mod_eq_of_lt (by omega), Nat.mod_eq_of_lt (by omega)]
  omega

/-- Row p of the atoms-i load is row 128 i + p of the block. -/
theorem ld_ci (i : grid0.Coords) (x0 : Vec F S1x512x3 .f32) (p : Fin 128) (k : Fin 3) :
    (View.ld x0 (Rect.unit (s := S1x512x3) (k0_off1 i) S1x128x3.size (k0_off1_inb i)) : S1x128x3.Idx → Elt F .f32) (ix3 (0 : Fin 1) p k)
      = x0 (ix3 (0 : Fin 1) (gidx (⟨(i 1).val, (i 1).isLt⟩ : Fin 4) p) k) := by
  show x0 _ = x0 _
  congr 1
  funext a
  apply Fin.ext
  have h : (i 1).val < 4 := (i 1).isLt
  -- axis by axis: the offset plus the local coordinate against the coordinate on the right
  match a with
  | ⟨0, _⟩ => rfl
  | ⟨1, _⟩ =>
    show (Scalar.indexCast (Scalar.muli (BitVec.ofNat 32 (i 1).val) 128#32)).toNat + 1 * p.val
      = 128 * (i 1).val + p.val
    rw [word_mul_128 _ h]; omega
  | ⟨2, _⟩ =>
    show 0 + 1 * k.val = k.val
    omega

/-- Row q of the atoms-j load is row 128 j + q of the block. -/
theorem ld_cj (i : grid0.Coords) (x0 : Vec F S1x512x3 .f32) (q : Fin 128) (k : Fin 3) :
    (View.ld x0 (Rect.unit (s := S1x512x3) (k0_off2 i) S1x128x3.size (k0_off2_inb i)) : S1x128x3.Idx → Elt F .f32) (ix3 (0 : Fin 1) q k)
      = x0 (ix3 (0 : Fin 1) (gidx (⟨(i 2).val, (i 2).isLt⟩ : Fin 4) q) k) := by
  show x0 _ = x0 _
  congr 1
  funext a
  apply Fin.ext
  have h : (i 2).val < 4 := (i 2).isLt
  -- axis by axis: the offset plus the local coordinate against the coordinate on the right
  match a with
  | ⟨0, _⟩ => rfl
  | ⟨1, _⟩ =>
    show (Scalar.indexCast (Scalar.muli (BitVec.ofNat 32 (i 2).val) 128#32)).toNat + 1 * q.val
      = 128 * (i 2).val + q.val
    rw [word_mul_128 _ h]; omega
  | ⟨2, _⟩ =>
    show 0 + 1 * k.val = k.val
    omega

/-- Entry p of the atoms-i types load is entry 128 i + p of the block. -/
theorem ld_zi (i : grid0.Coords) (x1 : Vec F S1x1x512 .i32) (p : Fin 128) :
    (View.ld x1 (Rect.unit (s := S1x1x512) (k0_off3 i) S1x1x128.size (k0_off3_inb i)) : S1x1x128.Idx → Elt F .i32) (ix3 (0 : Fin 1) (0 : Fin 1) p)
      = x1 (ix3 (0 : Fin 1) (0 : Fin 1) (gidx (⟨(i 1).val, (i 1).isLt⟩ : Fin 4) p)) := by
  show x1 _ = x1 _
  congr 1
  funext a
  apply Fin.ext
  have h : (i 1).val < 4 := (i 1).isLt
  -- axis by axis: the two unit axes read 0, the last reads the offset plus the local coordinate
  match a with
  | ⟨0, _⟩ => rfl
  | ⟨1, _⟩ => rfl
  | ⟨2, _⟩ =>
    show (Scalar.indexCast (Scalar.muli (BitVec.ofNat 32 (i 1).val) 128#32)).toNat + 1 * p.val
      = 128 * (i 1).val + p.val
    rw [word_mul_128 _ h]; omega

/-- Entry q of the atoms-j types load is entry 128 j + q of the block. -/
theorem ld_zj (i : grid0.Coords) (x1 : Vec F S1x1x512 .i32) (q : Fin 128) :
    (View.ld x1 (Rect.unit (s := S1x1x512) (k0_off4 i) S1x1x128.size (k0_off4_inb i)) : S1x1x128.Idx → Elt F .i32) (ix3 (0 : Fin 1) (0 : Fin 1) q)
      = x1 (ix3 (0 : Fin 1) (0 : Fin 1) (gidx (⟨(i 2).val, (i 2).isLt⟩ : Fin 4) q)) := by
  show x1 _ = x1 _
  congr 1
  funext a
  apply Fin.ext
  have h : (i 2).val < 4 := (i 2).isLt
  -- axis by axis: the two unit axes read 0, the last reads the offset plus the local coordinate
  match a with
  | ⟨0, _⟩ => rfl
  | ⟨1, _⟩ => rfl
  | ⟨2, _⟩ =>
    show (Scalar.indexCast (Scalar.muli (BitVec.ofNat 32 (i 2).val) 128#32)).toNat + 1 * q.val
      = 128 * (i 2).val + q.val
    rw [word_mul_128 _ h]; omega

/-- The types vector with its two unit axes dropped. -/
theorem pay4_apply (v14 : Vec F S1x1x128 .i32) (p : Fin 128) :
    k0_pay4 (F := F) v14 (ix1 p) = v14 (ix3 (0 : Fin 1) (0 : Fin 1) p) := by
  unfold k0_pay4
  -- the cast keeps the row-major position: ((0 * 1 + 0) * 128 + p) on the left, p on the right
  refine shapeCast_apply v14 shapeCasts_S1x1x128_S128 (ix1 p) (ix3 (0 : Fin 1) (0 : Fin 1) p) ?_
  show ((⟨3, ![1, 1, 128]⟩ : Shape).rowMajor (ix3 (0 : Fin 1) (0 : Fin 1) p)).val
      = ((⟨1, ![128]⟩ : Shape).rowMajor (ix1 p)).val
  rw [Shape.rowMajor_val_three, Shape.rowMajor_val_one]
  show ((0 : Fin 1).val * 1 + (0 : Fin 1).val) * 128 + p.val = p.val
  simp

theorem pay5_apply (v17 : Vec F S1x1x128 .i32) (q : Fin 128) :
    k0_pay5 (F := F) v17 (ix1 q) = v17 (ix3 (0 : Fin 1) (0 : Fin 1) q) := by
  unfold k0_pay5
  -- the cast keeps the row-major position: ((0 * 1 + 0) * 128 + q) on the left, q on the right
  refine shapeCast_apply v17 shapeCasts_S1x1x128_S128 (ix1 q) (ix3 (0 : Fin 1) (0 : Fin 1) q) ?_
  show ((⟨3, ![1, 1, 128]⟩ : Shape).rowMajor (ix3 (0 : Fin 1) (0 : Fin 1) q)).val
      = ((⟨1, ![128]⟩ : Shape).rowMajor (ix1 q)).val
  rw [Shape.rowMajor_val_three, Shape.rowMajor_val_one]
  show ((0 : Fin 1).val * 1 + (0 : Fin 1).val) * 128 + q.val = q.val
  simp

end Cert.KernelIdeal.Gen

end
-- ==== Proof.KGeom.lean ====
/-
  The pair geometry as the kernel computes it on a 128 x 128 tile: from the coordinate rows of the tile's atoms i (rows
  of v8) and j (rows of v11) to the four features, the cutoff and the neighbour mask of each pair.
-/
import proofs.«418662_j3908420239890_3_alg».proof.Proof.Gen.KernelIdeal.Skeleton
import proofs.«418662_j3908420239890_3_alg».proof.Proof.Spec
import proofs.«418662_j3908420239890_3_alg».proof.Proof.KTab
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.K

open Idealize.ShloMosaic Idealize.ShloMosaic.ValueIdx Cert.KernelIdeal Cert.KernelIdeal.Gen Cert.Gnn

/-! ## Layout operations of rank 3 read at an index given by coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(p, k, q)`, the operand at `(0, k, q)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (k : Fin b) (q : Fin c) :
    broadcastTo ⟨3, ![a, b, c]⟩ v h (ix3 p k q) = v (ix3 (0 : Fin 1) k q) := by
  refine broadcastTo_apply v h (ix3 p k q) (ix3 (0 : Fin 1) k q) fun ax => ?_
  match ax with
  | ⟨0, _⟩ => rfl
  | ⟨1, _⟩ =>
    show k.val = if b = 1 then 0 else k.val
    split
    · have := k.isLt; omega
    · rfl
  | ⟨2, _⟩ =>
    show q.val = if c = 1 then 0 else q.val
    split
    · have := q.isLt; omega
    · rfl

/-- An `[a, b, 1]` array broadcast to `[a, b, c]` reads, at `(p, k, q)`, the operand at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- An `[a, 1, c]` array broadcast to `[a, b, c]` reads, at `(p, k, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Layout

/-- The index a lane sum over the middle axis of a rank-3 array reads: the reduced index with the coordinate put back. -/
theorem lift_mid {a b c : ℕ} (h : (⟨3, ![a, b, c]⟩ : Shape).Reduces [1] ⟨2, ![a, c]⟩) (p : Fin a) (q : Fin c) (k : Fin b) :
    h.lift (ix2 p q) k = ix3 p k q := by
  funext d
  match d with
  | ⟨0, _⟩ => rfl
  | ⟨1, _⟩ => rfl
  | ⟨2, _⟩ => rfl

/-- A sum over the middle axis of a rank-3 array of extended reals, read at `(p, q)`: the sum over `k` of the entries
    `(p, k, q)`. -/
theorem multiReduction_add_mid_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ src acc h hφ hacc (ix2 p q) = ∑ k : Fin b, src (ix3 p k q) :=
  (Ideal.multiReduction_add_single src acc h hφ hacc (ix2 p q)).trans
    (Finset.sum_congr rfl fun k _ => congrArg src (lift_mid h p q k))

/-! ## The two global atom indices as 32-bit words -/

/-- 128 · n + r as a 32-bit word, for a block number below 4 and a row below 128: the word arithmetic does not wrap. -/
theorem gword (n : Fin 4) (r : Fin 128) :
    IntOp.addi (Scalar.muli (BitVec.ofNat 32 n.val) 128#32) (BitVec.ofNat 32 r.val) = BitVec.ofNat 32 (gidx n r).val := by
  apply BitVec.eq_of_toNat_eq
  have hn := n.isLt
  have hr := r.isLt
  show ((BitVec.ofNat 32 n.val * 128#32) + BitVec.ofNat 32 r.val).toNat = (BitVec.ofNat 32 (128 * n.val + r.val)).toNat
  simp only [BitVec.toNat_add, BitVec.toNat_mul, BitVec.toNat_ofNat]
  omega

/-- The words of two global atom indices are equal exactly when the indices are. -/
theorem gword_eq_iff (a b : Fin 512) : BitVec.ofNat 32 a.val = BitVec.ofNat 32 b.val ↔ a = b := by
  constructor
  · intro e
    have := congrArg BitVec.toNat e
    simp only [BitVec.toNat_ofNat] at this
    apply Fin.ext
    have ha := a.isLt
    have hb := b.isLt
    omega
  · intro e
    rw [e]

/-- "Not equal", as the kernel computes it on the two words (equality, then exclusive or with the true bit). -/
theorem neq_word (n m : Fin 4) (p q : Fin 128) :
    IntOp.xori (IntOp.cmpi .eq (IntOp.addi (Scalar.muli (BitVec.ofNat 32 n.val) 128#32) (BitVec.ofNat 32 p.val))
        (IntOp.addi (Scalar.muli (BitVec.ofNat 32 m.val) 128#32) (BitVec.ofNat 32 q.val))) 1#1
      = if gidx n p = gidx m q then 0#1 else 1#1 := by
  rw [gword, gword]
  by_cases h : gidx n p = gidx m q
  · rw [if_pos h, h]
    simp [IntOp.xori, IntOp.cmpi]
  · rw [if_neg h]
    have hne : ¬ BitVec.ofNat 32 (gidx n p).val = BitVec.ofNat 32 (gidx m q).val := fun e => h ((gword_eq_iff _ _).1 e)
    have hb : (BitVec.ofNat 32 (gidx n p).val == BitVec.ofNat 32 (gidx m q).val) = false := beq_eq_false_iff_ne.2 hne
    show BitVec.ofBool (BitVec.ofNat 32 (gidx n p).val == BitVec.ofNat 32 (gidx m q).val) ^^^ 1#1 = 1#1
    rw [hb]
    rfl

variable [Cert.KernelIdeal.Facts]

/-- The displacement of the pair (p, q) along axis k. -/
theorem pay6_apply (v8 v11 : Vec Ideal S1x128x3 .f32) (p : Fin 128) (k : Fin 3) (q : Fin 128) :
    k0_pay6 (F := Ideal) v8 v11 (ix3 p k q)
      = disp (fun k => v8 (ix3 (0 : Fin 1) p k)) (fun k => v11 (ix3 (0 : Fin 1) q k)) k := by
  unfold k0_pay6
  show broadcastTo S128x3x128 (shapeCast S1x3x128 (transpose S3x128 [1, 0] (shapeCast S128x3 v11 _) _) _) _ (ix3 p k q)
      - broadcastTo S128x3x128 (shapeCast S128x3x1 (shapeCast S128x3 v8 _) _) _ (ix3 p k q) = _
  rw [broadcastTo_1bc_abc_apply, shapeCast_ab_1ab_apply, transpose_ix2_apply, shapeCast_1ab_ab_apply,
    broadcastTo_ab1_abc_apply, shapeCast_ab_ab1_apply, shapeCast_1ab_ab_apply]
  rfl

/-- The squared distance of the pair (p, q). -/
theorem pay7_apply (v8 v11 : Vec Ideal S1x128x3 .f32) (p q : Fin 128) :
    k0_pay7 (F := Ideal) v8 v11 (ix2 p q)
      = dsq (fun k => v8 (ix3 (0 : Fin 1) p k)) (fun k => v11 (ix3 (0 : Fin 1) q k)) := by
  unfold k0_pay7
  refine (multiReduction_add_mid_apply _ _ _ _ _ p q).trans ?_
  unfold dsq
  refine Finset.sum_congr rfl fun k _ => ?_
  show k0_pay6 v8 v11 (ix3 p k q) * k0_pay6 v8 v11 (ix3 p k q) = _
  rw [pay6_apply]

/-- The distance of the pair (p, q) with 1 in place of 0. -/
theorem pay8_apply (v8 v11 : Vec Ideal S1x128x3 .f32) (p q : Fin 128) :
    k0_pay8 (F := Ideal) v8 v11 (ix2 p q)
      = safe (fun k => v8 (ix3 (0 : Fin 1) p k)) (fun k => v11 (ix3 (0 : Fin 1) q k)) := by
  unfold k0_pay8
  show Ideal.sqrt (Scalar.select (Ideal.cmp .ogt (k0_pay7 v8 v11 (ix2 p q)) Zr) (k0_pay7 v8 v11 (ix2 p q)) One) = _
  rw [pay7_apply]
  rfl

/-- The distance of the pair (p, q). -/
theorem pay9_apply (v8 v11 : Vec Ideal S1x128x3 .f32) (p q : Fin 128) :
    k0_pay9 (F := Ideal) v8 v11 (ix2 p q)
      = dist (fun k => v8 (ix3 (0 : Fin 1) p k)) (fun k => v11 (ix3 (0 : Fin 1) q k)) := by
  unfold k0_pay9
  show Scalar.select (Ideal.cmp .ogt (k0_pay7 v8 v11 (ix2 p q)) Zr) (k0_pay8 v8 v11 (ix2 p q)) Zr = _
  rw [pay7_apply, pay8_apply]
  rfl

/-- The cutoff of the pair (p, q). -/
theorem cut_apply (v8 v11 : Vec Ideal S1x128x3 .f32) (p q : Fin 128) :
    k0_pay12 (F := Ideal) (k0_pay9 v8 v11) (ix2 p q) = cut (fun k => v8 (ix3 (0 : Fin 1) p k)) (fun k => v11 (ix3 (0 : Fin 1) q k)) := by
  unfold k0_pay12
  show Half * Ideal.cos (k0_pay9 v8 v11 (ix2 p q) * Pi6) + Half = _
  rw [pay9_apply]
  rfl

/-- The four features of the pair (p, q) of the tile. -/
theorem feat_apply (v8 v11 : Vec Ideal S1x128x3 .f32) (p : Fin 128) (f : Fin 4) (q : Fin 128) :
    k0_pay13 (F := Ideal) (k0_pay6 v8 v11) (k0_pay8 v8 v11) (k0_pay9 v8 v11) (ix3 p f q)
      = feat (fun k => v8 (ix3 (0 : Fin 1) p k)) (fun k => v11 (ix3 (0 : Fin 1) q k)) f := by
  unfold k0_pay13
  rcases f with ⟨_ | k, hf⟩
  · refine (concatenate_pair_apply_left (t := S128x4x128) (s₁ := S128x1x128) (s₂ := S128x3x128) 1 _ _ _
      (ix3 p (⟨0, hf⟩ : Fin 4) q) rfl (ix3 p (0 : Fin 1) q) (fun b => ?_)).trans ?_
    · match b with
      | ⟨0, _⟩ => rfl
      | ⟨1, _⟩ => rfl
      | ⟨2, _⟩ => rfl
    · rw [shapeCast_ab_a1b_apply, cut_apply]
      rfl
  · have hk : k < 3 := by omega
    refine (concatenate_pair_apply_right (t := S128x4x128) (s₁ := S128x1x128) (s₂ := S128x3x128) 1 _ _ _
      (ix3 p (⟨k + 1, hf⟩ : Fin 4) q) rfl rfl (ix3 p (⟨k, hk⟩ : Fin 3) q) (fun b hb => ?_) ?_).trans ?_
    · match b with
      | ⟨0, _⟩ => rfl
      | ⟨1, _⟩ => exact absurd rfl hb
      | ⟨2, _⟩ => rfl
    · rfl
    · show Ideal.div (k0_pay6 v8 v11 (ix3 p ⟨k, hk⟩ q))
          (broadcastTo S128x3x128 (shapeCast S128x1x128 (k0_pay8 v8 v11) _) _ (ix3 p ⟨k, hk⟩ q))
        * broadcastTo S128x3x128 (shapeCast S128x1x128 (k0_pay12 (k0_pay9 v8 v11)) _) _ (ix3 p ⟨k, hk⟩ q) = _
      rw [broadcastTo_a1c_abc_apply, broadcastTo_a1c_abc_apply, shapeCast_ab_a1b_apply, shapeCast_ab_a1b_apply,
        pay6_apply, pay8_apply, cut_apply]
      rfl

/-- The neighbour mask of the pair (p, q) at grid point i: within the cutoff radius, and the two global atom indices
    (128 · i₁ + p and 128 · i₂ + q) different. -/
theorem nbr_apply (i : grid0.Coords) (v8 v11 : Vec Ideal S1x128x3 .f32) (p q : Fin 128) :
    k0_pay11 (F := Ideal) (Scalar.muli (BitVec.ofNat 32 (i 2).val) 128#32) (k0_pay9 v8 v11) (k0_pay10 i) (ix2 p q)
      = nbr (gidx (i 1) p) (gidx (i 2) q) (fun k => v8 (ix3 (0 : Fin 1) p k)) (fun k => v11 (ix3 (0 : Fin 1) q k)) := by
  unfold k0_pay11 k0_pay10
  show IntOp.andi (Ideal.cmp .ole (k0_pay9 v8 v11 (ix2 p q)) Six)
      (IntOp.xori (IntOp.cmpi .eq
        (IntOp.addi (Scalar.muli (BitVec.ofNat 32 (i 1).val) 128#32) (iota .tc S128x128 32 [0] _ (ix2 p q)))
        (IntOp.addi (Scalar.muli (BitVec.ofNat 32 (i 2).val) 128#32) (iota .tc S128x128 32 [1] _ (ix2 p q)))) 1#1) = _
  rw [iota_single_apply, iota_single_apply, pay9_apply]
  show _ &&& IntOp.xori (IntOp.cmpi .eq (IntOp.addi (Scalar.muli (BitVec.ofNat 32 (i 1).val) 128#32) (BitVec.ofNat 32 p.val))
        (IntOp.addi (Scalar.muli (BitVec.ofNat 32 (i 2).val) 128#32) (BitVec.ofNat 32 q.val))) 1#1 = _
  rw [neq_word (i 1) (i 2) p q]
  rfl

end Cert.Gnn.K

end
-- ==== Proof.KLayer0.lean ====
/-
  The first expansion layer on a tile. The kernel picks the pair's parameters without indexing: a product of the table
  with the 0/1 matrix [b = z_j] selects column z_j for every a at once, and a sum over a of [z_i = a] times the a-th row
  group selects z_i. For atom types in 0..3 exactly one term of each sum survives, and it is the table's entry at the
  pair label 4 z_i + z_j.
-/
import proofs.«418662_j3908420239890_3_alg».proof.Proof.Gen.KernelIdeal.Skeleton
import proofs.«418662_j3908420239890_3_alg».proof.Proof.Spec
import proofs.«418662_j3908420239890_3_alg».proof.Proof.KTab
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.K

open Idealize.ShloMosaic Idealize.ShloMosaic.ValueIdx Cert.KernelIdeal Cert.KernelIdeal.Gen Cert.Gnn

variable [Cert.KernelIdeal.Facts]

namespace L0

/-! ## A word comparison as the number 0 or 1 -/

/-- A comparison of two words for equality, widened to 32 bits and converted to a float, is the number 1 where the words
    are equal and 0 where they differ. -/
theorem gate_eq (x y : BitVec 32) :
    FloatOps.sitofp (F := Ideal) .f32 ((IntOp.cmpi .eq x y).setWidth 32) = if x = y then (1 : EReal) else 0 := by
  have h1 : ((1#1 : BitVec 1).setWidth 32).toInt = 1 := by decide
  have h0 : ((0#1 : BitVec 1).setWidth 32).toInt = 0 := by decide
  by_cases h : x = y
  · have hb : (x == y) = true := beq_iff_eq.mpr h
    have hc : IntOp.cmpi .eq x y = 1#1 := by unfold IntOp.cmpi; rw [hb]; rfl
    rw [hc, if_pos h]
    show (((((1#1 : BitVec 1).setWidth 32).toInt : ℤ) : ℝ) : EReal) = 1
    rw [h1]; simp
  · have hb : (x == y) = false := beq_eq_false_iff_ne.mpr h
    have hc : IntOp.cmpi .eq x y = 0#1 := by unfold IntOp.cmpi; rw [hb]; rfl
    rw [hc, if_neg h]
    show (((((0#1 : BitVec 1).setWidth 32).toInt : ℤ) : ℝ) : EReal) = 0
    rw [h0]; simp

/-- Two atom types below 4 that are equal as 32-bit words are equal. -/
theorem ofNat_inj4 {b z : Fin 4} (h : BitVec.ofNat 32 b.val = BitVec.ofNat 32 z.val) : b = z := by
  have := congrArg BitVec.toNat h
  simp only [BitVec.toNat_ofNat] at this
  exact Fin.ext (by omega)

/-! ## Layout operations of this kernel read at explicit coordinates -/

section Layout
variable {α : Type}

/-- A per-atom vector [128] viewed [128, 1, 1] and broadcast to [128, 34, 128] reads, at (p, k, q), the vector at p. -/
theorem bcast_atom (v : S128.Idx → α) (h1 : S128.ShapeCasts S128x1x1) (h2 : S128x1x1.Broadcasts S128x34x128)
    (p : Fin 128) (k : Fin 34) (q : Fin 128) :
    broadcastTo S128x34x128 (shapeCast S128x1x1 v h1) h2 (ix3 p k q) = v (ix1 p) := by
  refine (broadcastTo_apply _ h2 (ix3 p k q) (ix3 p (0 : Fin 1) (0 : Fin 1)) fun a => ?_).trans
    (shapeCast_apply v h1 _ (ix1 p) ?_)
  · match a with
    | ⟨0, _⟩ => rfl
    | ⟨1, _⟩ => rfl
    | ⟨2, _⟩ => rfl
  · rw [Shape.rowMajor_val_one, Shape.rowMajor_val_three]
    show p.val = (p.val * 1 + 0) * 1 + 0
    omega

/-- A block of rows [34, 128] viewed [1, 34, 128] and broadcast to [128, 34, 128] reads, at (p, k, q), the block at (k, q). -/
theorem bcast_rows (w : S34x128.Idx → α) (h1 : S34x128.ShapeCasts S1x34x128) (h2 : S1x34x128.Broadcasts S128x34x128)
    (p : Fin 128) (k : Fin 34) (q : Fin 128) :
    broadcastTo S128x34x128 (shapeCast S1x34x128 w h1) h2 (ix3 p k q) = w (ix2 k q) := by
  refine (broadcastTo_apply _ h2 (ix3 p k q) (ix3 (0 : Fin 1) k q) fun a => ?_).trans
    (shapeCast_ab_1ab_apply w h1 0 k q)
  match a with
  | ⟨0, _⟩ => rfl
  | ⟨1, _⟩ => rfl
  | ⟨2, _⟩ => rfl

/-- A per-pair matrix [128, 128] viewed [128, 1, 128] and broadcast to [128, 32, 128] reads, at (p, k, q), the matrix at (p, q). -/
theorem bcast_pair (v : S128x128.Idx → α) (h1 : S128x128.ShapeCasts S128x1x128) (h2 : S128x1x128.Broadcasts S128x32x128)
    (p : Fin 128) (k : Fin 32) (q : Fin 128) :
    broadcastTo S128x32x128 (shapeCast S128x1x128 v h1) h2 (ix3 p k q) = v (ix2 p q) := by
  refine (broadcastTo_apply _ h2 (ix3 p k q) (ix3 p (0 : Fin 1) q) fun a => ?_).trans
    (shapeCast_apply v h1 _ (ix2 p q) ?_)
  · match a with
    | ⟨0, _⟩ => rfl
    | ⟨1, _⟩ => rfl
    | ⟨2, _⟩ => rfl
  · rw [Shape.rowMajor_val_two, Shape.rowMajor_val_three]
    show p.val * 128 + q.val = (p.val * 1 + 0) * 128 + q.val
    omega

/-- Channel o of a [128, 34, 128] array cut out as [128, 1, 128] and viewed [128, 128] reads, at (p, q), the array at (p, o, q). -/
theorem channel_apply (o : Nat) (X : S128x34x128.Idx → α) (hs : S128x34x128.Slices ![0, o, 0] S128x1x128)
    (hc : S128x1x128.ShapeCasts S128x128) (c : Fin 34) (ho : c.val = o) (p q : Fin 128) :
    shapeCast S128x128 (extractStridedSlice S128x1x128 ![0, o, 0] X hs) hc (ix2 p q) = X (ix3 p c q) := by
  refine (shapeCast_apply _ hc (ix2 p q) (ix3 p (0 : Fin 1) q) ?_).trans
    (slice3_axis1_apply o X hs p 0 q c (by rw [ho]; rfl))
  rw [Shape.rowMajor_val_two, Shape.rowMajor_val_three]
  show (p.val * 1 + 0) * 128 + q.val = p.val * 128 + q.val
  omega

/-- The first 32 channels of a [128, 34, 128] array read, at (p, k, q), the array at (p, k, q). -/
theorem centres_apply (X : S128x34x128.Idx → α) (hs : S128x34x128.Slices ![0, 0, 0] S128x32x128)
    (p : Fin 128) (k : Fin 32) (q : Fin 128) :
    extractStridedSlice S128x32x128 ![0, 0, 0] X hs (ix3 p k q) = X (ix3 p (⟨k.val, by omega⟩ : Fin 34) q) :=
  slice3_axis1_apply 0 X hs p k q ⟨k.val, by omega⟩ (Nat.zero_add _).symm

/-- Rows o … o + 33 of a [136, 128] array read, at (k, q), the array at (o + k, q). -/
theorem rows_apply (o : Nat) (X : S136x128.Idx → α) (hs : S136x128.Slices ![o, 0] S34x128) (k : Fin 34) (q : Fin 128)
    (r : Fin 136) (hr : r.val = o + k.val) :
    extractStridedSlice S34x128 ![o, 0] X hs (ix2 k q) = X (ix2 r q) :=
  slice2_axis0_apply o X hs k q r hr

end Layout

/-! ## The 0/1 matrix of atom types -/

/-- Entry (b, q) of the 0/1 matrix is 1 where atom q has type b and 0 elsewhere. -/
theorem onehot_apply (v18 : IVec S128 32) (b : Fin 4) (q : Fin 128) :
    k0_pay14 (F := Ideal) v18 (ix2 b q) = if BitVec.ofNat 32 b.val = v18 (ix1 q) then (1 : EReal) else 0 := by
  unfold k0_pay14
  have hi : iota .tc S4x128 32 [0] Facts₀.iota_S4x128_d0_w32 (ix2 b q) = BitVec.ofNat 32 b.val :=
    iota_single_apply _ _ _ _ _ _
  have hb : broadcastTo S4x128 (shapeCast S1x128 v18 Facts₀.shapeCasts_S128_S1x128) Facts₀.broadcasts_S1x128_S4x128 (ix2 b q)
      = v18 (ix1 q) :=
    (broadcastTo_1b_ab_apply _ _ b q).trans (shapeCast_a_1a_apply v18 _ 0 q)
  exact (congrArg₂ (fun x y => FloatOps.sitofp (F := Ideal) .f32 ((IntOp.cmpi .eq x y).setWidth 32)) hi hb).trans
    (gate_eq _ _)

/-! ## The table times the 0/1 matrix -/

/-- The product's operand indices at result index i and contraction position c, axis by axis: the table is read at row
    i 0 and column c, the 0/1 matrix at row c and column i 1. -/
theorem lhs_tab_0 (i : S136x128.Idx) (c : dot_S136x4_S4x128_S136x128_1_0_0_1_n_n.contr.Idx) :
    (dot_S136x4_S4x128_S136x128_1_0_0_1_n_n.lhsIdx i c 0).val = (i 0).val := by
  unfold DotDims.lhsIdx
  rw [dif_neg (show ¬(0 : Fin S136x4.rank) ∈ dot_S136x4_S4x128_S136x128_1_0_0_1_n_n.lhsBatch by decide), dif_pos (show (0 : Fin S136x4.rank) ∈ dot_S136x4_S4x128_S136x128_1_0_0_1_n_n.lhsNonContracting by decide)]
  rfl
theorem lhs_tab_1 (i : S136x128.Idx) (c : dot_S136x4_S4x128_S136x128_1_0_0_1_n_n.contr.Idx) :
    (dot_S136x4_S4x128_S136x128_1_0_0_1_n_n.lhsIdx i c 1).val = (c ⟨0, by decide⟩).val :=
  dot_S136x4_S4x128_S136x128_1_0_0_1_n_n.lhsIdx_val_of_single rfl i c
theorem rhs_tab_0 (i : S136x128.Idx) (c : dot_S136x4_S4x128_S136x128_1_0_0_1_n_n.contr.Idx) :
    (dot_S136x4_S4x128_S136x128_1_0_0_1_n_n.rhsIdx i c 0).val = (c ⟨0, by decide⟩).val :=
  dot_S136x4_S4x128_S136x128_1_0_0_1_n_n.rhsIdx_val_of_single rfl i c
theorem rhs_tab_1 (i : S136x128.Idx) (c : dot_S136x4_S4x128_S136x128_1_0_0_1_n_n.contr.Idx) :
    (dot_S136x4_S4x128_S136x128_1_0_0_1_n_n.rhsIdx i c 1).val = (i 1).val := by
  unfold DotDims.rhsIdx
  rw [dif_neg (show ¬(1 : Fin S4x128.rank) ∈ dot_S136x4_S4x128_S136x128_1_0_0_1_n_n.rhsBatch by decide), dif_pos (show (1 : Fin S4x128.rank) ∈ dot_S136x4_S4x128_S136x128_1_0_0_1_n_n.rhsNonContracting by decide)]
  rfl

/-- Entry (r, q) of the product is the sum over the four atom types b of the table's (r, b) times the 0/1 matrix's (b, q). -/
theorem prod_apply (v18 : IVec S128 32) (v68 : Vec Ideal S136x4 .f32) (r : Fin 136) (q : Fin 128) :
    k0_pay15 (F := Ideal) v18 v68 (ix2 r q) = ∑ b : Fin 4, v68 (ix2 r b) * k0_pay14 (F := Ideal) v18 (ix2 b q) := by
  unfold k0_pay15
  refine (Ideal.matmul_constant_zero_apply dot_S136x4_S4x128_S136x128_1_0_0_1_n_n (some .fp32) _ _ (ix2 r q)).trans ?_
  rw [← Equiv.sum_comp (contrEquiv1 dot_S136x4_S4x128_S136x128_1_0_0_1_n_n 4 rfl rfl).symm]
  refine Finset.sum_congr rfl fun b _ => ?_
  have hk := contrEquiv1_symm_val dot_S136x4_S4x128_S136x128_1_0_0_1_n_n 4 rfl rfl b
  have el : dot_S136x4_S4x128_S136x128_1_0_0_1_n_n.lhsIdx (ix2 r q) ((contrEquiv1 dot_S136x4_S4x128_S136x128_1_0_0_1_n_n 4 rfl rfl).symm b) = ix2 r b := funext fun a => Fin.ext (by
    match a with
    | ⟨0, _⟩ => exact lhs_tab_0 _ _
    | ⟨1, _⟩ => exact (lhs_tab_1 _ _).trans hk)
  have er : dot_S136x4_S4x128_S136x128_1_0_0_1_n_n.rhsIdx (ix2 r q) ((contrEquiv1 dot_S136x4_S4x128_S136x128_1_0_0_1_n_n 4 rfl rfl).symm b) = ix2 b q := funext fun a => Fin.ext (by
    match a with
    | ⟨0, _⟩ => exact (rhs_tab_0 _ _).trans hk
    | ⟨1, _⟩ => exact rhs_tab_1 _ _)
  rw [el, er, shapeCast_self]

/-- For an atom q of type z below 4 the product's column q is the table's column z: in the sum over b every term but b = z
    is the table's entry times 0, and that one is the entry times 1; both hold for every extended real. -/
theorem prod_select (v18 : IVec S128 32) (v68 : Vec Ideal S136x4 .f32) (r : Fin 136) (q : Fin 128) (z : Fin 4)
    (hz : v18 (ix1 q) = BitVec.ofNat 32 z.val) :
    k0_pay15 (F := Ideal) v18 v68 (ix2 r q) = v68 (ix2 r z) := by
  rw [prod_apply, Finset.sum_eq_single z]
  · rw [onehot_apply, if_pos hz.symm, mul_one]
  · intro b _ hb
    rw [onehot_apply, if_neg (fun h => hb (ofNat_inj4 (h.trans hz))), mul_zero]
  · intro h; exact absurd (Finset.mem_univ z) h

/-! ## The row selection -/

/-- A vector exponential at an index is the exponential of the element. -/
theorem exp_apply {s : Shape} {φ : FTy} (x : FVec Ideal s φ) (i : s.Idx) : exp x i = Ideal.exp (x i) := rfl

/-- The float zero the kernel broadcasts is the number 0. -/
theorem scalar_zero : (Scalar.ofBits .f32 0x00000000#32 : Ideal .f32) = 0 := Ideal.ofBits_zero_f32

/-- The gate for atom type a at atom p: 1 where atom p has type a, else 0. -/
theorem typeGate_apply (v15 : IVec S128 32) (a : BitVec 32) (h : 1 < 32) (p : Fin 128) :
    (sitofp .f32 (extui 32 (cmpi .eq v15 (broadcast S128 a)) h) : FVec Ideal S128 .f32) (ix1 p)
      = if v15 (ix1 p) = a then (1 : EReal) else 0 := gate_eq _ _

/-- Channel 32 (the weight) and channel 33 (the width) of a [128, 34, 128] array, each viewed as a [128, 128] matrix. -/
theorem chan32_apply {α : Type} (X : S128x34x128.Idx → α) (hs : S128x34x128.Slices ![0, 32, 0] S128x1x128)
    (hc : S128x1x128.ShapeCasts S128x128) (p q : Fin 128) :
    shapeCast S128x128 (extractStridedSlice S128x1x128 ![0, 32, 0] X hs) hc (ix2 p q) = X (ix3 p (⟨32, by omega⟩ : Fin 34) q) :=
  channel_apply 32 X hs hc ⟨32, by omega⟩ rfl p q
theorem chan33_apply {α : Type} (X : S128x34x128.Idx → α) (hs : S128x34x128.Slices ![0, 33, 0] S128x1x128)
    (hc : S128x1x128.ShapeCasts S128x128) (p q : Fin 128) :
    shapeCast S128x128 (extractStridedSlice S128x1x128 ![0, 33, 0] X hs) hc (ix2 p q) = X (ix3 p (⟨33, by omega⟩ : Fin 34) q) :=
  channel_apply 33 X hs hc ⟨33, by omega⟩ rfl p q

/-- The kernel's selected parameter row at (p, k, q) before the atom types are known: the running sum it is handed, plus
    the gate it is handed times the rows it is handed, plus the gates for types 2 and 3 times rows 68 + k and 102 + k of
    the product. -/
def mix (v15 : IVec S128 32) (v70 : FVec Ideal S136x128 .f32) (v82 : FVec Ideal S128x34x128 .f32)
    (v83 : FVec Ideal S34x128 .f32) (v87 : FVec Ideal S128 .f32) (p : Fin 128) (k : Fin 34) (q : Fin 128) : EReal :=
  v82 (ix3 p k q) + v87 (ix1 p) * v83 (ix2 k q)
    + (if v15 (ix1 p) = 2#32 then (1 : EReal) else 0) * v70 (ix2 (⟨68 + k.val, by omega⟩ : Fin 136) q)
    + (if v15 (ix1 p) = 3#32 then (1 : EReal) else 0) * v70 (ix2 (⟨102 + k.val, by omega⟩ : Fin 136) q)

/-- The first layer at the pair (p, q), over whatever it is handed: with w, s and c_k the selected rows 32, 33 and k,
    the sum over the 32 channels k of w · exp(−((r − c_k) · s)²), r the value at (p, q). -/
theorem pay19_apply (v15 : IVec S128 32) (v53 : FVec Ideal S128x128 .f32) (v70 : FVec Ideal S136x128 .f32)
    (v82 : FVec Ideal S128x34x128 .f32) (v83 : FVec Ideal S34x128 .f32) (v87 : FVec Ideal S128 .f32) (p q : Fin 128) :
    k0_pay19 (F := Ideal) v15 v53 v70 v82 v83 v87 (ix2 p q)
      = ∑ k : Fin 32, mix v15 v70 v82 v83 v87 p ⟨32, by omega⟩ q
          * Ideal.exp (-(((v53 (ix2 p q) - mix v15 v70 v82 v83 v87 p ⟨k.val, by omega⟩ q) * mix v15 v70 v82 v83 v87 p ⟨33, by omega⟩ q)
              * ((v53 (ix2 p q) - mix v15 v70 v82 v83 v87 p ⟨k.val, by omega⟩ q) * mix v15 v70 v82 v83 v87 p ⟨33, by omega⟩ q))) := by
  unfold k0_pay19
  refine (Ideal.multiReduction_add_single (φ := .f32) _ 0x00000000#32 Facts₀.reduces_S128x32x128_S128x128 (.inl rfl) rfl (ix2 p q)).trans ?_
  show ∑ k : Fin 32, _ = _
  refine Finset.sum_congr rfl fun k _ => ?_
  have hl : Facts₀.reduces_S128x32x128_S128x128.lift (ix2 p q) k = ix3 p k q := funext fun a => Fin.ext (by
    match a with
    | ⟨0, _⟩ => rfl
    | ⟨1, _⟩ => rfl
    | ⟨2, _⟩ => rfl)
  rw [hl]
  simp only [mulf_apply, subf_apply, addf_apply, exp_apply, broadcast_apply, scalar_zero, zero_sub, bcast_pair, bcast_atom,
    bcast_rows, centres_apply, chan32_apply, chan33_apply, slice2_axis0_eq, typeGate_apply]
  rfl

/-! ## The selection once the atom types are known -/

/-- A word below 4 is one of 0, 1, 2, 3. -/
theorem word_cases (x : BitVec 32) (hx : x.toNat < 4) : x = 0#32 ∨ x = 1#32 ∨ x = 2#32 ∨ x = 3#32 := by
  have h : x.toNat = 0 ∨ x.toNat = 1 ∨ x.toNat = 2 ∨ x.toNat = 3 := by omega
  rcases h with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

/-- A word below 4 is the word of its own number. -/
theorem word_ofNat (x : BitVec 32) (hx : x.toNat < 4) : x = BitVec.ofNat 32 x.toNat :=
  BitVec.eq_of_toNat_eq (by rw [BitVec.toNat_ofNat]; omega)

/-- The four gated row groups added onto zero pick the group of the atom's type: for a type x below 4 exactly one gate is
    1, and 0 · y = 0, 1 · y = y, 0 + y = y, y + 0 = y hold for every extended real y. -/
theorem pick4 (x : BitVec 32) (hx : x.toNat < 4) (R : Fin 136 → EReal) (k : Fin 34) :
    (0 : EReal) + (if x = 0#32 then (1 : EReal) else 0) * R ⟨0 + k.val, by omega⟩
        + (if x = 1#32 then (1 : EReal) else 0) * R ⟨34 + k.val, by omega⟩
        + (if x = 2#32 then (1 : EReal) else 0) * R ⟨68 + k.val, by omega⟩
        + (if x = 3#32 then (1 : EReal) else 0) * R ⟨102 + k.val, by omega⟩
      = R ⟨34 * x.toNat + k.val, by omega⟩ := by
  have e01 : ¬(0#32 : BitVec 32) = 1#32 := by decide
  have e02 : ¬(0#32 : BitVec 32) = 2#32 := by decide
  have e03 : ¬(0#32 : BitVec 32) = 3#32 := by decide
  have e10 : ¬(1#32 : BitVec 32) = 0#32 := by decide
  have e12 : ¬(1#32 : BitVec 32) = 2#32 := by decide
  have e13 : ¬(1#32 : BitVec 32) = 3#32 := by decide
  have e20 : ¬(2#32 : BitVec 32) = 0#32 := by decide
  have e21 : ¬(2#32 : BitVec 32) = 1#32 := by decide
  have e23 : ¬(2#32 : BitVec 32) = 3#32 := by decide
  have e30 : ¬(3#32 : BitVec 32) = 0#32 := by decide
  have e31 : ¬(3#32 : BitVec 32) = 1#32 := by decide
  have e32 : ¬(3#32 : BitVec 32) = 2#32 := by decide
  rcases word_cases x hx with h | h | h | h
  · subst h
    rw [if_pos rfl, if_neg e01, if_neg e02, if_neg e03]
    simp only [zero_mul, one_mul, add_zero, zero_add]
    exact congrArg R (Fin.ext (by show k.val = 34 * 0 + k.val; omega))
  · subst h
    rw [if_neg e10, if_pos rfl, if_neg e12, if_neg e13]
    simp only [zero_mul, one_mul, add_zero, zero_add]
    exact congrArg R (Fin.ext (by show 34 + k.val = 34 * 1 + k.val; omega))
  · subst h
    rw [if_neg e20, if_neg e21, if_pos rfl, if_neg e23]
    simp only [zero_mul, one_mul, add_zero, zero_add]
    exact congrArg R (Fin.ext (by show 68 + k.val = 34 * 2 + k.val; omega))
  · subst h
    rw [if_neg e30, if_neg e31, if_neg e32, if_pos rfl]
    simp only [zero_mul, one_mul, add_zero, zero_add]
    exact congrArg R (Fin.ext (by show 102 + k.val = 34 * 3 + k.val; omega))

/-- The running sum the layer is handed: zero plus the gate for type 0 times rows 0 … 33 of the product. -/
theorem pay16_apply (v15 v18 : IVec S128 32) (v68 : Vec Ideal S136x4 .f32) (p : Fin 128) (k : Fin 34) (q : Fin 128) :
    k0_pay16 (F := Ideal) v15 v18 v68 (ix3 p k q)
      = (0 : EReal) + (if v15 (ix1 p) = 0#32 then (1 : EReal) else 0)
          * k0_pay15 (F := Ideal) v18 v68 (ix2 (⟨0 + k.val, by omega⟩ : Fin 136) q) := by
  unfold k0_pay16
  simp only [mulf_apply, addf_apply, broadcast_apply, scalar_zero, bcast_atom, bcast_rows, slice2_axis0_eq, typeGate_apply]

/-- The rows the layer is handed: rows 34 … 67 of the product. -/
theorem pay17_apply (v18 : IVec S128 32) (v68 : Vec Ideal S136x4 .f32) (k : Fin 34) (q : Fin 128) :
    k0_pay17 (F := Ideal) v18 v68 (ix2 k q) = k0_pay15 (F := Ideal) v18 v68 (ix2 (⟨34 + k.val, by omega⟩ : Fin 136) q) := by
  unfold k0_pay17
  exact slice2_axis0_eq 34 _ _ k q

/-- The gate the layer is handed: the one for type 1. -/
theorem pay18_apply (v15 : IVec S128 32) (p : Fin 128) :
    k0_pay18 (F := Ideal) v15 (ix1 p) = if v15 (ix1 p) = 1#32 then (1 : EReal) else 0 := by
  unfold k0_pay18
  exact gate_eq _ _

/-- With the kernel's own running sum, rows and gate, and atom types z_p and z_q below 4, the selected row k at (p, q) is
    the table's entry at row 34 · z_p + k, column z_q. -/
theorem mix_eq (v15 v18 : IVec S128 32) (v68 : Vec Ideal S136x4 .f32) (p : Fin 128) (k : Fin 34) (q : Fin 128)
    (hp : (v15 (ix1 p)).toNat < 4) (hq : (v18 (ix1 q)).toNat < 4) :
    mix v15 (k0_pay15 (F := Ideal) v18 v68) (k0_pay16 (F := Ideal) v15 v18 v68) (k0_pay17 (F := Ideal) v18 v68)
        (k0_pay18 (F := Ideal) v15) p k q
      = v68 (ix2 (⟨34 * (v15 (ix1 p)).toNat + k.val, by omega⟩ : Fin 136) (⟨(v18 (ix1 q)).toNat, hq⟩ : Fin 4)) := by
  unfold mix
  rw [pay16_apply, pay17_apply, pay18_apply]
  refine (pick4 (v15 (ix1 p)) hp (fun r => k0_pay15 (F := Ideal) v18 v68 (ix2 r q)) k).trans ?_
  exact prod_select v18 v68 _ q ⟨(v18 (ix1 q)).toNat, hq⟩ (word_ofNat _ hq)

/-- Row 34 · z_i + k, column z_j of the table is the entry the table's reading takes at the pair label 4 · z_i + z_j. -/
theorem tab0_entry (v68 : Vec Ideal S136x4 .f32) (zi zj : Nat) (hi : zi < 4) (hj : zj < 4) (l : Fin 16)
    (hl : l.val = 4 * zi + zj) (k : Nat) (hk : k < 34) :
    v68 (ix2 (⟨34 * zi + k, by omega⟩ : Fin 136) (⟨zj, hj⟩ : Fin 4))
      = v68 (ix2 (⟨34 * (l.val / 4) + k, by omega⟩ : Fin 136) (⟨l.val % 4, by omega⟩ : Fin 4)) := by
  have e1 : (⟨34 * zi + k, by omega⟩ : Fin 136) = ⟨34 * (l.val / 4) + k, by omega⟩ :=
    Fin.ext (by show 34 * zi + k = 34 * (l.val / 4) + k; omega)
  have e2 : (⟨zj, hj⟩ : Fin 4) = ⟨l.val % 4, by omega⟩ := Fin.ext (by show zj = l.val % 4; omega)
  rw [e1, e2]

/-- The pair label of two atom types below 4 is 4 · z_i + z_j. -/
theorem lab_val (zi zj : BitVec 32) (hi : zi.toNat < 4) (hj : zj.toNat < 4) : (lab zi zj).val = 4 * zi.toNat + zj.toNat := by
  show 4 * (zi.toNat % 4) + zj.toNat % 4 = 4 * zi.toNat + zj.toNat
  omega

end L0

open L0

/-- The first layer's channel sum for the pair (p, q): Σ_k w · exp(−((r − centre_k) · s)²) with the parameters of the
    pair's label, r the value v53 holds at (p, q). -/
theorem layer0_apply (v15 v18 : IVec S128 32) (v53 : FVec Ideal S128x128 .f32) (v68 : Vec Ideal S136x4 .f32) (p q : Fin 128)
    (hp : (v15 (ix1 p)).toNat < 4) (hq : (v18 (ix1 q)).toNat < 4) :
    k0_pay19 (F := Ideal) v15 v53 (k0_pay15 v18 v68) (k0_pay16 v15 v18 v68) (k0_pay17 v18 v68) (k0_pay18 v15) (ix2 p q)
      = ∑ k : Fin 32, rbf (tab0 v68) (lab (v15 (ix1 p)) (v18 (ix1 q))) (v53 (ix2 p q)) k := by
  rw [pay19_apply]
  refine Finset.sum_congr rfl fun k _ => ?_
  have hl := lab_val (v15 (ix1 p)) (v18 (ix1 q)) hp hq
  have hw : mix v15 (k0_pay15 (F := Ideal) v18 v68) (k0_pay16 (F := Ideal) v15 v18 v68) (k0_pay17 (F := Ideal) v18 v68)
      (k0_pay18 (F := Ideal) v15) p ⟨32, by omega⟩ q = (tab0 v68).w (lab (v15 (ix1 p)) (v18 (ix1 q))) :=
    (mix_eq v15 v18 v68 p ⟨32, by omega⟩ q hp hq).trans (tab0_entry v68 _ _ hp hq _ hl 32 (by omega))
  have hs : mix v15 (k0_pay15 (F := Ideal) v18 v68) (k0_pay16 (F := Ideal) v15 v18 v68) (k0_pay17 (F := Ideal) v18 v68)
      (k0_pay18 (F := Ideal) v15) p ⟨33, by omega⟩ q = (tab0 v68).s (lab (v15 (ix1 p)) (v18 (ix1 q))) :=
    (mix_eq v15 v18 v68 p ⟨33, by omega⟩ q hp hq).trans (tab0_entry v68 _ _ hp hq _ hl 33 (by omega))
  have hc : mix v15 (k0_pay15 (F := Ideal) v18 v68) (k0_pay16 (F := Ideal) v15 v18 v68) (k0_pay17 (F := Ideal) v18 v68)
      (k0_pay18 (F := Ideal) v15) p ⟨k.val, by omega⟩ q = (tab0 v68).c (lab (v15 (ix1 p)) (v18 (ix1 q))) k :=
    (mix_eq v15 v18 v68 p ⟨k.val, by omega⟩ q hp hq).trans (tab0_entry v68 _ _ hp hq _ hl k.val (by omega))
  rw [hw, hs, hc]
  rfl

end Cert.Gnn.K

end
-- ==== Proof.KLayer1.lean ====
/-
  The second expansion layer on a tile: the same selection of the pair's parameters from the 264 x 4 table (product with
  the 0/1 matrix [b = z_j], then the sum over a of [z_i = a] times the a-th row group), giving the pair's weight and the
  squared argument of the exponential for each of the 64 channels.
-/
import proofs.«418662_j3908420239890_3_alg».proof.Proof.Gen.KernelIdeal.Skeleton
import proofs.«418662_j3908420239890_3_alg».proof.Proof.Spec
import proofs.«418662_j3908420239890_3_alg».proof.Proof.KTab
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.K

open Idealize.ShloMosaic Idealize.ShloMosaic.ValueIdx Cert.KernelIdeal Cert.KernelIdeal.Gen Cert.Gnn

variable [Cert.KernelIdeal.Facts]

namespace L1

/-- A one-bit word widened to 32 bits and read as a signed integer is the number 0 or 1. -/
theorem bit_toFloat (c : BitVec 1) :
    FloatOps.sitofp (F := Ideal) .f32 (c.setWidth 32) = if c = 1#1 then (1 : EReal) else 0 := by
  show (((c.setWidth 32).toInt : ℝ) : EReal) = _
  rcases BitVec.eq_zero_or_eq_one c with h | h
  · subst h
    rw [if_neg (by decide)]
    have : ((0#1 : BitVec 1).setWidth 32).toInt = 0 := by decide
    rw [this]; simp
  · subst h
    rw [if_pos rfl]
    have : ((1#1 : BitVec 1).setWidth 32).toInt = 1 := by decide
    rw [this]; simp

/-- The equality test of two words is the bit 1 exactly when they are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.2 h
    rw [hb]
    exact ⟨fun h' => absurd h' (by decide), fun h' => absurd h' h⟩

/-- The equality test of two words, widened and converted to a float, is 1 when they are equal and 0 when not. -/
theorem eq_toFloat (x y : BitVec 32) :
    FloatOps.sitofp (F := Ideal) .f32 ((IntOp.cmpi .eq x y).setWidth 32) = if x = y then (1 : EReal) else 0 := by
  rw [bit_toFloat]
  by_cases h : x = y
  · rw [if_pos ((cmpi_eq_one_iff x y).2 h), if_pos h]
  · rw [if_neg (fun h' => h ((cmpi_eq_one_iff x y).1 h')), if_neg h]

/-- A word below 4 is one of the four literals. -/
theorem word_cases (z : BitVec 32) (h : z.toNat < 4) : z = 0#32 ∨ z = 1#32 ∨ z = 2#32 ∨ z = 3#32 := by
  have h4 : z.toNat = 0 ∨ z.toNat = 1 ∨ z.toNat = 2 ∨ z.toNat = 3 := by omega
  rcases h4 with h | h | h | h
  · exact Or.inl (BitVec.eq_of_toNat_eq (h.trans (by decide)))
  · exact Or.inr (Or.inl (BitVec.eq_of_toNat_eq (h.trans (by decide))))
  · exact Or.inr (Or.inr (Or.inl (BitVec.eq_of_toNat_eq (h.trans (by decide)))))
  · exact Or.inr (Or.inr (Or.inr (BitVec.eq_of_toNat_eq (h.trans (by decide)))))

/-- Entry (b, q) of the 0/1 matrix: 1 when atom q's type is b. -/
theorem onehot_apply (v18 : IVec S128 32) (b : Fin 4) (q : Fin 128) :
    k0_pay14 (F := Ideal) v18 (ix2 b q) = if BitVec.ofNat 32 b.val = v18 (ix1 q) then (1 : EReal) else 0 := by
  unfold k0_pay14
  have h1 : iota .tc S4x128 32 [0] iota_S4x128_d0_w32 (ix2 b q) = BitVec.ofNat 32 b.val :=
    iota_single_apply .tc S4x128 32 0 iota_S4x128_d0_w32 (ix2 b q)
  have h2 : broadcastTo S4x128 (shapeCast S1x128 v18 shapeCasts_S128_S1x128) broadcasts_S1x128_S4x128 (ix2 b q) = v18 (ix1 q) :=
    (broadcastTo_1b_ab_apply _ broadcasts_S1x128_S4x128 b q).trans (shapeCast_a_1a_apply v18 shapeCasts_S128_S1x128 0 q)
  show FloatOps.sitofp (F := Ideal) .f32 ((IntOp.cmpi .eq (iota .tc S4x128 32 [0] iota_S4x128_d0_w32 (ix2 b q))
      (broadcastTo S4x128 (shapeCast S1x128 v18 shapeCasts_S128_S1x128) broadcasts_S1x128_S4x128 (ix2 b q))).setWidth 32) = _
  rw [h1, h2]
  exact eq_toFloat _ _

/-! The product's operand indices, axis by axis. -/

theorem lhs20_0 (i : S264x128.Idx) (k : dot_S264x4_S4x128_S264x128_1_0_0_1_n_n.contr.Idx) :
    (dot_S264x4_S4x128_S264x128_1_0_0_1_n_n.lhsIdx i k 0).val = (i 0).val := by
  unfold DotDims.lhsIdx
  rw [dif_neg (show ¬(0 : Fin S264x4.rank) ∈ dot_S264x4_S4x128_S264x128_1_0_0_1_n_n.lhsBatch by decide),
    dif_pos (show (0 : Fin S264x4.rank) ∈ dot_S264x4_S4x128_S264x128_1_0_0_1_n_n.lhsNonContracting by decide)]
  rfl
theorem lhs20_1 (i : S264x128.Idx) (k : dot_S264x4_S4x128_S264x128_1_0_0_1_n_n.contr.Idx) :
    (dot_S264x4_S4x128_S264x128_1_0_0_1_n_n.lhsIdx i k 1).val = (k ⟨0, by decide⟩).val :=
  dot_S264x4_S4x128_S264x128_1_0_0_1_n_n.lhsIdx_val_of_single rfl i k
theorem rhs20_0 (i : S264x128.Idx) (k : dot_S264x4_S4x128_S264x128_1_0_0_1_n_n.contr.Idx) :
    (dot_S264x4_S4x128_S264x128_1_0_0_1_n_n.rhsIdx i k 0).val = (k ⟨0, by decide⟩).val :=
  dot_S264x4_S4x128_S264x128_1_0_0_1_n_n.rhsIdx_val_of_single rfl i k
theorem rhs20_1 (i : S264x128.Idx) (k : dot_S264x4_S4x128_S264x128_1_0_0_1_n_n.contr.Idx) :
    (dot_S264x4_S4x128_S264x128_1_0_0_1_n_n.rhsIdx i k 1).val = (i 1).val := by
  unfold DotDims.rhsIdx
  rw [dif_neg (show ¬(1 : Fin S4x128.rank) ∈ dot_S264x4_S4x128_S264x128_1_0_0_1_n_n.rhsBatch by decide),
    dif_pos (show (1 : Fin S4x128.rank) ∈ dot_S264x4_S4x128_S264x128_1_0_0_1_n_n.rhsNonContracting by decide)]
  rfl

/-- Entry (r, q) of the table times a [4,128] matrix: the sum over the four columns. -/
theorem prod_apply (M : FVec Ideal S4x128 .f32) (v135 : Vec Ideal S264x4 .f32) (r : Fin 264) (q : Fin 128) :
    k0_pay20 (F := Ideal) M v135 (ix2 r q) = ∑ b : Fin 4, v135 (ix2 r b) * M (ix2 b q) := by
  unfold k0_pay20
  rw [shapeCast_self]
  show FloatOps.matmul dot_S264x4_S4x128_S264x128_1_0_0_1_n_n (some .fp32) v135 M (constant S264x128 .f32 0x00000000#32) (ix2 r q) = _
  rw [Ideal.matmul_constant_zero_apply, ← Equiv.sum_comp (contrEquiv1 dot_S264x4_S4x128_S264x128_1_0_0_1_n_n 4 rfl rfl).symm]
  refine Finset.sum_congr rfl fun k _ => ?_
  have hk := contrEquiv1_symm_val dot_S264x4_S4x128_S264x128_1_0_0_1_n_n 4 rfl rfl k
  have el : dot_S264x4_S4x128_S264x128_1_0_0_1_n_n.lhsIdx (ix2 r q) ((contrEquiv1 dot_S264x4_S4x128_S264x128_1_0_0_1_n_n 4 rfl rfl).symm k) = ix2 r k :=
    funext fun a => Fin.ext (by
      match a with
      | ⟨0, _⟩ => exact lhs20_0 _ _
      | ⟨1, _⟩ => exact (lhs20_1 _ _).trans hk)
  have er : dot_S264x4_S4x128_S264x128_1_0_0_1_n_n.rhsIdx (ix2 r q) ((contrEquiv1 dot_S264x4_S4x128_S264x128_1_0_0_1_n_n 4 rfl rfl).symm k) = ix2 k q :=
    funext fun a => Fin.ext (by
      match a with
      | ⟨0, _⟩ => exact (rhs20_0 _ _).trans hk
      | ⟨1, _⟩ => exact rhs20_1 _ _)
  rw [el, er]

/-- A sum of four table entries against the indicator of one column picks that column: 0 · x = 0 and 1 · x = x for
    every extended real. -/
theorem pick_col (f : Fin 4 → EReal) (z : BitVec 32) (hz : z.toNat < 4) :
    ∑ b : Fin 4, f b * (if BitVec.ofNat 32 b.val = z then (1 : EReal) else 0) = f ⟨z.toNat, hz⟩ := by
  rw [Fin.sum_univ_four]
  rcases word_cases z hz with rfl | rfl | rfl | rfl
  · rw [if_pos (by decide), if_neg (by decide), if_neg (by decide), if_neg (by decide)]
    simp only [mul_one, mul_zero, add_zero]; rfl
  · rw [if_neg (by decide), if_pos (by decide), if_neg (by decide), if_neg (by decide)]
    simp only [mul_one, mul_zero, add_zero, zero_add]; rfl
  · rw [if_neg (by decide), if_neg (by decide), if_pos (by decide), if_neg (by decide)]
    simp only [mul_one, mul_zero, add_zero, zero_add]; rfl
  · rw [if_neg (by decide), if_neg (by decide), if_neg (by decide), if_pos (by decide)]
    simp only [mul_one, mul_zero, add_zero, zero_add]; rfl

/-- Entry (r, q) of the table times the 0/1 matrix: the table's entry in row r and atom q's type's column. -/
theorem prod_onehot (v18 : IVec S128 32) (v135 : Vec Ideal S264x4 .f32) (r : Fin 264) (q : Fin 128)
    (hq : (v18 (ix1 q)).toNat < 4) :
    k0_pay20 (F := Ideal) (k0_pay14 v18) v135 (ix2 r q) = v135 (ix2 r (⟨(v18 (ix1 q)).toNat, hq⟩ : Fin 4)) := by
  rw [prod_apply]
  simp only [onehot_apply]
  exact pick_col (fun b => v135 (ix2 r b)) (v18 (ix1 q)) hq

/-! Layout operations at this layer's literal shapes. -/

/-- A vector over the atoms i, cast to a column [128,1,1] and broadcast to [128,66,128], reads its entry at the first
    coordinate. -/
theorem col_bcast_apply {α : Type} (x : S128.Idx → α) (p : Fin 128) (k : Fin 66) (q : Fin 128) :
    broadcastTo S128x66x128 (shapeCast S128x1x1 x shapeCasts_S128_S128x1x1) broadcasts_S128x1x1_S128x66x128 (ix3 p k q)
      = x (ix1 p) := by
  refine (broadcastTo_apply _ broadcasts_S128x1x1_S128x66x128 (ix3 p k q) (ix3 p (0 : Fin 1) (0 : Fin 1)) fun ax => ?_).trans ?_
  · match ax with
    | ⟨0, _⟩ => rfl
    | ⟨1, _⟩ => rfl
    | ⟨2, _⟩ => rfl
  · exact shapeCast_apply x shapeCasts_S128_S128x1x1 _ (ix1 p) (by
      rw [Shape.rowMajor_val_one, Shape.rowMajor_val_three]
      show p.val = (p.val * 1 + 0) * 1 + 0
      omega)

/-- A [66,128] block, given a leading unit axis and broadcast along the atoms i, reads its entry at the last two
    coordinates. -/
theorem row_bcast_apply {α : Type} (x : S66x128.Idx → α) (p : Fin 128) (k : Fin 66) (q : Fin 128) :
    broadcastTo S128x66x128 (shapeCast S1x66x128 x shapeCasts_S66x128_S1x66x128) broadcasts_S1x66x128_S128x66x128 (ix3 p k q)
      = x (ix2 k q) := by
  refine (broadcastTo_apply _ broadcasts_S1x66x128_S128x66x128 (ix3 p k q) (ix3 (0 : Fin 1) k q) fun ax => ?_).trans ?_
  · match ax with
    | ⟨0, _⟩ => rfl
    | ⟨1, _⟩ => rfl
    | ⟨2, _⟩ => rfl
  · exact shapeCast_ab_1ab_apply x shapeCasts_S66x128_S1x66x128 0 k q

/-- The indicator of atom i's type being the literal a, as the kernel computes it. -/
theorem ind_apply (v15 : IVec S128 32) (a : BitVec 32) (p : Fin 128) :
    (sitofp .f32 (extui 32 (cmpi .eq v15 (broadcast S128 a)) natLt_1_32) : FVec Ideal S128 .f32) (ix1 p)
      = if v15 (ix1 p) = a then (1 : EReal) else 0 :=
  eq_toFloat _ _

/-- Four row groups against the indicators of one type pick that type's group: 0 · x = 0, 1 · x = x and 0 + x = x for
    every extended real. -/
theorem pick_grp (f : Fin 264 → EReal) (z : BitVec 32) (hz : z.toNat < 4) (k : Fin 66) :
    0 + (if z = 0#32 then (1 : EReal) else 0) * f ⟨0 + k.val, by have := k.isLt; omega⟩
        + (if z = 1#32 then (1 : EReal) else 0) * f ⟨66 + k.val, by have := k.isLt; omega⟩
        + (if z = 2#32 then (1 : EReal) else 0) * f ⟨132 + k.val, by have := k.isLt; omega⟩
        + (if z = 3#32 then (1 : EReal) else 0) * f ⟨198 + k.val, by have := k.isLt; omega⟩
      = f ⟨66 * z.toNat + k.val, by have := k.isLt; omega⟩ := by
  rcases word_cases z hz with rfl | rfl | rfl | rfl
  · rw [if_pos rfl, if_neg (by decide), if_neg (by decide), if_neg (by decide)]
    simp only [one_mul, zero_mul, add_zero, zero_add]
    exact congrArg f (Fin.ext (by simp))
  · rw [if_neg (by decide), if_pos rfl, if_neg (by decide), if_neg (by decide)]
    simp only [one_mul, zero_mul, add_zero, zero_add]
    exact congrArg f (Fin.ext (by simp))
  · rw [if_neg (by decide), if_neg (by decide), if_pos rfl, if_neg (by decide)]
    simp only [one_mul, zero_mul, add_zero, zero_add]
    exact congrArg f (Fin.ext (by simp))
  · rw [if_neg (by decide), if_neg (by decide), if_neg (by decide), if_pos rfl]
    simp only [one_mul, zero_mul, add_zero, zero_add]
    exact congrArg f (Fin.ext (by simp))

/-- One row group's term at (p, k, q): the indicator of atom p's type being the literal a, times the group's row k. -/
theorem term_apply (v15 : IVec S128 32) (a : BitVec 32) (G : FVec Ideal S66x128 .f32) (p : Fin 128) (k : Fin 66) (q : Fin 128) :
    mulf (broadcastTo S128x66x128 (shapeCast S128x1x1 (sitofp .f32 (extui 32 (cmpi .eq v15 (broadcast S128 a)) natLt_1_32) : FVec Ideal S128 .f32)
            shapeCasts_S128_S128x1x1) broadcasts_S128x1x1_S128x66x128)
         (broadcastTo S128x66x128 (shapeCast S1x66x128 G shapeCasts_S66x128_S1x66x128) broadcasts_S1x66x128_S128x66x128) (ix3 p k q)
      = (if v15 (ix1 p) = a then (1 : EReal) else 0) * G (ix2 k q) := by
  rw [mulf_apply, col_bcast_apply, row_bcast_apply, ind_apply]

/-- The vector the four terms are added onto is zero everywhere. -/
theorem zero_apply (i : S128x66x128.Idx) : k0_pay21 (F := Ideal) i = 0 := by
  unfold k0_pay21
  show Ideal.ofBits .f32 0x00000000#32 = 0
  exact Ideal.ofBits_zero_f32

/-- The selected rows at (p, k, q): row 66 · z_p + k of the product, z_p atom p's type. -/
theorem sel_apply (v15 : IVec S128 32) (P : FVec Ideal S264x128 .f32) (p : Fin 128) (k : Fin 66) (q : Fin 128)
    (hp : (v15 (ix1 p)).toNat < 4) :
    k0_pay23 (F := Ideal) v15 P k0_pay21 (extractStridedSlice S66x128 ![0, 0] P slices_S264x128_o0_0_S66x128) (ix3 p k q)
      = P (ix2 (⟨66 * (v15 (ix1 p)).toNat + k.val, by have := k.isLt; omega⟩ : Fin 264) q) := by
  unfold k0_pay23
  rw [addf_apply, addf_apply, addf_apply, addf_apply, term_apply, term_apply, term_apply, term_apply, zero_apply,
    slice2_axis0_eq, slice2_axis0_eq, slice2_axis0_eq, slice2_axis0_eq]
  exact pick_grp (fun r => P (ix2 r q)) (v15 (ix1 p)) hp k

/-- A [128,1,128] array broadcast along its unit axis to [128,64,128] reads its entry at the outer two coordinates. -/
theorem mid_bcast_apply {α : Type} (y : S128x1x128.Idx → α) (p : Fin 128) (c : Fin 64) (q : Fin 128) :
    broadcastTo S128x64x128 y broadcasts_S128x1x128_S128x64x128 (ix3 p c q) = y (ix3 p (0 : Fin 1) q) := by
  refine broadcastTo_apply y broadcasts_S128x1x128_S128x64x128 (ix3 p c q) (ix3 p (0 : Fin 1) q) fun ax => ?_
  match ax with
  | ⟨0, _⟩ => rfl
  | ⟨1, _⟩ => rfl
  | ⟨2, _⟩ => rfl

/-- A [128,128] array given a middle unit axis reads its entry at the outer two coordinates. -/
theorem mid_unit_apply {α : Type} (x : S128x128.Idx → α) (p : Fin 128) (u : Fin 1) (q : Fin 128) :
    shapeCast S128x1x128 x shapeCasts_S128x128_S128x1x128 (ix3 p u q) = x (ix2 p q) :=
  shapeCast_apply x shapeCasts_S128x128_S128x1x128 _ (ix2 p q) (by
    have hu : u.val = 0 := by omega
    rw [Shape.rowMajor_val_two, Shape.rowMajor_val_three]
    show p.val * 128 + q.val = (p.val * 1 + u.val) * 128 + q.val
    rw [hu]; omega)

/-- The selected rows at (p, k, q), read off the table: row 66 · z_p + k, column z_q. -/
theorem chan_apply (v15 v18 : IVec S128 32) (v135 : Vec Ideal S264x4 .f32) (p q : Fin 128) (k : Fin 66)
    (hp : (v15 (ix1 p)).toNat < 4) (hq : (v18 (ix1 q)).toNat < 4) :
    k0_pay23 (F := Ideal) v15 (k0_pay20 (k0_pay14 v18) v135) k0_pay21 (k0_pay22 (k0_pay14 v18) v135) (ix3 p k q)
      = v135 (ix2 (⟨66 * (v15 (ix1 p)).toNat + k.val, by have := k.isLt; omega⟩ : Fin 264) (⟨(v18 (ix1 q)).toNat, hq⟩ : Fin 4)) :=
  (sel_apply v15 (k0_pay20 (k0_pay14 v18) v135) p k q hp).trans (prod_onehot v18 v135 _ q hq)

/-- The table's row 66 · z_i + k and column z_j is the row and column the pair's label names. -/
theorem tab_entry (v135 : Vec Ideal S264x4 .f32) (zi zj : BitVec 32) (hi : zi.toNat < 4) (hj : zj.toNat < 4)
    (k : Nat) (hk : k < 66) :
    v135 (ix2 (⟨66 * zi.toNat + k, by omega⟩ : Fin 264) (⟨zj.toNat, hj⟩ : Fin 4))
      = v135 (ix2 (⟨66 * ((lab zi zj).val / 4) + k, by have := (lab zi zj).isLt; omega⟩ : Fin 264)
          (⟨(lab zi zj).val % 4, Nat.mod_lt _ (by decide)⟩ : Fin 4)) := by
  have h1 : (lab zi zj).val / 4 = zi.toNat := by
    show (4 * (zi.toNat % 4) + zj.toNat % 4) / 4 = zi.toNat
    omega
  have h2 : (lab zi zj).val % 4 = zj.toNat := by
    show (4 * (zi.toNat % 4) + zj.toNat % 4) % 4 = zj.toNat
    omega
  refine congrArg v135 (funext fun a => ?_)
  match a with
  | ⟨0, _⟩ => exact Fin.ext (by show 66 * zi.toNat + k = 66 * ((lab zi zj).val / 4) + k; rw [h1])
  | ⟨1, _⟩ => exact Fin.ext (by show zj.toNat = (lab zi zj).val % 4; rw [h2])

end L1

open L1

/-- The pair's layer-1 weight. -/
theorem weight1_apply (v15 v18 : IVec S128 32) (v135 : Vec Ideal S264x4 .f32) (p q : Fin 128)
    (hp : (v15 (ix1 p)).toNat < 4) (hq : (v18 (ix1 q)).toNat < 4) :
    k0_pay24 (F := Ideal) v15 (k0_pay20 (k0_pay14 v18) v135) k0_pay21 (k0_pay22 (k0_pay14 v18) v135) (ix3 p (0 : Fin 1) q)
      = (tab1 v135).w (lab (v15 (ix1 p)) (v18 (ix1 q))) := by
  unfold k0_pay24
  rw [shapeCast_shapeCast]
  refine (slice3_axis1_apply 64 _ slices_S128x66x128_o0_64_0_S128x1x128 p (0 : Fin 1) q (⟨64, by omega⟩ : Fin 66) rfl).trans ?_
  refine (chan_apply v15 v18 v135 p q ⟨64, by omega⟩ hp hq).trans ?_
  exact tab_entry v135 _ _ hp hq 64 (by omega)

/-- The squared argument of the exponential for channel c: ((r − centre_c) · s)², r the value v134 holds at (p, q). -/
theorem arg1_apply (v15 v18 : IVec S128 32) (v134 : FVec Ideal S128x128 .f32) (v135 : Vec Ideal S264x4 .f32) (p q : Fin 128) (c : Fin 64)
    (hp : (v15 (ix1 p)).toNat < 4) (hq : (v18 (ix1 q)).toNat < 4) :
    k0_pay25 (F := Ideal) v15 v134 (k0_pay20 (k0_pay14 v18) v135) k0_pay21 (k0_pay22 (k0_pay14 v18) v135) (ix3 p c q)
      = ((v134 (ix2 p q) - (tab1 v135).c (lab (v15 (ix1 p)) (v18 (ix1 q))) c) * (tab1 v135).s (lab (v15 (ix1 p)) (v18 (ix1 q))))
        * ((v134 (ix2 p q) - (tab1 v135).c (lab (v15 (ix1 p)) (v18 (ix1 q))) c) * (tab1 v135).s (lab (v15 (ix1 p)) (v18 (ix1 q)))) := by
  have e1 : broadcastTo S128x64x128 (shapeCast S128x1x128 v134 shapeCasts_S128x128_S128x1x128) broadcasts_S128x1x128_S128x64x128 (ix3 p c q)
      = v134 (ix2 p q) :=
    (mid_bcast_apply _ p c q).trans (mid_unit_apply v134 p 0 q)
  have e2 : extractStridedSlice S128x64x128 ![0, 0, 0]
        (k0_pay23 (F := Ideal) v15 (k0_pay20 (k0_pay14 v18) v135) k0_pay21 (k0_pay22 (k0_pay14 v18) v135))
        slices_S128x66x128_o0_0_0_S128x64x128 (ix3 p c q)
      = (tab1 v135).c (lab (v15 (ix1 p)) (v18 (ix1 q))) c :=
    (slice3_axis1_apply 0 _ slices_S128x66x128_o0_0_0_S128x64x128 p c q (⟨c.val, by have := c.isLt; omega⟩ : Fin 66)
        (Nat.zero_add _).symm).trans
      ((chan_apply v15 v18 v135 p q ⟨c.val, by have := c.isLt; omega⟩ hp hq).trans
        (tab_entry v135 _ _ hp hq c.val (by have := c.isLt; omega)))
  have e3 : broadcastTo S128x64x128 (extractStridedSlice S128x1x128 ![0, 65, 0]
        (k0_pay23 (F := Ideal) v15 (k0_pay20 (k0_pay14 v18) v135) k0_pay21 (k0_pay22 (k0_pay14 v18) v135))
        slices_S128x66x128_o0_65_0_S128x1x128) broadcasts_S128x1x128_S128x64x128 (ix3 p c q)
      = (tab1 v135).s (lab (v15 (ix1 p)) (v18 (ix1 q))) :=
    (mid_bcast_apply _ p c q).trans
      ((slice3_axis1_apply 65 _ slices_S128x66x128_o0_65_0_S128x1x128 p (0 : Fin 1) q (⟨65, by omega⟩ : Fin 66) rfl).trans
        ((chan_apply v15 v18 v135 p q ⟨65, by omega⟩ hp hq).trans (tab_entry v135 _ _ hp hq 65 (by omega))))
  unfold k0_pay25
  rw [shapeCast_shapeCast, mulf_apply, mulf_apply, subf_apply, e1, e2, e3]

end Cert.Gnn.K

end
-- ==== Proof.KStep.lean ====
/-
  The accumulation step and the final normalisation. One grid point adds to entry (p, f, c) of the accumulator the sum
  over the tile's 128 neighbours q of feature f times the masked second-layer value of channel c; the last point forms
  R = Lᵀ L from the accumulated L and divides it by the square root of the sum of its squared entries.
-/
import proofs.«418662_j3908420239890_3_alg».proof.Proof.Gen.KernelIdeal.Skeleton
import proofs.«418662_j3908420239890_3_alg».proof.Proof.Spec
import proofs.«418662_j3908420239890_3_alg».proof.Proof.KTab
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.K

open Idealize.ShloMosaic Idealize.ShloMosaic.ValueIdx Cert.KernelIdeal Cert.KernelIdeal.Gen Cert.Gnn

variable [Cert.KernelIdeal.Facts]

/-- The reset value of the accumulator is zero everywhere. -/
theorem reset_apply (j : S128x4x64.Idx) : k0_pay3 (F := Ideal) j = 0 := by
  unfold k0_pay3
  rw [shapeCast_self]
  exact Ideal.ofBits_zero_f32

/-! ## The accumulation step

The second-layer value, masked, is contracted with the features over the tile's 128 neighbours: a batched product
(batch axis the row p) whose contracted axis is the last one of both operands. -/

/-- The conversion of a one-bit word, widened to 32 bits and read as a signed integer, is the number 0 or 1. -/
theorem mask_val (b : BitVec 1) : FloatOps.sitofp (F := Ideal) .f32 (b.setWidth 32) = bitE b := by
  show (((b.setWidth 32).toInt : ℝ) : EReal) = bitE b
  unfold bitE
  rcases BitVec.eq_zero_or_eq_one b with rfl | rfl
  · rw [if_neg (by decide)]
    have : (BitVec.setWidth 32 (0#1)).toInt = 0 := by decide
    rw [this]; simp
  · rw [if_pos rfl]
    have : (BitVec.setWidth 32 (1#1)).toInt = 1 := by decide
    rw [this]; simp

/-- The step's dimension numbers: batch axis 0 of both operands, contracted axis 2 of both (extent 128), result axes
    (batch, left free axis, right free axis). -/
abbrev dStep := dot_S128x4x128_S128x64x128_S128x4x64_2_2_1_1_0_0

/-! The operand indices at result index i and contraction index q, one axis at a time: the left operand reads
(i 0, i 1, q), the right one (i 0, i 2, q). -/

theorem dStep_lhs0 (i : S128x4x64.Idx) (q : dStep.contr.Idx) : (dStep.lhsIdx i q 0).val = (i 0).val := by
  unfold DotDims.lhsIdx
  rw [dif_pos (show (0 : Fin S128x4x128.rank) ∈ dStep.lhsBatch by decide)]
  rfl
theorem dStep_lhs1 (i : S128x4x64.Idx) (q : dStep.contr.Idx) : (dStep.lhsIdx i q 1).val = (i 1).val := by
  unfold DotDims.lhsIdx
  rw [dif_neg (show ¬(1 : Fin S128x4x128.rank) ∈ dStep.lhsBatch by decide),
    dif_pos (show (1 : Fin S128x4x128.rank) ∈ dStep.lhsNonContracting by decide)]
  rfl
theorem dStep_lhs2 (i : S128x4x64.Idx) (q : dStep.contr.Idx) : (dStep.lhsIdx i q 2).val = (q ⟨0, by decide⟩).val :=
  dStep.lhsIdx_val_of_single rfl i q
theorem dStep_rhs0 (i : S128x4x64.Idx) (q : dStep.contr.Idx) : (dStep.rhsIdx i q 0).val = (i 0).val := by
  unfold DotDims.rhsIdx
  rw [dif_pos (show (0 : Fin S128x64x128.rank) ∈ dStep.rhsBatch by decide)]
  rfl
theorem dStep_rhs1 (i : S128x4x64.Idx) (q : dStep.contr.Idx) : (dStep.rhsIdx i q 1).val = (i 2).val := by
  unfold DotDims.rhsIdx
  rw [dif_neg (show ¬(1 : Fin S128x64x128.rank) ∈ dStep.rhsBatch by decide),
    dif_pos (show (1 : Fin S128x64x128.rank) ∈ dStep.rhsNonContracting by decide)]
  rfl
theorem dStep_rhs2 (i : S128x4x64.Idx) (q : dStep.contr.Idx) : (dStep.rhsIdx i q 2).val = (q ⟨0, by decide⟩).val :=
  dStep.rhsIdx_val_of_single rfl i q

/-- The batched product at (p, f, c): the sum over the contracted lane q of lhs (p, f, q) · rhs (p, c, q). -/
theorem dStep_apply (A : FVec Ideal S128x4x128 .f32) (B : FVec Ideal S128x64x128 .f32) (p : Fin 128) (f : Fin 4) (c : Fin 64) :
    FloatOps.matmul dStep none A B (constant S128x4x64 .f32 0x00000000#32) (ix3 p f c)
      = ∑ q : Fin 128, A (ix3 p f q) * B (ix3 p c q) := by
  rw [Ideal.matmul_constant_zero_apply, ← Equiv.sum_comp (contrEquiv1 dStep 128 rfl rfl).symm]
  refine Finset.sum_congr rfl fun q _ => ?_
  have hk := contrEquiv1_symm_val dStep 128 rfl rfl q
  have el : dStep.lhsIdx (ix3 p f c) ((contrEquiv1 dStep 128 rfl rfl).symm q) = ix3 p f q := funext fun a => Fin.ext (by
    match a with
    | ⟨0, _⟩ => exact dStep_lhs0 _ _
    | ⟨1, _⟩ => exact dStep_lhs1 _ _
    | ⟨2, _⟩ => exact (dStep_lhs2 _ _).trans hk)
  have er : dStep.rhsIdx (ix3 p f c) ((contrEquiv1 dStep 128 rfl rfl).symm q) = ix3 p c q := funext fun a => Fin.ext (by
    match a with
    | ⟨0, _⟩ => exact dStep_rhs0 _ _
    | ⟨1, _⟩ => exact dStep_rhs1 _ _
    | ⟨2, _⟩ => exact (dStep_rhs2 _ _).trans hk)
  rw [el, er]

/-- One step: what the accumulator held plus the tile's contribution. -/
theorem step_apply (v46 : IVec S128x128 1) (v61 : FVec Ideal S128x4x128 .f32) (v194 : FVec Ideal S128x1x128 .f32)
    (v195 : FVec Ideal S128x64x128 .f32) (v207 : Vec Ideal S128x4x64 .f32) (p : Fin 128) (f : Fin 4) (c : Fin 64) :
    k0_pay1 (F := Ideal) v46 v61 v194 v195 v207 (ix3 p f c)
      = v207 (ix3 p f c) + ∑ q : Fin 128, v61 (ix3 p f q)
          * ((v194 (ix3 p (0 : Fin 1) q) * Ideal.exp (-(v195 (ix3 p c q)))) * bitE (v46 (ix2 p q))) := by
  unfold k0_pay1
  rw [shapeCast_self]
  refine (addf_apply _ _ _).trans ?_
  refine congrArg (v207 (ix3 p f c) + ·) ?_
  refine (dStep_apply v61 _ p f c).trans ?_
  refine Finset.sum_congr rfl fun q _ => ?_
  refine congrArg (v61 (ix3 p f q) * ·) ?_
  refine (mulf_apply _ _ _).trans ?_
  have hb : ∀ (x : FVec Ideal S128x1x128 .f32),
      broadcastTo S128x64x128 x broadcasts_S128x1x128_S128x64x128 (ix3 p c q) = x (ix3 p (0 : Fin 1) q) := fun x =>
    broadcastTo_apply x broadcasts_S128x1x128_S128x64x128 (ix3 p c q) (ix3 p (0 : Fin 1) q) (fun a => match a with
      | ⟨0, _⟩ => by show p.val = if (128 : Nat) = 1 then 0 else p.val; rw [if_neg (by decide)]
      | ⟨1, _⟩ => by show 0 = if (1 : Nat) = 1 then 0 else c.val; rw [if_pos rfl]
      | ⟨2, _⟩ => by show q.val = if (128 : Nat) = 1 then 0 else q.val; rw [if_neg (by decide)])
  have hm : broadcastTo S128x64x128 (sitofp (F := Ideal) .f32 (extui 32 (shapeCast S128x1x128 v46 shapeCasts_S128x128_S128x1x128) natLt_1_32))
      broadcasts_S128x1x128_S128x64x128 (ix3 p c q) = bitE (v46 (ix2 p q)) := by
    refine (hb _).trans ?_
    refine (sitofp_apply _ _).trans ?_
    refine (congrArg (FloatOps.sitofp (F := Ideal) .f32) (extui_apply _ _ _)).trans ?_
    refine (mask_val _).trans ?_
    refine congrArg bitE ?_
    exact shapeCast_apply v46 shapeCasts_S128x128_S128x1x128 (ix3 p (0 : Fin 1) q) (ix2 p q)
      (by rw [Shape.rowMajor_val_two, Shape.rowMajor_val_three]
          show p.val * 128 + q.val = (p.val * 1 + 0) * 128 + q.val
          omega)
  rw [hm]
  refine congrArg (· * bitE (v46 (ix2 p q))) ?_
  refine (mulf_apply _ _ _).trans ?_
  rw [hb v194]
  refine congrArg (v194 (ix3 p (0 : Fin 1) q) * ·) ?_
  show Ideal.exp (Ideal.ofBits .f32 0x00000000#32 - v195 (ix3 p c q)) = _
  rw [Ideal.ofBits_zero_f32, zero_sub]

/-! ## The final normalisation

R = Lᵀ L is a batched product contracting the feature axis of L with itself; the sum of R's squared entries is taken
one axis at a time, and the flattened entry e = 64 c + d reads R at (c, d). -/

/-- The Gram product's dimension numbers: batch axis 0 of both operands, contracted axis 1 of both (extent 4), result
    axes (batch, left free axis, right free axis). -/
abbrev dGram := dot_S128x4x64_S128x4x64_S128x64x64_1_1_2_2_0_0

/-! The operand indices at result index i and contraction index q: the left operand reads (i 0, q, i 1), the right
one (i 0, q, i 2). -/

theorem dGram_lhs0 (i : S128x64x64.Idx) (q : dGram.contr.Idx) : (dGram.lhsIdx i q 0).val = (i 0).val := by
  unfold DotDims.lhsIdx
  rw [dif_pos (show (0 : Fin S128x4x64.rank) ∈ dGram.lhsBatch by decide)]
  rfl
theorem dGram_lhs1 (i : S128x64x64.Idx) (q : dGram.contr.Idx) : (dGram.lhsIdx i q 1).val = (q ⟨0, by decide⟩).val :=
  dGram.lhsIdx_val_of_single rfl i q
theorem dGram_lhs2 (i : S128x64x64.Idx) (q : dGram.contr.Idx) : (dGram.lhsIdx i q 2).val = (i 1).val := by
  unfold DotDims.lhsIdx
  rw [dif_neg (show ¬(2 : Fin S128x4x64.rank) ∈ dGram.lhsBatch by decide),
    dif_pos (show (2 : Fin S128x4x64.rank) ∈ dGram.lhsNonContracting by decide)]
  rfl
theorem dGram_rhs0 (i : S128x64x64.Idx) (q : dGram.contr.Idx) : (dGram.rhsIdx i q 0).val = (i 0).val := by
  unfold DotDims.rhsIdx
  rw [dif_pos (show (0 : Fin S128x4x64.rank) ∈ dGram.rhsBatch by decide)]
  rfl
theorem dGram_rhs1 (i : S128x64x64.Idx) (q : dGram.contr.Idx) : (dGram.rhsIdx i q 1).val = (q ⟨0, by decide⟩).val :=
  dGram.rhsIdx_val_of_single rfl i q
theorem dGram_rhs2 (i : S128x64x64.Idx) (q : dGram.contr.Idx) : (dGram.rhsIdx i q 2).val = (i 2).val := by
  unfold DotDims.rhsIdx
  rw [dif_neg (show ¬(2 : Fin S128x4x64.rank) ∈ dGram.rhsBatch by decide),
    dif_pos (show (2 : Fin S128x4x64.rank) ∈ dGram.rhsNonContracting by decide)]
  rfl

/-- The batched product contracting the feature axis, at (p, c, d): the sum over f of lhs (p, f, c) · rhs (p, f, d). -/
theorem dGram_apply (A B : FVec Ideal S128x4x64 .f32) (p : Fin 128) (c d : Fin 64) :
    FloatOps.matmul dGram none A B (constant S128x64x64 .f32 0x00000000#32) (ix3 p c d)
      = ∑ f : Fin 4, A (ix3 p f c) * B (ix3 p f d) := by
  rw [Ideal.matmul_constant_zero_apply, ← Equiv.sum_comp (contrEquiv1 dGram 4 rfl rfl).symm]
  refine Finset.sum_congr rfl fun f _ => ?_
  have hk := contrEquiv1_symm_val dGram 4 rfl rfl f
  have el : dGram.lhsIdx (ix3 p c d) ((contrEquiv1 dGram 4 rfl rfl).symm f) = ix3 p f c := funext fun a => Fin.ext (by
    match a with
    | ⟨0, _⟩ => exact dGram_lhs0 _ _
    | ⟨1, _⟩ => exact (dGram_lhs1 _ _).trans hk
    | ⟨2, _⟩ => exact dGram_lhs2 _ _)
  have er : dGram.rhsIdx (ix3 p c d) ((contrEquiv1 dGram 4 rfl rfl).symm f) = ix3 p f d := funext fun a => Fin.ext (by
    match a with
    | ⟨0, _⟩ => exact dGram_rhs0 _ _
    | ⟨1, _⟩ => exact (dGram_rhs1 _ _).trans hk
    | ⟨2, _⟩ => exact dGram_rhs2 _ _)
  rw [el, er]

/-- The final matrix of row p from the accumulated L (v215): entry e = 64 c + d is R[c, d] / √(Σ R²),
    R[c, d] = Σ_f L[f, c] · L[f, d]. -/
theorem final_apply (v215 : Vec Ideal S128x4x64 .f32) (p : Fin 128) (e : Fin 4096) :
    k0_pay2 (F := Ideal) v215 (ix3 (0 : Fin 1) p e)
      = Ideal.div (∑ f : Fin 4, v215 (ix3 p f (⟨e.val / 64, by omega⟩ : Fin 64)) * v215 (ix3 p f (⟨e.val % 64, by omega⟩ : Fin 64)))
          (Ideal.sqrt (∑ c : Fin 64, ∑ d : Fin 64,
            (∑ f : Fin 4, v215 (ix3 p f c) * v215 (ix3 p f d)) * (∑ f : Fin 4, v215 (ix3 p f c) * v215 (ix3 p f d)))) := by
  unfold k0_pay2
  refine (shapeCast_apply _ shapeCasts_S128x4096_S1x128x4096 (ix3 (0 : Fin 1) p e) (ix2 p e) (by
      rw [Shape.rowMajor_val_two, Shape.rowMajor_val_three]
      show p.val * 4096 + e.val = (0 * 128 + p.val) * 4096 + e.val
      omega)).trans ?_
  refine (shapeCast_apply _ shapeCasts_S128x64x64_S128x4096 (ix2 p e)
      (ix3 p (⟨e.val / 64, by omega⟩ : Fin 64) (⟨e.val % 64, by omega⟩ : Fin 64)) (by
      rw [Shape.rowMajor_val_three, Shape.rowMajor_val_two]
      show (p.val * 64 + e.val / 64) * 64 + e.val % 64 = p.val * 4096 + e.val
      omega)).trans ?_
  refine (divf_apply _ _ _).trans ?_
  have hG : ∀ c d : Fin 64,
      matmul (F := Ideal) dGram none v215 v215 (constant S128x64x64 .f32 0x00000000#32) (ix3 p c d)
        = ∑ f : Fin 4, v215 (ix3 p f c) * v215 (ix3 p f d) := fun c d => dGram_apply v215 v215 p c d
  rw [hG]
  refine congrArg (Ideal.div _) ?_
  refine (broadcastTo_apply _ broadcasts_S128x1x1_S128x64x64
      (ix3 p (⟨e.val / 64, by omega⟩ : Fin 64) (⟨e.val % 64, by omega⟩ : Fin 64)) (ix3 p (0 : Fin 1) (0 : Fin 1)) (fun a => match a with
      | ⟨0, _⟩ => by show p.val = if (128 : Nat) = 1 then 0 else p.val; rw [if_neg (by decide)]
      | ⟨1, _⟩ => by show 0 = if (1 : Nat) = 1 then 0 else e.val / 64; rw [if_pos rfl]
      | ⟨2, _⟩ => by show 0 = if (1 : Nat) = 1 then 0 else e.val % 64; rw [if_pos rfl])).trans ?_
  refine congrArg Ideal.sqrt ?_
  refine (shapeCast_apply _ shapeCasts_S128x1_S128x1x1 (ix3 p (0 : Fin 1) (0 : Fin 1)) (ix2 p (0 : Fin 1)) (by
      rw [Shape.rowMajor_val_two, Shape.rowMajor_val_three]
      show p.val * 1 + 0 = (p.val * 1 + 0) * 1 + 0
      omega)).trans ?_
  refine (Ideal.multiReduction_add_single _ _ reduces_S128x64x1_S128x1 _ _ (ix2 p (0 : Fin 1))).trans ?_
  show ∑ c : Fin 64, _ = _
  refine Finset.sum_congr rfl fun c _ => ?_
  refine (shapeCast_apply _ shapeCasts_S128x64_S128x64x1 _ (ix2 p c) (by
      rw [Shape.rowMajor_val_two, Shape.rowMajor_val_three]
      show p.val * 64 + c.val = (p.val * 64 + c.val) * 1 + 0
      omega)).trans ?_
  refine (Ideal.multiReduction_add_single _ _ reduces_S128x64x64_S128x64 _ _ (ix2 p c)).trans ?_
  show ∑ d : Fin 64, _ = _
  refine Finset.sum_congr rfl fun d _ => ?_
  have hl : reduces_S128x64x64_S128x64.lift (ix2 p c) d = ix3 p c d := funext fun a => Fin.ext (by
    match a with
    | ⟨0, _⟩ => rfl
    | ⟨1, _⟩ => rfl
    | ⟨2, _⟩ => rfl)
  rw [hl]
  refine (mulf_apply _ _ _).trans ?_
  rw [hG]

end Cert.Gnn.K

end
-- ==== Proof.KPoint.lean ====
/-
  One grid point's step read at an index: entry (p, f, c) of the new accumulator is what it held plus the sum over the
  tile's 128 neighbours q of the pair term of atoms 128 i + p and 128 j + q — the geometric feature times the masked
  second-layer value — all in terms of the structure's coordinate and type blocks and the two laid-out tables.
-/
import proofs.«418662_j3908420239890_3_alg».proof.Proof.KI.Pieces
import proofs.«418662_j3908420239890_3_alg».proof.Proof.KI.Loads
import proofs.«418662_j3908420239890_3_alg».proof.Proof.KGeom
import proofs.«418662_j3908420239890_3_alg».proof.Proof.KLayer0
import proofs.«418662_j3908420239890_3_alg».proof.Proof.KLayer1
import proofs.«418662_j3908420239890_3_alg».proof.Proof.KStep

set_option maxRecDepth 16384

noncomputable section

namespace Cert.Gnn.K

open Idealize.ShloMosaic Idealize.ShloMosaic.ValueIdx Cert.KernelIdeal Cert.KernelIdeal.Gen Cert.Gnn

variable [Cert.KernelIdeal.Facts]

/-- The step at a point, at an index. The atom types of the structure are assumed in 0..3. -/
theorem stepAt_apply (i : grid0.Coords) (x0 : Vec Ideal S1x512x3 .f32) (x1 : Vec Ideal S1x1x512 .i32)
    (x2 : Vec Ideal S136x4 .f32) (x3 : Vec Ideal S264x4 .f32) (prev : Vec Ideal S128x4x64 .f32)
    (hr : ∀ n : Fin 512, (x1 (ix3 (0 : Fin 1) (0 : Fin 1) n)).toNat < 4) (p : Fin 128) (f : Fin 4) (cc : Fin 64) :
    stepAt (F := Ideal) i x0 x1 x2 x3 prev (ix3 p f cc)
      = prev (ix3 p f cc) + ∑ q : Fin 128, pairTerm (tab0 x2) (tab1 x3) (gidx (⟨(i 1).val, (i 1).isLt⟩ : Fin 4) p) (gidx (⟨(i 2).val, (i 2).isLt⟩ : Fin 4) q)
          (x1 (ix3 (0 : Fin 1) (0 : Fin 1) (gidx (⟨(i 1).val, (i 1).isLt⟩ : Fin 4) p))) (x1 (ix3 (0 : Fin 1) (0 : Fin 1) (gidx (⟨(i 2).val, (i 2).isLt⟩ : Fin 4) q)))
          (fun k => x0 (ix3 (0 : Fin 1) (gidx (⟨(i 1).val, (i 1).isLt⟩ : Fin 4) p) k)) (fun k => x0 (ix3 (0 : Fin 1) (gidx (⟨(i 2).val, (i 2).isLt⟩ : Fin 4) q) k)) f cc := by
  unfold stepAt incr
  rw [step_apply]
  congr 1
  refine Finset.sum_congr rfl fun q _ => ?_
  have ezi : k0_pay4 (F := Ideal) (ldZi i x1) (ix1 p) = x1 (ix3 (0 : Fin 1) (0 : Fin 1) (gidx (⟨(i 1).val, (i 1).isLt⟩ : Fin 4) p)) := by
    rw [pay4_apply]; exact ld_zi i x1 p
  have ezj : k0_pay5 (F := Ideal) (ldZj i x1) (ix1 q) = x1 (ix3 (0 : Fin 1) (0 : Fin 1) (gidx (⟨(i 2).val, (i 2).isLt⟩ : Fin 4) q)) := by
    rw [pay5_apply]; exact ld_zj i x1 q
  have hp : (k0_pay4 (F := Ideal) (ldZi i x1) (ix1 p)).toNat < 4 := by rw [ezi]; exact hr _
  have hq : (k0_pay5 (F := Ideal) (ldZj i x1) (ix1 q)).toNat < 4 := by rw [ezj]; exact hr _
  have exi : (fun k => ldCi i x0 (ix3 (0 : Fin 1) p k)) = fun k => x0 (ix3 (0 : Fin 1) (gidx (⟨(i 1).val, (i 1).isLt⟩ : Fin 4) p) k) :=
    funext fun k => ld_ci i x0 p k
  have exj : (fun k => ldCj i x0 (ix3 (0 : Fin 1) q k)) = fun k => x0 (ix3 (0 : Fin 1) (gidx (⟨(i 2).val, (i 2).isLt⟩ : Fin 4) q) k) :=
    funext fun k => ld_cj i x0 q k
  rw [feat_apply, weight1_apply _ _ _ p q hp hq, arg1_apply _ _ _ _ p q cc hp hq, layer0_apply _ _ _ _ p q hp hq,
    cut_apply, nbr_apply, ezi, ezj, exi, exj]
  rfl

end Cert.Gnn.K

end
-- ==== Proof.KI.Blocks.lean ====
/-
  Which part of its array each window's block is at a grid point t = 16 b + 4 i + j: the coordinates and the types of
  structure b, whole; the two tables, whole; and, for the output, rows 128 i … 128 i + 127 of structure b.
-/
import proofs.«418662_j3908420239890_3_alg».proof.Proof.KI.Kit
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The windows' index maps over the 64 grid points: the grid coordinates of point t = 16 b + 4 i + j, and each window's
    block index in terms of them (windows 0 and 1: (b, 0, 0); windows 2 and 3: (0, 0); window 4: (b, i, 0)). -/
theorem idx_facts : ∀ t : Fin cfg0.N,
    ((grid0.coords t 0).val = t.val / 16 ∧ (grid0.coords t 1).val = t.val / 4 % 4 ∧ (grid0.coords t 2).val = t.val % 4)
    ∧ (win0_0.index t (0 : Fin 3) = (grid0.coords t 0).val ∧ win0_0.index t (1 : Fin 3) = 0 ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = (grid0.coords t 0).val ∧ win0_4.index t (1 : Fin 3) = (grid0.coords t 1).val ∧ win0_4.index t (2 : Fin 3) = 0) :=
  (by decide +kernel : ∀ t : Fin grid0.N, _)

/-- The grid coordinates of point t: t = 16 b + 4 i + j. -/
theorem coords_val (t : Fin cfg0.N) :
    (grid0.coords t 0).val = t.val / 16 ∧ (grid0.coords t 1).val = t.val / 4 % 4 ∧ (grid0.coords t 2).val = t.val % 4 :=
  (idx_facts t).1

/-- The coordinates block at point t is structure b's part of the coordinates array. -/
theorem iblk0_apply (c : Dev nD) (t : Fin cfg0.N) (n : Fin 512) (k : Fin 3) :
    (iblk m c 0 t : S1x512x3.Idx → Elt F .f32) (ix3 (0 : Fin 1) n k)
      = (V m c main_arg2 : S4x512x3.Idx → Elt F .f32) (ix3 (⟨(grid0.coords t 0).val, (grid0.coords t 0).isLt⟩ : Fin 4) n k) := by
  obtain ⟨-, ⟨e0, e1, e2⟩, -⟩ := idx_facts t
  show (V m c main_arg2 : S4x512x3.Idx → Elt F .f32) (((cfg0.win 0).blk t).view.emb (ix3 (0 : Fin 1) n k)) = _
  refine congrArg _ (funext fun a => Fin.ext ?_)
  match a with
  | ⟨0, _⟩ => show win0_0.index t (0 : Fin 3) * 1 + 1 * 0 = (grid0.coords t 0).val; omega
  | ⟨1, _⟩ => show win0_0.index t (1 : Fin 3) * 512 + 1 * n.val = n.val; omega
  | ⟨2, _⟩ => show win0_0.index t (2 : Fin 3) * 3 + 1 * k.val = k.val; omega

/-- The types block at point t is structure b's part of the reshaped types. -/
theorem iblk1_apply (c : Dev nD) (t : Fin cfg0.N) (n : Fin 512) :
    (iblk m c 1 t : S1x1x512.Idx → Elt F .i32) (ix3 (0 : Fin 1) (0 : Fin 1) n)
      = (V m c main_v0 : S4x1x512.Idx → Elt F .i32) (ix3 (⟨(grid0.coords t 0).val, (grid0.coords t 0).isLt⟩ : Fin 4) (0 : Fin 1) n) := by
  obtain ⟨-, -, ⟨e0, e1, e2⟩, -⟩ := idx_facts t
  show (V m c main_v0 : S4x1x512.Idx → Elt F .i32) (((cfg0.win 1).blk t).view.emb (ix3 (0 : Fin 1) (0 : Fin 1) n)) = _
  refine congrArg _ (funext fun a => Fin.ext ?_)
  match a with
  | ⟨0, _⟩ => show win0_1.index t (0 : Fin 3) * 1 + 1 * 0 = (grid0.coords t 0).val; omega
  | ⟨1, _⟩ => show win0_1.index t (1 : Fin 3) * 1 + 1 * 0 = 0; omega
  | ⟨2, _⟩ => show win0_1.index t (2 : Fin 3) * 512 + 1 * n.val = n.val; omega

/-- The layer-0 table's block is the whole table at every point. -/
theorem iblk2_eq (c : Dev nD) (t : Fin cfg0.N) :
    (iblk m c 2 t : S136x4.Idx → Elt F .f32) = (V m c main_v9 : S136x4.Idx → Elt F .f32) := by
  obtain ⟨-, -, -, ⟨e0, e1⟩, -⟩ := idx_facts t
  funext y
  show (V m c main_v9 : S136x4.Idx → Elt F .f32) (((cfg0.win 2).blk t).view.emb y) = _
  refine congrArg _ (funext fun a => Fin.ext ?_)
  match a with
  | ⟨0, _⟩ => show win0_2.index t (0 : Fin 2) * 136 + 1 * (y 0).val = (y 0).val; omega
  | ⟨1, _⟩ => show win0_2.index t (1 : Fin 2) * 4 + 1 * (y 1).val = (y 1).val; omega

/-- The layer-1 table's block is the whole table at every point. -/
theorem iblk3_eq (c : Dev nD) (t : Fin cfg0.N) :
    (iblk m c 3 t : S264x4.Idx → Elt F .f32) = (V m c main_v12 : S264x4.Idx → Elt F .f32) := by
  obtain ⟨-, -, -, -, ⟨e0, e1⟩, -⟩ := idx_facts t
  funext y
  show (V m c main_v12 : S264x4.Idx → Elt F .f32) (((cfg0.win 3).blk t).view.emb y) = _
  refine congrArg _ (funext fun a => Fin.ext ?_)
  match a with
  | ⟨0, _⟩ => show win0_3.index t (0 : Fin 2) * 264 + 1 * (y 0).val = (y 0).val; omega
  | ⟨1, _⟩ => show win0_3.index t (1 : Fin 2) * 4 + 1 * (y 1).val = (y 1).val; omega

/-- Where local index (0, p, e) of the output window's block at point t sits in the result array. -/
theorem oblk_emb (t : Fin cfg0.N) (p : Fin 128) (e : Fin 4096) :
    (((cfg0.win 4).blk t).view.emb (ix3 (0 : Fin 1) p e) : S4x512x4096.Idx)
      = ix3 (⟨(grid0.coords t 0).val, (grid0.coords t 0).isLt⟩ : Fin 4)
          (⟨128 * (grid0.coords t 1).val + p.val, by have := (grid0.coords t 1).isLt; have : (grid0.coords t 1).val < 4 := this; omega⟩ : Fin 512) e := by
  obtain ⟨-, -, -, -, -, e0, e1, e2⟩ := idx_facts t
  funext a; apply Fin.ext
  match a with
  | ⟨0, _⟩ => show win0_4.index t (0 : Fin 3) * 1 + 1 * 0 = (grid0.coords t 0).val; omega
  | ⟨1, _⟩ => show win0_4.index t (1 : Fin 3) * 128 + 1 * p.val = 128 * (grid0.coords t 1).val + p.val; omega
  | ⟨2, _⟩ => show win0_4.index t (2 : Fin 3) * 4096 + 1 * e.val = e.val; omega

/-- An index of the result array is in point t's output block iff each coordinate is in the block's range on its axis. -/
theorem mem_oblk_axes (t : Fin cfg0.N) (y : S4x512x4096.Idx) :
    y ∈ ((cfg0.win 4).blk t).view.set ↔ ∀ a : Fin 3, win0_4.index t a * S1x128x4096.size a ≤ (y a).val ∧ (y a).val < win0_4.index t a * S1x128x4096.size a + S1x128x4096.size a := by
  show y ∈ ((View.whole main_v13).slice (win0_4.rect t)).set ↔ _
  rw [View.set_slice_whole, Rect.mem_set_unit]
  exact Iff.rfl

/-- An index of the result array is in point t's output block iff it is in structure b, rows 128 i … 128 i + 127. -/
theorem mem_oblk (t : Fin cfg0.N) (y : S4x512x4096.Idx) :
    y ∈ ((cfg0.win 4).blk t).view.set ↔ (y 0).val = (grid0.coords t 0).val ∧ (y 1).val / 128 = (grid0.coords t 1).val := by
  obtain ⟨-, -, -, -, -, e0, e1, e2⟩ := idx_facts t
  rw [mem_oblk_axes]
  have h2 : (y 2).val < 4096 := (y 2).isLt
  constructor
  · intro h
    have b0 : win0_4.index t (0 : Fin 3) * 1 ≤ (y 0).val ∧ (y 0).val < win0_4.index t (0 : Fin 3) * 1 + 1 := h 0
    have b1 : win0_4.index t (1 : Fin 3) * 128 ≤ (y 1).val ∧ (y 1).val < win0_4.index t (1 : Fin 3) * 128 + 128 := h 1
    omega
  · rintro ⟨h0, h1⟩ a
    match a with
    | ⟨0, _⟩ => show win0_4.index t (0 : Fin 3) * 1 ≤ (y 0).val ∧ (y 0).val < win0_4.index t (0 : Fin 3) * 1 + 1; omega
    | ⟨1, _⟩ => show win0_4.index t (1 : Fin 3) * 128 ≤ (y 1).val ∧ (y 1).val < win0_4.index t (1 : Fin 3) * 128 + 128; omega
    | ⟨2, _⟩ => show win0_4.index t (2 : Fin 3) * 4096 ≤ (y 2).val ∧ (y 2).val < win0_4.index t (2 : Fin 3) * 4096 + 4096; omega

end Cert.KernelIdeal.Gen

end
-- ==== Proof.KI.Tables.lean ====
/-
  What the host operations before the call lay out: the atom types with a unit axis added, and the two parameter tables
  — per layer the centres with the weight and the width appended as two more columns, the 16 labels split as 4 x 4, the
  last two axes swapped and the first two merged, so that row 34 a + k (66 a + k), column b holds column k of label 4 a + b.
-/
import proofs.«418662_j3908420239890_3_alg».proof.Proof.KI.Kit
import proofs.«418662_j3908420239890_3_alg».proof.Proof.KTab
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx Cert.Gnn
open Idealize.SL Idealize.SL.Sem
open Idealize.ShloMosaic.Pipeline (Dat Cfg Window)

variable (m : (ℓ : Loc nD τ sig) → Buf (Elt Ideal) ℓ)

/-! ## The atom types -/

/-- The reshaped atom types: entry (b, 0, n) is the type of atom n of structure b. -/
theorem numbers_V (c : Dev nD) (b : Fin 4) (n : Fin 512) :
    (V (F := Ideal) m c main_v0 : S4x1x512.Idx → BitVec 32) (ix3 b (0 : Fin 1) n)
      = (m ((c : Thread nD τ).loc main_arg1) : S4x512.Idx → BitVec 32) (ix2 b n) := by
  have e : (V (F := Ideal) m c main_v0 : S4x1x512.Idx → BitVec 32)
      = shapeCast S4x1x512 (m ((c : Thread nD τ).loc main_arg1) : S4x512.Idx → BitVec 32) shapeCasts_S4x512_S4x1x512 := by
    dsimp only [V, hostOps0]; after_results; rfl
  rw [e]
  refine shapeCast_apply (s := ⟨2, ![4, 512]⟩) (t := ⟨3, ![4, 1, 512]⟩) _ _ _ _ ?_
  rw [Shape.rowMajor_val_two, Shape.rowMajor_val_three]
  show b.val * 512 + n.val = (b.val * 1 + 0) * 512 + n.val
  omega

/-! ## The operations at an index -/

/-- A three-operand operation's result, with each operand's contents at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- A vector of 16 made a column reads, in row l, entry l. -/
theorem bcast16_apply (A : S16.Idx → EReal) (h : S16.BroadcastsInDim S16x1 (![0] : Fin 1 → Fin S16x1.rank)) (l : Fin 16) (u : Fin 1) :
    broadcastInDim S16x1 ![0] h A (ix2 l u) = A (ix1 l) :=
  broadcastInDim_apply (s := ⟨1, ![16]⟩) (t := ⟨2, ![16, 1]⟩) _ h A _ _ fun a => match a with | ⟨0, _⟩ => rfl

/-! ## Layer 0's table -/

/-- Rows of 34 split as 4 x 4 labels, the last two axes swapped, the first two merged: row 34 (l / 4) + k, column l % 4
    of the result holds entry (l, k) of the operand. -/
theorem lay34_apply (X : S16x34.Idx → EReal) (h1 : S16x34.ShapeCasts S4x4x34) (h2 : S4x4x34.Transposes [0, 2, 1] S4x34x4)
    (h3 : S4x34x4.ShapeCasts S136x4) (l : Fin 16) (k : Fin 34) (r : Fin 136) (q : Fin 4)
    (hr : r.val = 34 * (l.val / 4) + k.val) (hq : q.val = l.val % 4) :
    shapeCast S136x4 (transpose S4x34x4 [0, 2, 1] (shapeCast S4x4x34 X h1) h2) h3 (ix2 r q) = X (ix2 l k) := by
  have hl : l.val < 16 := l.isLt
  have hk : k.val < 34 := k.isLt
  have e1 : shapeCast S136x4 (transpose S4x34x4 [0, 2, 1] (shapeCast S4x4x34 X h1) h2) h3 (ix2 r q)
      = transpose S4x34x4 [0, 2, 1] (shapeCast S4x4x34 X h1) h2 (ix3 (⟨l.val / 4, by omega⟩ : Fin 4) k q) := by
    refine shapeCast_apply (s := ⟨3, ![4, 34, 4]⟩) (t := ⟨2, ![136, 4]⟩) _ _ _ _ ?_
    rw [Shape.rowMajor_val_two, Shape.rowMajor_val_three]
    show (l.val / 4 * 34 + k.val) * 4 + q.val = r.val * 4 + q.val
    omega
  have e2 : transpose S4x34x4 [0, 2, 1] (shapeCast S4x4x34 X h1) h2 (ix3 (⟨l.val / 4, by omega⟩ : Fin 4) k q)
      = shapeCast S4x4x34 X h1 (ix3 (⟨l.val / 4, by omega⟩ : Fin 4) q k) :=
    transpose_ix3_021_apply (m := 4) (a := 4) (b := 34) _ h2 _ k q
  have e3 : shapeCast S4x4x34 X h1 (ix3 (⟨l.val / 4, by omega⟩ : Fin 4) q k) = X (ix2 l k) := by
    refine shapeCast_apply (s := ⟨2, ![16, 34]⟩) (t := ⟨3, ![4, 4, 34]⟩) _ _ _ _ ?_
    rw [Shape.rowMajor_val_two, Shape.rowMajor_val_three]
    show l.val * 34 + k.val = (l.val / 4 * 4 + q.val) * 34 + k.val
    omega
  rw [e1, e2, e3]

/-- The 32 centres with two columns appended: a column below 32 is a centre. -/
theorem conc34_centre (A : S16x32.Idx → EReal) (B C : S16x1.Idx → EReal)
    (h : Shape.Concatenates [S16x32, S16x1, S16x1] S16x34 1) (l : Fin 16) (k : Fin 34) (k' : Fin 32) (hk : k.val = k'.val) :
    concatenate S16x34 1 [⟨S16x32, A⟩, ⟨S16x1, B⟩, ⟨S16x1, C⟩] h (ix2 l k) = A (ix2 l k') :=
  concatenate_apply_piece (t := ⟨2, ![16, 34]⟩) 1 [⟨S16x32, A⟩, ⟨S16x1, B⟩, ⟨S16x1, C⟩] h (ix2 l k) 0 (by show (0 : Nat) < 3; omega) S16x32 A rfl rfl 0 rfl
    (ix2 l k') (fun b => match b with | ⟨0, _⟩ => fun _ => rfl | ⟨1, _⟩ => fun hb => absurd rfl hb)
    (by show 0 + k'.val = k.val; omega)

/-- Column 32 is the first appended column. -/
theorem conc34_weight (A : S16x32.Idx → EReal) (B C : S16x1.Idx → EReal)
    (h : Shape.Concatenates [S16x32, S16x1, S16x1] S16x34 1) (l : Fin 16) (k : Fin 34) (hk : k.val = 32) :
    concatenate S16x34 1 [⟨S16x32, A⟩, ⟨S16x1, B⟩, ⟨S16x1, C⟩] h (ix2 l k) = B (ix2 l (0 : Fin 1)) :=
  concatenate_apply_piece (t := ⟨2, ![16, 34]⟩) 1 [⟨S16x32, A⟩, ⟨S16x1, B⟩, ⟨S16x1, C⟩] h (ix2 l k) 1 (by show (1 : Nat) < 3; omega) S16x1 B rfl rfl 32 rfl
    (ix2 l (0 : Fin 1)) (fun b => match b with | ⟨0, _⟩ => fun _ => rfl | ⟨1, _⟩ => fun hb => absurd rfl hb)
    (by show 32 + 0 = k.val; omega)

/-- Column 33 is the second appended column. -/
theorem conc34_width (A : S16x32.Idx → EReal) (B C : S16x1.Idx → EReal)
    (h : Shape.Concatenates [S16x32, S16x1, S16x1] S16x34 1) (l : Fin 16) (k : Fin 34) (hk : k.val = 33) :
    concatenate S16x34 1 [⟨S16x32, A⟩, ⟨S16x1, B⟩, ⟨S16x1, C⟩] h (ix2 l k) = C (ix2 l (0 : Fin 1)) :=
  concatenate_apply_piece (t := ⟨2, ![16, 34]⟩) 1 [⟨S16x32, A⟩, ⟨S16x1, B⟩, ⟨S16x1, C⟩] h (ix2 l k) 2 (by show (2 : Nat) < 3; omega) S16x1 C rfl rfl 33 rfl
    (ix2 l (0 : Fin 1)) (fun b => match b with | ⟨0, _⟩ => fun _ => rfl | ⟨1, _⟩ => fun hb => absurd rfl hb)
    (by show 33 + 0 = k.val; omega)

/-- The 136 x 4 table as the call finds it, from the three layer-0 arguments. -/
theorem v9_eq (c : Dev nD) :
    (V (F := Ideal) m c main_v9 : S136x4.Idx → EReal)
      = shapeCast S136x4 (transpose S4x34x4 [0, 2, 1] (shapeCast S4x4x34
          (concatenate S16x34 1 [⟨S16x32, (m ((c : Thread nD τ).loc main_arg5) : S16x32.Idx → EReal)⟩,
            ⟨S16x1, broadcastInDim S16x1 ![0] bcast_S16_S16x1_0 (m ((c : Thread nD τ).loc main_arg3) : S16.Idx → EReal)⟩,
            ⟨S16x1, broadcastInDim S16x1 ![0] bcast_S16_S16x1_0 (m ((c : Thread nD τ).loc main_arg4) : S16.Idx → EReal)⟩]
            concatenates_S16x32_S16x1_S16x1_S16x34_d1) shapeCasts_S16x34_S4x4x34) transposes_S4x4x34_S4x34x4_0_2_1)
          shapeCasts_S4x34x4_S136x4 := by
  dsimp only [V, hostOps0]
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  rfl

/-- Layer 0's parameters read off the laid-out table are the three layer-0 arguments. -/
theorem tab0_V (c : Dev nD) :
    tab0 (V (F := Ideal) m c main_v9 : S136x4.Idx → EReal)
      = (⟨fun l => (m ((c : Thread nD τ).loc main_arg3) : S16.Idx → EReal) (ix1 l),
          fun l => (m ((c : Thread nD τ).loc main_arg4) : S16.Idx → EReal) (ix1 l),
          fun l k => (m ((c : Thread nD τ).loc main_arg5) : S16x32.Idx → EReal) (ix2 l k)⟩ : Tab 32) := by
  rw [v9_eq m c]
  unfold tab0
  rw [Tab.mk.injEq]
  refine ⟨funext fun l => ?_, funext fun l => ?_, funext fun l => funext fun k => ?_⟩
  · rw [lay34_apply _ _ _ _ l (⟨32, by omega⟩ : Fin 34) _ _ rfl rfl, conc34_weight _ _ _ _ l _ rfl, bcast16_apply]
  · rw [lay34_apply _ _ _ _ l (⟨33, by omega⟩ : Fin 34) _ _ rfl rfl, conc34_width _ _ _ _ l _ rfl, bcast16_apply]
  · rw [lay34_apply _ _ _ _ l (⟨k.val, by omega⟩ : Fin 34) _ _ rfl rfl, conc34_centre _ _ _ _ l _ k rfl]

/-! ## Layer 1's table -/

/-- Rows of 66 split as 4 x 4 labels, the last two axes swapped, the first two merged: row 66 (l / 4) + k, column l % 4
    of the result holds entry (l, k) of the operand. -/
theorem lay66_apply (X : S16x66.Idx → EReal) (h1 : S16x66.ShapeCasts S4x4x66) (h2 : S4x4x66.Transposes [0, 2, 1] S4x66x4)
    (h3 : S4x66x4.ShapeCasts S264x4) (l : Fin 16) (k : Fin 66) (r : Fin 264) (q : Fin 4)
    (hr : r.val = 66 * (l.val / 4) + k.val) (hq : q.val = l.val % 4) :
    shapeCast S264x4 (transpose S4x66x4 [0, 2, 1] (shapeCast S4x4x66 X h1) h2) h3 (ix2 r q) = X (ix2 l k) := by
  have hl : l.val < 16 := l.isLt
  have hk : k.val < 66 := k.isLt
  have e1 : shapeCast S264x4 (transpose S4x66x4 [0, 2, 1] (shapeCast S4x4x66 X h1) h2) h3 (ix2 r q)
      = transpose S4x66x4 [0, 2, 1] (shapeCast S4x4x66 X h1) h2 (ix3 (⟨l.val / 4, by omega⟩ : Fin 4) k q) := by
    refine shapeCast_apply (s := ⟨3, ![4, 66, 4]⟩) (t := ⟨2, ![264, 4]⟩) _ _ _ _ ?_
    rw [Shape.rowMajor_val_two, Shape.rowMajor_val_three]
    show (l.val / 4 * 66 + k.val) * 4 + q.val = r.val * 4 + q.val
    omega
  have e2 : transpose S4x66x4 [0, 2, 1] (shapeCast S4x4x66 X h1) h2 (ix3 (⟨l.val / 4, by omega⟩ : Fin 4) k q)
      = shapeCast S4x4x66 X h1 (ix3 (⟨l.val / 4, by omega⟩ : Fin 4) q k) :=
    transpose_ix3_021_apply (m := 4) (a := 4) (b := 66) _ h2 _ k q
  have e3 : shapeCast S4x4x66 X h1 (ix3 (⟨l.val / 4, by omega⟩ : Fin 4) q k) = X (ix2 l k) := by
    refine shapeCast_apply (s := ⟨2, ![16, 66]⟩) (t := ⟨3, ![4, 4, 66]⟩) _ _ _ _ ?_
    rw [Shape.rowMajor_val_two, Shape.rowMajor_val_three]
    show l.val * 66 + k.val = (l.val / 4 * 4 + q.val) * 66 + k.val
    omega
  rw [e1, e2, e3]

/-- The 64 centres with two columns appended: a column below 64 is a centre. -/
theorem conc66_centre (A : S16x64.Idx → EReal) (B C : S16x1.Idx → EReal)
    (h : Shape.Concatenates [S16x64, S16x1, S16x1] S16x66 1) (l : Fin 16) (k : Fin 66) (k' : Fin 64) (hk : k.val = k'.val) :
    concatenate S16x66 1 [⟨S16x64, A⟩, ⟨S16x1, B⟩, ⟨S16x1, C⟩] h (ix2 l k) = A (ix2 l k') :=
  concatenate_apply_piece (t := ⟨2, ![16, 66]⟩) 1 [⟨S16x64, A⟩, ⟨S16x1, B⟩, ⟨S16x1, C⟩] h (ix2 l k) 0 (by show (0 : Nat) < 3; omega) S16x64 A rfl rfl 0 rfl
    (ix2 l k') (fun b => match b with | ⟨0, _⟩ => fun _ => rfl | ⟨1, _⟩ => fun hb => absurd rfl hb)
    (by show 0 + k'.val = k.val; omega)

/-- Column 64 is the first appended column. -/
theorem conc66_weight (A : S16x64.Idx → EReal) (B C : S16x1.Idx → EReal)
    (h : Shape.Concatenates [S16x64, S16x1, S16x1] S16x66 1) (l : Fin 16) (k : Fin 66) (hk : k.val = 64) :
    concatenate S16x66 1 [⟨S16x64, A⟩, ⟨S16x1, B⟩, ⟨S16x1, C⟩] h (ix2 l k) = B (ix2 l (0 : Fin 1)) :=
  concatenate_apply_piece (t := ⟨2, ![16, 66]⟩) 1 [⟨S16x64, A⟩, ⟨S16x1, B⟩, ⟨S16x1, C⟩] h (ix2 l k) 1 (by show (1 : Nat) < 3; omega) S16x1 B rfl rfl 64 rfl
    (ix2 l (0 : Fin 1)) (fun b => match b with | ⟨0, _⟩ => fun _ => rfl | ⟨1, _⟩ => fun hb => absurd rfl hb)
    (by show 64 + 0 = k.val; omega)

/-- Column 65 is the second appended column. -/
theorem conc66_width (A : S16x64.Idx → EReal) (B C : S16x1.Idx → EReal)
    (h : Shape.Concatenates [S16x64, S16x1, S16x1] S16x66 1) (l : Fin 16) (k : Fin 66) (hk : k.val = 65) :
    concatenate S16x66 1 [⟨S16x64, A⟩, ⟨S16x1, B⟩, ⟨S16x1, C⟩] h (ix2 l k) = C (ix2 l (0 : Fin 1)) :=
  concatenate_apply_piece (t := ⟨2, ![16, 66]⟩) 1 [⟨S16x64, A⟩, ⟨S16x1, B⟩, ⟨S16x1, C⟩] h (ix2 l k) 2 (by show (2 : Nat) < 3; omega) S16x1 C rfl rfl 65 rfl
    (ix2 l (0 : Fin 1)) (fun b => match b with | ⟨0, _⟩ => fun _ => rfl | ⟨1, _⟩ => fun hb => absurd rfl hb)
    (by show 65 + 0 = k.val; omega)

/-- The 264 x 4 table as the call finds it, from the three layer-1 arguments. -/
theorem v12_eq (c : Dev nD) :
    (V (F := Ideal) m c main_v12 : S264x4.Idx → EReal)
      = shapeCast S264x4 (transpose S4x66x4 [0, 2, 1] (shapeCast S4x4x66
          (concatenate S16x66 1 [⟨S16x64, (m ((c : Thread nD τ).loc main_arg8) : S16x64.Idx → EReal)⟩,
            ⟨S16x1, broadcastInDim S16x1 ![0] bcast_S16_S16x1_0 (m ((c : Thread nD τ).loc main_arg6) : S16.Idx → EReal)⟩,
            ⟨S16x1, broadcastInDim S16x1 ![0] bcast_S16_S16x1_0 (m ((c : Thread nD τ).loc main_arg7) : S16.Idx → EReal)⟩]
            concatenates_S16x64_S16x1_S16x1_S16x66_d1) shapeCasts_S16x66_S4x4x66) transposes_S4x4x66_S4x66x4_0_2_1)
          shapeCasts_S4x66x4_S264x4 := by
  dsimp only [V, hostOps0]
  simp only [StableHlo.after_cons, StableHlo.after_nil]
  repeat (first
    | rw [StableHlo.unary_result] | rw [StableHlo.reshape_result] | rw [nary3_result]
    | (rw [StableHlo.unary_result_ne]; rotate_left; decide)
    | (rw [StableHlo.reshape_result_ne]; rotate_left; decide)
    | (rw [StableHlo.nary_result_ne]; rotate_left; decide))
  rfl

/-- Layer 1's parameters read off the laid-out table are the three layer-1 arguments. -/
theorem tab1_V (c : Dev nD) :
    tab1 (V (F := Ideal) m c main_v12 : S264x4.Idx → EReal)
      = (⟨fun l => (m ((c : Thread nD τ).loc main_arg6) : S16.Idx → EReal) (ix1 l),
          fun l => (m ((c : Thread nD τ).loc main_arg7) : S16.Idx → EReal) (ix1 l),
          fun l k => (m ((c : Thread nD τ).loc main_arg8) : S16x64.Idx → EReal) (ix2 l k)⟩ : Tab 64) := by
  rw [v12_eq m c]
  unfold tab1
  rw [Tab.mk.injEq]
  refine ⟨funext fun l => ?_, funext fun l => ?_, funext fun l => funext fun k => ?_⟩
  · rw [lay66_apply _ _ _ _ l (⟨64, by omega⟩ : Fin 66) _ _ rfl rfl, conc66_weight _ _ _ _ l _ rfl, bcast16_apply]
  · rw [lay66_apply _ _ _ _ l (⟨65, by omega⟩ : Fin 66) _ _ rfl rfl, conc66_width _ _ _ _ l _ rfl, bcast16_apply]
  · rw [lay66_apply _ _ _ _ l (⟨k.val, by omega⟩ : Fin 66) _ _ rfl rfl, conc66_centre _ _ _ _ l _ k rfl]

end Cert.KernelIdeal.Gen

end
-- ==== Proof.KAcc.lean ====
/-
  From one point's step to the whole result. Along the neighbour-block axis the accumulator of rows 128 i … 128 i + 127
  of structure b gathers, block by block, the sum over all 512 atoms j of the pair terms; at the last block it is the
  matrix L of each of those atoms, the output block is R = Lᵀ L divided by its Frobenius norm, and the 16 written-back
  blocks tile the result array.
-/
import proofs.«418662_j3908420239890_3_alg».proof.Proof.KPoint
import proofs.«418662_j3908420239890_3_alg».proof.Proof.KI.Blocks
import proofs.«418662_j3908420239890_3_alg».proof.Proof.KI.Tables

set_option maxRecDepth 16384

noncomputable section

namespace Cert.KernelIdeal.Gen

open Idealize.ShloMosaic Idealize.ShloMosaic.TcCoe Idealize.ShloMosaic.ValueIdx Cert.Gnn
open Idealize.SL Idealize.SL.Sem
open Idealize.ShloMosaic.Pipeline (Dat Cfg Window)

variable (m : (ℓ : Loc nD τ sig) → Buf (Elt Ideal) ℓ) (ρ : Dev nD → PrngReg)

/-- The descriptor's inputs as core c holds them at launch. -/
def inp (c : Dev nD) : Inp :=
  inpOf (m ((c : Thread nD τ).loc main_arg1) : S4x512.Idx → BitVec 32) (m ((c : Thread nD τ).loc main_arg2) : S4x512x3.Idx → EReal)
    (m ((c : Thread nD τ).loc main_arg3) : S16.Idx → EReal) (m ((c : Thread nD τ).loc main_arg4) : S16.Idx → EReal)
    (m ((c : Thread nD τ).loc main_arg5) : S16x32.Idx → EReal)
    (m ((c : Thread nD τ).loc main_arg6) : S16.Idx → EReal) (m ((c : Thread nD τ).loc main_arg7) : S16.Idx → EReal)
    (m ((c : Thread nD τ).loc main_arg8) : S16x64.Idx → EReal)

/-- The three coordinates of a grid point as numbers below 4: structure, atom block, neighbour block. -/
def bOf (t : Fin cfg0.N) : Fin 4 := ⟨(grid0.coords t 0).val, (grid0.coords t 0).isLt⟩
def iOf (t : Fin cfg0.N) : Fin 4 := ⟨(grid0.coords t 1).val, (grid0.coords t 1).isLt⟩
def jOf (t : Fin cfg0.N) : Fin 4 := ⟨(grid0.coords t 2).val, (grid0.coords t 2).isLt⟩

theorem bOf_val (t : Fin cfg0.N) : (bOf t).val = t.val / 16 := (coords_val t).1
theorem iOf_val (t : Fin cfg0.N) : (iOf t).val = t.val / 4 % 4 := (coords_val t).2.1
theorem jOf_val (t : Fin cfg0.N) : (jOf t).val = t.val % 4 := (coords_val t).2.2

/-! ## The partial sums over neighbour blocks -/

/-- The pair term of atom 128 i + p of structure b with atom n. -/
def term (c : Dev nD) (b i : Fin 4) (p : Fin 128) (f : Fin 4) (cc : Fin 64) (n : Fin 512) : EReal :=
  pairTerm (inp m c).T0 (inp m c).T1 (gidx i p) n ((inp m c).z b (gidx i p)) ((inp m c).z b n)
    ((inp m c).x b (gidx i p)) ((inp m c).x b n) f cc

/-- One neighbour block's contribution. -/
def blockSum (c : Dev nD) (b i : Fin 4) (p : Fin 128) (f : Fin 4) (cc : Fin 64) (j : Fin 4) : EReal :=
  ∑ q : Fin 128, term m c b i p f cc (gidx j q)

/-- The contributions of the neighbour blocks 0 … jm. -/
def part (c : Dev nD) (b i : Fin 4) (p : Fin 128) (f : Fin 4) (cc : Fin 64) (jm : ℕ) : EReal :=
  ∑ j : Fin 4, if j.val ≤ jm then blockSum m c b i p f cc j else 0

theorem part_zero (c : Dev nD) (b i : Fin 4) (p : Fin 128) (f : Fin 4) (cc : Fin 64) :
    part m c b i p f cc 0 = blockSum m c b i p f cc 0 := by
  unfold part
  rw [Fin.sum_univ_four]
  simp

theorem part_succ (c : Dev nD) (b i : Fin 4) (p : Fin 128) (f : Fin 4) (cc : Fin 64) (jm : ℕ) (h : jm + 1 < 4) :
    part m c b i p f cc (jm + 1) = part m c b i p f cc jm + blockSum m c b i p f cc ⟨jm + 1, h⟩ := by
  unfold part
  rw [Fin.sum_univ_four, Fin.sum_univ_four]
  have hjm : jm < 3 := by omega
  interval_cases jm <;> simp [add_assoc]

/-- All four blocks together are the sum over all 512 atoms: the matrix L of the descriptor. -/
theorem part_three (c : Dev nD) (b i : Fin 4) (p : Fin 128) (f : Fin 4) (cc : Fin 64) :
    part m c b i p f cc 3 = Lmat (inp m c) b (gidx i p) f cc := by
  unfold part Lmat blockSum term
  have h4 : ∀ j : Fin 4, j.val ≤ 3 := fun j => by omega
  simp only [h4, if_true]
  rw [← Fintype.sum_prod_type']
  refine Fintype.sum_equiv (finProdFinEquiv (m := 4) (n := 128)) _ _ fun x => ?_
  have e : gidx x.1 x.2 = finProdFinEquiv x := by
    apply Fin.ext; show 128 * x.1.val + x.2.val = x.2.val + 128 * x.1.val; omega
  rw [e]

/-! ## The step at a point, over the launch contents -/

/-- The step at point t adds neighbour block j's contribution. -/
theorem stepAt_blocks (c : Dev nD) (hr : ∀ b n, ((inp m c).z b n).toNat < 4) (t : Fin cfg0.N)
    (prev : Vec Ideal S128x4x64 .f32) (p : Fin 128) (f : Fin 4) (cc : Fin 64) :
    stepAt (F := Ideal) (grid0.coords t) (iblk m c 0 t) (iblk m c 1 t) (iblk m c 2 t) (iblk m c 3 t) prev (ix3 p f cc)
      = prev (ix3 p f cc) + blockSum m c (bOf t) (iOf t) p f cc (jOf t) := by
  have hz : ∀ n : Fin 512, (iblk m c 1 t : S1x1x512.Idx → BitVec 32) (ix3 (0 : Fin 1) (0 : Fin 1) n) = (inp m c).z (bOf t) n := fun n => by
    rw [iblk1_apply, numbers_V]; rfl
  have hx : ∀ (n : Fin 512) (k : Fin 3), (iblk m c 0 t : S1x512x3.Idx → EReal) (ix3 (0 : Fin 1) n k) = (inp m c).x (bOf t) n k := fun n k => by
    rw [iblk0_apply, V_main_arg2]; rfl
  have ht0 : tab0 (iblk m c 2 t : S136x4.Idx → EReal) = (inp m c).T0 := by rw [iblk2_eq, tab0_V]; rfl
  have ht1 : tab1 (iblk m c 3 t : S264x4.Idx → EReal) = (inp m c).T1 := by rw [iblk3_eq, tab1_V]; rfl
  have hxf : ∀ n : Fin 512, (fun k => (iblk m c 0 t : S1x512x3.Idx → EReal) (ix3 (0 : Fin 1) n k)) = (inp m c).x (bOf t) n :=
    fun n => funext (hx n)
  rw [K.stepAt_apply (grid0.coords t) _ _ _ _ prev (fun n => by rw [hz]; exact hr _ _) p f cc]
  refine congrArg (fun s => prev (ix3 p f cc) + s) ?_
  unfold blockSum term
  refine Finset.sum_congr rfl fun q _ => ?_
  rw [ht0, ht1, hz, hz, hxf, hxf]
  rfl

/-! ## The accumulator after each point -/

/-- After the point at position n the accumulator holds the contributions of the neighbour blocks 0 … n mod 4. -/
theorem acc_inv (c : Dev nD) (hr : ∀ b n, ((inp m c).z b n).toNat < 4) :
    ∀ (n : ℕ) (hn : n < cfg0.N) (p : Fin 128) (f : Fin 4) (cc : Fin 64),
      (outsAt0 m c n hn).2 (ix3 p f cc) = part m c (bOf ⟨n, hn⟩) (iOf ⟨n, hn⟩) p f cc (n % 4) := by
  intro n
  induction n with
  | zero =>
    intro hn p f cc
    have h0 : (⟨0, hn⟩ : Fin cfg0.N).val % 4 = 0 := rfl
    have h1 : ¬(⟨0, hn⟩ : Fin cfg0.N).val % 4 = 3 := by show ¬ 0 % 4 = 3; omega
    rw [show outsAt0 m c 0 hn = outsAt0 m c (⟨0, hn⟩ : Fin cfg0.N).val (⟨0, hn⟩ : Fin cfg0.N).isLt from rfl, outsAt0_A m c ⟨0, hn⟩ h0 h1]
    dsimp only
    rw [sout0_A_0_eq, stepAt_blocks m c hr, K.reset_apply, zero_add, Nat.zero_mod, part_zero]
    congr 1
    exact Fin.ext (by rw [jOf_val]; rfl)
  | succ n ih =>
    intro hn p f cc
    have hN : n + 1 < 64 := lt_of_lt_of_eq hn N_0
    by_cases h0 : (n + 1) % 4 = 0
    · have h1 : ¬(n + 1) % 4 = 3 := by omega
      rw [show outsAt0 m c (n + 1) hn = outsAt0 m c (⟨n + 1, hn⟩ : Fin cfg0.N).val (⟨n + 1, hn⟩ : Fin cfg0.N).isLt from rfl,
        outsAt0_A m c ⟨n + 1, hn⟩ h0 h1]
      dsimp only
      rw [sout0_A_0_eq, stepAt_blocks m c hr, K.reset_apply, zero_add, h0, part_zero]
      congr 1
      exact Fin.ext (by rw [jOf_val]; exact h0)
    · have hprev : (n + 1 - 1) = n := rfl
      have hb : bOf (⟨n, Nat.lt_of_succ_lt hn⟩ : Fin cfg0.N) = bOf ⟨n + 1, hn⟩ := Fin.ext (by rw [bOf_val, bOf_val]; show n / 16 = (n + 1) / 16; omega)
      have hi : iOf (⟨n, Nat.lt_of_succ_lt hn⟩ : Fin cfg0.N) = iOf ⟨n + 1, hn⟩ := Fin.ext (by rw [iOf_val, iOf_val]; show n / 4 % 4 = (n + 1) / 4 % 4; omega)
      have hj : jOf (⟨n + 1, hn⟩ : Fin cfg0.N) = ⟨n % 4 + 1, by omega⟩ := Fin.ext (by rw [jOf_val]; show (n + 1) % 4 = n % 4 + 1; omega)
      have hm : (n + 1) % 4 = n % 4 + 1 := by omega
      by_cases h1 : (n + 1) % 4 = 3
      · rw [show outsAt0 m c (n + 1) hn = outsAt0 m c (⟨n + 1, hn⟩ : Fin cfg0.N).val (⟨n + 1, hn⟩ : Fin cfg0.N).isLt from rfl,
          outsAt0_C m c ⟨n + 1, hn⟩ h0 h1]
        dsimp only
        rw [sout0_C_0_eq, stepAt_blocks m c hr]
        rw [show outsAt0 m c ((⟨n + 1, hn⟩ : Fin cfg0.N).val - 1) _ = outsAt0 m c n (Nat.lt_of_succ_lt hn) from rfl,
          ih (Nat.lt_of_succ_lt hn) p f cc, hb, hi, hj, hm, part_succ]
      · rw [show outsAt0 m c (n + 1) hn = outsAt0 m c (⟨n + 1, hn⟩ : Fin cfg0.N).val (⟨n + 1, hn⟩ : Fin cfg0.N).isLt from rfl,
          outsAt0_B m c ⟨n + 1, hn⟩ h0 h1]
        dsimp only
        rw [sout0_B_0_eq, stepAt_blocks m c hr]
        rw [show outsAt0 m c ((⟨n + 1, hn⟩ : Fin cfg0.N).val - 1) _ = outsAt0 m c n (Nat.lt_of_succ_lt hn) from rfl,
          ih (Nat.lt_of_succ_lt hn) p f cc, hb, hi, hj, hm, part_succ]

/-- At a last step the accumulator is the matrix L of the block's atoms. -/
theorem acc_last (c : Dev nD) (hr : ∀ b n, ((inp m c).z b n).toNat < 4) (t : Fin cfg0.N) (h1 : t.val % 4 = 3)
    (p : Fin 128) (f : Fin 4) (cc : Fin 64) :
    (outsAt0 m c t.val t.isLt).2 (ix3 p f cc) = Lmat (inp m c) (bOf t) (gidx (iOf t) p) f cc := by
  rw [acc_inv m c hr t.val t.isLt p f cc, h1, part_three]

/-! ## What a last step writes back, and the final array -/

/-- The output block a last step leaves, at an index: the descriptor of atom 128 i + p of structure b. -/
theorem out_last (c : Dev nD) (hr : ∀ b n, ((inp m c).z b n).toNat < 4) (t : Fin cfg0.N) (h1 : t.val % 4 = 3)
    (p : Fin 128) (e : Fin 4096) :
    (outsAt0 m c t.val t.isLt).1 (ix3 (0 : Fin 1) p e) = out (inp m c) (bOf t) (gidx (iOf t) p) e := by
  have h0 : ¬t.val % 4 = 0 := by omega
  have hacc : (outsAt0 m c t.val t.isLt).2
      = stepAt (F := Ideal) (grid0.coords t) (iblk m c 0 t) (iblk m c 1 t) (iblk m c 2 t) (iblk m c 3 t)
          (outsAt0 m c (t.val - 1) (Nat.lt_of_le_of_lt (Nat.sub_le _ _) t.isLt)).2 := by
    rw [outsAt0_C m c t h0 h1]; dsimp only; rw [sout0_C_0_eq]
  rw [outsAt0_C m c t h0 h1]
  dsimp only
  rw [out0_C_4_eq, ← hacc, K.final_apply]
  simp only [acc_last m c hr t h1]
  rfl

/-- What a flushing point writes back is its block of the descriptor array. -/
theorem flushed4_eq (c : Dev nD) (hr : ∀ b n, ((inp m c).z b n).toNat < 4) (t : Fin cfg0.N) (hf : (cfg0.win 4).flush t = true) :
    (dats m 0 c).flushed 4 t = ((cfg0.win 4).blk t).view.read (Elt Ideal) (outArr (inp m c)) := by
  have h1 : t.val % 4 = 3 := (flush0_4 t).mp hf
  show (cfg0.win 4).cut (grid0.coords t) ((dats m 0 c).after 4 t) = _
  rw [after0_4]
  funext y
  obtain ⟨a, p, e, rfl⟩ : ∃ (a : Fin 1) (p : Fin 128) (e : Fin 4096), y = ix3 a p e := ⟨y 0, y 1, y 2, eq_ix3 y⟩
  obtain rfl : a = 0 := Subsingleton.elim _ _
  show (outsAt0 m c t.val t.isLt).1 (ix3 (0 : Fin 1) p e) = outArr (inp m c) (((cfg0.win 4).blk t).view.emb (ix3 (0 : Fin 1) p e))
  rw [out_last m c hr t h1, oblk_emb]
  rfl

/-- Every index of the result array is in some flushing point's block. -/
theorem cover4 (y : S4x512x4096.Idx) : ∃ t : Fin cfg0.N, (cfg0.win 4).flush t = true ∧ y ∈ ((cfg0.win 4).blk t).view.set := by
  have h0 : (y 0).val < 4 := (y 0).isLt
  have h1 : (y 1).val < 512 := (y 1).isLt
  refine ⟨⟨16 * (y 0).val + 4 * ((y 1).val / 128) + 3, by rw [show cfg0.N = 64 from N_0]; omega⟩, ?_, ?_⟩
  · exact (flush0_4 _).mpr (by show (16 * (y 0).val + 4 * ((y 1).val / 128) + 3) % 4 = 3; omega)
  · rw [mem_oblk]
    obtain ⟨e0, e1, -⟩ := coords_val ⟨16 * (y 0).val + 4 * ((y 1).val / 128) + 3, by rw [show cfg0.N = 64 from N_0]; omega⟩
    constructor
    · rw [e0]; show (y 0).val = (16 * (y 0).val + 4 * ((y 1).val / 128) + 3) / 16; omega
    · rw [e1]; show (y 1).val / 128 = (16 * (y 0).val + 4 * ((y 1).val / 128) + 3) / 4 % 4; omega

/-- The result array after the run is the descriptor of the launch inputs. -/
theorem final4 (c : Dev nD) (hr : ∀ b n, ((inp m c).z b n).toNat < 4) :
    (dats m 0 c).arrAt 4 cfg0.N = outArr (inp m c) :=
  (dats m 0 c).arrAt_eq_of_cover 4 (outArr (inp m c)) (fun t hf => flushed4_eq m c hr t hf) cover4

/-- In a final state satisfying the library's post the nine arguments are as launched. -/
theorem args_kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c),
    ((h c).1 0).trans (((dats m 0 c).arrAt_in 0 rfl _).trans ((A_eq m c 0).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The program's run with its result named: the result array ends at the descriptor of the launch inputs, and the nine
    arguments end unchanged. -/
theorem run_value (hr : ∀ c b n, ((inp m c).z b n).toNat < 4) :
    θ_run defs (onTc (τ := τ) (main (F := Ideal))) ⟨m, fun _ => 0, ρ⟩ (fun r => ∀ c : Dev nD,
      r.2.mem ((c.tc : Thread nD τ).loc main_v13) = outArr (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 4).trans (final4 m c (hr c)), args_kept m r h c⟩) (run_main m ρ)

end Cert.KernelIdeal.Gen

end
-- ==== Proof.RefImports.lean ====
/- The reference program's run and its stage-by-stage reading, gathered in one place so that the modules
   about the reference's value import a single file. -/
import proofs.«418662_j3908420239890_3_alg».proof.Proof.Gen.ReferenceIdeal.Run
import proofs.«418662_j3908420239890_3_alg».proof.Proof.Gen.ReferenceIdeal.Read
-- ==== Proof.RGeom.lean ====
/-
  The pair geometry as the reference computes it on the whole 4 x 512 x 512 array of pairs: the four features, the
  cutoff and the neighbour mask of the pair (i, j) of structure b, from the two atoms' coordinate rows.
-/
import proofs.«418662_j3908420239890_3_alg».proof.Proof.RefImports
import proofs.«418662_j3908420239890_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.R

open Idealize.ShloMosaic Idealize.ShloMosaic.ValueIdx Cert.ReferenceIdeal Cert.ReferenceIdeal.Read Cert.Gnn

variable [Cert.ReferenceIdeal.Facts]

/-! ## The displacement and the squared distance -/

/-- The difference of the two broadcast coordinate arrays at the pair (i, j) and axis k is the displacement from atom
    i to atom j: the first array repeats the coordinates along the pair's first atom axis, so it reads atom j, and the
    second along the second, so it reads atom i. -/
theorem v4_at (x2 : (⟨S4x512x3, .f32⟩ : BufTy).Contents (Elt Ideal)) (b : Fin 4) (i j : Fin 512) (k : Fin 3) :
    val_main_v4 (F := Ideal) x2 (ix4 b i j k) = disp (fun k => x2 (ix3 b i k)) (fun k => x2 (ix3 b j k)) k := by
  have e0 : idx_main_v0 (idx_main_v2 (ix4 b i j k)) = ix3 b j k :=
    funext fun a => Fin.ext (by match a with | ⟨0, _⟩ => rfl | ⟨1, _⟩ => rfl | ⟨2, _⟩ => rfl)
  have e1 : idx_main_v1 (idx_main_v3 (ix4 b i j k)) = ix3 b i k :=
    funext fun a => Fin.ext (by match a with | ⟨0, _⟩ => rfl | ⟨1, _⟩ => rfl | ⟨2, _⟩ => rfl)
  rw [val_main_v4_apply, val_main_v2_apply, val_main_v0_apply, val_main_v3_apply, val_main_v1_apply, e0, e1]
  rfl

/-- The summand index of the sum over the last axis, at the pair (i, j) and axis k. -/
theorem idx6_at (b : Fin 4) (i j : Fin 512) (k : Fin 3) : idx_main_v6 (ix3 b i j) k = ix4 b i j k :=
  funext fun a => Fin.ext (by match a with | ⟨0, _⟩ => rfl | ⟨1, _⟩ => rfl | ⟨2, _⟩ => rfl | ⟨3, _⟩ => rfl)

/-- The sum of the squared displacements over the three axes, from the initial value zero, is the squared distance. -/
theorem v6_at (x2 : (⟨S4x512x3, .f32⟩ : BufTy).Contents (Elt Ideal)) (b : Fin 4) (i j : Fin 512) :
    val_main_v6 (F := Ideal) x2 (ix3 b i j) = dsq (fun k => x2 (ix3 b i k)) (fun k => x2 (ix3 b j k)) := by
  rw [val_main_v6_apply, val_main_cst_apply, Ideal.ofBits_def, Ideal.ofBits_zero_f32, zero_add]
  unfold dsq
  refine Finset.sum_congr rfl fun k _ => ?_
  rw [idx6_at, val_main_v5_apply, v4_at]
  rfl

/-! ## The distance -/

/-- The first comparison of the squared distance with the broadcast zero. -/
theorem v8_at (x2 : (⟨S4x512x3, .f32⟩ : BufTy).Contents (Elt Ideal)) (b : Fin 4) (i j : Fin 512) :
    val_main_v8 (F := Ideal) x2 (ix3 b i j) = pos (fun k => x2 (ix3 b i k)) (fun k => x2 (ix3 b j k)) := by
  rw [val_main_v8_apply, v6_at, val_main_v7_apply, val_main_cst_0_apply]
  rfl

/-- The second comparison of the squared distance with the broadcast zero: the same bit. -/
theorem v12_at (x2 : (⟨S4x512x3, .f32⟩ : BufTy).Contents (Elt Ideal)) (b : Fin 4) (i j : Fin 512) :
    val_main_v12 (F := Ideal) x2 (ix3 b i j) = pos (fun k => x2 (ix3 b i k)) (fun k => x2 (ix3 b j k)) := by
  rw [val_main_v12_apply, v6_at, val_main_v11_apply, val_main_cst_2_apply]
  rfl

/-- The square root of the squared distance, with 1 in place of a squared distance that is not positive. -/
theorem v10_at (x2 : (⟨S4x512x3, .f32⟩ : BufTy).Contents (Elt Ideal)) (b : Fin 4) (i j : Fin 512) :
    val_main_v10 (F := Ideal) x2 (ix3 b i j) = safe (fun k => x2 (ix3 b i k)) (fun k => x2 (ix3 b j k)) := by
  rw [val_main_v10_apply, val_main_v9_apply, v8_at, v6_at, val_main_call0_v1_apply, val_main_call0_v0_apply,
    val_main_cst_1_apply]
  rfl

/-- The distance: that square root where the squared distance is positive, zero elsewhere. -/
theorem v13_at (x2 : (⟨S4x512x3, .f32⟩ : BufTy).Contents (Elt Ideal)) (b : Fin 4) (i j : Fin 512) :
    val_main_v13 (F := Ideal) x2 (ix3 b i j) = dist (fun k => x2 (ix3 b i k)) (fun k => x2 (ix3 b j k)) := by
  rw [val_main_v13_apply, v12_at, v10_at, val_main_call1_v1_apply, val_main_call1_v0_apply, val_main_cst_3_apply]
  rfl

/-! ## The cutoff -/

/-- The cutoff of the pair. -/
theorem cut_apply (x2 : (⟨S4x512x3, .f32⟩ : BufTy).Contents (Elt Ideal)) (b : Fin 4) (i j : Fin 512) :
    val_main_v31 (F := Ideal) x2 (ix3 b i j) = cut (fun k => x2 (ix3 b i k)) (fun k => x2 (ix3 b j k)) := by
  rw [val_main_v31_apply, val_main_v29_apply, val_main_v28_apply, val_main_cst_6_apply, val_main_v27_apply,
    val_main_v26_apply, v13_at, val_main_v25_apply, val_main_cst_5_apply, val_main_v30_apply, val_main_cst_7_apply]
  rfl

/-! ## The neighbour mask -/

/-- The complement of "row number equals column number" on the 512 x 512 square of 32-bit counters: the counters are
    below 2³², so two of them are equal exactly when the numbers are. -/
theorem offdiag_word (i j : Fin 512) :
    ~~~(IntOp.cmpi .eq (IntOp.addi (BitVec.ofNat 32 i.val) 0#32) (BitVec.ofNat 32 j.val))
      = (if i = j then 0#1 else 1#1 : BitVec 1) := by
  have h0 : IntOp.addi (BitVec.ofNat 32 i.val) 0#32 = BitVec.ofNat 32 i.val := by
    show BitVec.ofNat 32 i.val + 0#32 = _
    exact BitVec.add_zero _
  rw [h0]
  by_cases h : i = j
  · subst h
    rw [if_pos rfl]
    show ~~~(BitVec.ofBool (BitVec.ofNat 32 i.val == BitVec.ofNat 32 i.val)) = 0#1
    rw [beq_self_eq_true]
    decide
  · rw [if_neg h]
    have hne : (BitVec.ofNat 32 i.val == BitVec.ofNat 32 j.val) = false := by
      rw [beq_eq_false_iff_ne]
      intro he
      apply h
      apply Fin.ext
      have h2 := congrArg BitVec.toNat he
      rw [BitVec.toNat_ofNat, BitVec.toNat_ofNat] at h2
      have hi := i.isLt
      have hj := j.isLt
      omega
    show ~~~(BitVec.ofBool (BitVec.ofNat 32 i.val == BitVec.ofNat 32 j.val)) = 1#1
    rw [hne]
    decide

/-- The broadcast off-diagonal mask at the pair (i, j) of any structure. -/
theorem v23_at (b : Fin 4) (i j : Fin 512) :
    val_main_v23 (F := Ideal) (ix3 b i j) = (if i = j then 0#1 else 1#1 : BitVec 1) := by
  have e : idx_main_v22 (idx_main_v23 (ix3 b i j)) = ix2 i j :=
    funext fun a => Fin.ext (by match a with | ⟨0, _⟩ => rfl | ⟨1, _⟩ => rfl)
  rw [val_main_v23_apply, val_main_v22_apply, e, val_main_v21_apply, val_main_v18_apply, val_main_v17_apply,
    val_main_v14_apply, val_main_v15_apply, val_main_v16_apply, val_main_c_apply]
  exact offdiag_word i j

/-- The neighbour mask of the pair. -/
theorem nbr_apply (x2 : (⟨S4x512x3, .f32⟩ : BufTy).Contents (Elt Ideal)) (b : Fin 4) (i j : Fin 512) :
    val_main_v24 (F := Ideal) x2 (ix3 b i j) = nbr i j (fun k => x2 (ix3 b i k)) (fun k => x2 (ix3 b j k)) := by
  rw [val_main_v24_apply, val_main_v20_apply, v13_at, val_main_v19_apply, val_main_cst_4_apply, v23_at]
  rfl

/-! ## The features -/

/-- The scaled direction component k of the pair. -/
theorem v38_at (x2 : (⟨S4x512x3, .f32⟩ : BufTy).Contents (Elt Ideal)) (b : Fin 4) (i j : Fin 512) (k : Fin 3) :
    val_main_v38 (F := Ideal) x2 (ix4 b i j k) = dirc (fun k => x2 (ix3 b i k)) (fun k => x2 (ix3 b j k)) k := by
  have e33 : idx_main_v32 (idx_main_v33 (ix4 b i j k)) = ix3 b i j :=
    funext fun a => Fin.ext (by match a with | ⟨0, _⟩ => rfl | ⟨1, _⟩ => rfl | ⟨2, _⟩ => rfl)
  have e37 : idx_main_v36 (idx_main_v37 (ix4 b i j k)) = ix3 b i j :=
    funext fun a => Fin.ext (by match a with | ⟨0, _⟩ => rfl | ⟨1, _⟩ => rfl | ⟨2, _⟩ => rfl)
  rw [val_main_v38_apply, val_main_v34_apply, v4_at, val_main_v33_apply, val_main_v32_apply, e33, v10_at,
    val_main_v37_apply, val_main_v36_apply, e37, cut_apply]
  rfl

/-- The cutoff with a unit last axis, as the concatenation's first piece. -/
theorem v35_at (x2 : (⟨S4x512x3, .f32⟩ : BufTy).Contents (Elt Ideal)) (b : Fin 4) (i j : Fin 512) (z : Fin 1) :
    val_main_v35 (F := Ideal) x2 (ix4 b i j z) = cut (fun k => x2 (ix3 b i k)) (fun k => x2 (ix3 b j k)) := by
  have e35 : idx_main_v35 (ix4 b i j z) = ix3 b i j :=
    funext fun a => Fin.ext (by match a with | ⟨0, _⟩ => rfl | ⟨1, _⟩ => rfl | ⟨2, _⟩ => rfl)
  rw [val_main_v35_apply, e35, cut_apply]

/-- The four features of the pair (i, j) of structure b. -/
theorem feat_apply (x2 : (⟨S4x512x3, .f32⟩ : BufTy).Contents (Elt Ideal)) (b : Fin 4) (i j : Fin 512) (f : Fin 4) :
    val_main_v39 (F := Ideal) x2 (ix4 b i j f) = feat (fun k => x2 (ix3 b i k)) (fun k => x2 (ix3 b j k)) f := by
  unfold val_main_v39 feat
  by_cases hf : f.val = 0
  · -- the first feature lies in the one-wide first piece
    rw [dif_pos hf]
    refine (concatenate_pair_apply_left (s₁ := S4x512x512x1) (s₂ := S4x512x512x3) (3 : Fin 4) _ _ _ (ix4 b i j f) rfl
      (ix4 b i j (0 : Fin 1)) (fun a => ?_)).trans ?_
    · match a with
      | ⟨0, _⟩ => rfl
      | ⟨1, _⟩ => rfl
      | ⟨2, _⟩ => rfl
      | ⟨3, _⟩ => exact hf.symm
    · exact v35_at x2 b i j 0
  · -- the other three lie in the second piece, one place further on
    rw [dif_neg hf]
    have hk : f.val - 1 < 3 := by have := f.isLt; omega
    refine (concatenate_pair_apply_right (s₁ := S4x512x512x1) (s₂ := S4x512x512x3) (3 : Fin 4) _ _ _ (ix4 b i j f) rfl rfl
      (ix4 b i j (⟨f.val - 1, hk⟩ : Fin 3)) (fun a => ?_) ?_).trans ?_
    · match a with
      | ⟨0, _⟩ => exact fun _ => rfl
      | ⟨1, _⟩ => exact fun _ => rfl
      | ⟨2, _⟩ => exact fun _ => rfl
      | ⟨3, _⟩ => exact fun h => absurd rfl h
    · show f.val - 1 + 1 = f.val
      omega
    · exact v38_at x2 b i j ⟨f.val - 1, hk⟩

end Cert.Gnn.R

end
-- ==== Proof.RLayer0.lean ====
/-
  The first expansion layer as the reference computes it: the pair's weight, width and centres are looked up at the
  label 4 z_i + z_j (in range for atom types in 0..3, so the lookup's wrap-around of negative indices and its clamping
  do nothing), and the 32 channels w · exp(−((r − centre) · s)²) of the cutoff value r are summed.
-/
import proofs.«418662_j3908420239890_3_alg».proof.Proof.RefImports
import proofs.«418662_j3908420239890_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Mathlib.Algebra.BigOperators.Fin

set_option maxRecDepth 16384

noncomputable section

namespace Cert.Gnn.R

open Idealize.ShloMosaic Idealize.ShloMosaic.ValueIdx Cert.ReferenceIdeal Cert.ReferenceIdeal.Read Cert.Gnn

namespace L0

/-! ## Lookups read at an index -/

/-- The dimension numbers of a lookup of single elements of a 16-vector at a [4,512,512,1] array of positions. -/
abbrev l0ElemDims (wf : GatherDims.WF ⟨1, ![16]⟩ ⟨4, ![4, 512, 512, 1]⟩ ⟨3, ![4, 512, 512]⟩ [] [0] [] [0] [] 3 ![1]) :
    GatherDims ⟨1, ![16]⟩ ⟨4, ![4, 512, 512, 1]⟩ ⟨3, ![4, 512, 512]⟩ where
  offsetDims := []
  collapsedSliceDims := [0]
  operandBatchingDims := []
  startIndicesBatchingDims := []
  startIndexMap := [0]
  indexVectorDim := 3
  sliceSizes := ![1]
  wf := wf

/-- The lookup of single elements read at (b, i, j): the operand at the position word read signed and clamped into 0..15. -/
theorem l0_gather_elem_apply {α : Type} {w : Nat}
    (wf : GatherDims.WF ⟨1, ![16]⟩ ⟨4, ![4, 512, 512, 1]⟩ ⟨3, ![4, 512, 512]⟩ [] [0] [] [0] [] 3 ![1])
    (x : (⟨1, ![16]⟩ : Shape).Idx → α) (idx : IVec ⟨4, ![4, 512, 512, 1]⟩ w) (b : Fin 4) (i j : Fin 512) :
    Host.gather (l0ElemDims wf) x idx (ix3 b i j)
      = x (ix1 ⟨min (idx (ix4 b i j (0 : Fin 1))).toInt.toNat 15, by omega⟩) := by
  unfold Host.gather
  congr 1
  funext a
  obtain rfl : a = 0 := Subsingleton.elim _ _
  refine Fin.ext ?_
  show (l0ElemDims wf).start (ix3 b i j) idx 0 + (l0ElemDims wf).batchCoord (ix3 b i j) 0 + (l0ElemDims wf).offCoord (ix3 b i j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (l0ElemDims wf).startIndexMap from List.mem_singleton.mpr rfl)]
  have hsi : (l0ElemDims wf).siIdx (ix3 b i j) ⟨List.idxOf (0 : Fin 1) (l0ElemDims wf).startIndexMap,
      List.idxOf_lt_length_iff.2 (List.mem_singleton.mpr rfl)⟩ = ix4 b i j (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The dimension numbers of a lookup of rows of a [16, 32] table at a [4,512,512,1] array of positions. -/
abbrev l0RowDims (wf : GatherDims.WF ⟨2, ![16, 32]⟩ ⟨4, ![4, 512, 512, 1]⟩ ⟨4, ![4, 512, 512, 32]⟩ [3] [0] [] [0] [] 3 ![1, 32]) :
    GatherDims ⟨2, ![16, 32]⟩ ⟨4, ![4, 512, 512, 1]⟩ ⟨4, ![4, 512, 512, 32]⟩ where
  offsetDims := [3]
  collapsedSliceDims := [0]
  operandBatchingDims := []
  startIndicesBatchingDims := []
  startIndexMap := [0]
  indexVectorDim := 3
  sliceSizes := ![1, 32]
  wf := wf

/-- The lookup of rows read at (b, i, j, k): entry k of the row at the position word read signed and clamped into 0..15. -/
theorem l0_gather_row_apply {α : Type} {w : Nat}
    (wf : GatherDims.WF ⟨2, ![16, 32]⟩ ⟨4, ![4, 512, 512, 1]⟩ ⟨4, ![4, 512, 512, 32]⟩ [3] [0] [] [0] [] 3 ![1, 32])
    (x : (⟨2, ![16, 32]⟩ : Shape).Idx → α) (idx : IVec ⟨4, ![4, 512, 512, 1]⟩ w) (b : Fin 4) (i j : Fin 512) (k : Fin 32) :
    Host.gather (l0RowDims wf) x idx (ix4 b i j k)
      = x (ix2 ⟨min (idx (ix4 b i j (0 : Fin 1))).toInt.toNat 15, by omega⟩ k) := by
  unfold Host.gather
  congr 1
  funext a
  refine Fin.ext ?_
  show (l0RowDims wf).start (ix4 b i j k) idx a + (l0RowDims wf).batchCoord (ix4 b i j k) a + (l0RowDims wf).offCoord (ix4 b i j k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (l0RowDims wf).startIndexMap from List.mem_singleton.mpr rfl)]
    have hsi : (l0RowDims wf).siIdx (ix4 b i j k) ⟨List.idxOf (⟨0, by decide⟩ : Fin 2) (l0RowDims wf).startIndexMap,
        List.idxOf_lt_length_iff.2 (List.mem_singleton.mpr rfl)⟩ = ix4 b i j (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, h1⟩ =>
    have hs : (l0RowDims wf).start (ix4 b i j k) idx ⟨1, h1⟩ = 0 := by
      unfold GatherDims.start
      exact dif_neg (fun h => absurd (congrArg Fin.val (List.mem_singleton.mp h)) Nat.one_ne_zero)
    have hk : (⟨1, h1⟩ : Fin 2) ∈ (l0RowDims wf).sKept :=
      (GatherDims.mem_sKept _ _).mpr ⟨fun h => absurd (congrArg Fin.val (List.mem_singleton.mp h)) Nat.one_ne_zero, List.not_mem_nil⟩
    rw [hs]
    unfold GatherDims.offCoord
    rw [dif_pos hk]
    simp only [Nat.zero_add]
    rfl

/-! ## The label word -/

/-- The label word 4 z_i + z_j of two atom types below 4 does not wrap. -/
theorem l0_label_toNat (zi zj : BitVec 32) (hi : zi.toNat < 4) (hj : zj.toNat < 4) :
    (IntOp.addi (IntOp.muli zi 4#32) zj).toNat = 4 * zi.toNat + zj.toNat := by
  simp only [IntOp.addi, IntOp.muli, BitVec.toNat_add, BitVec.toNat_mul, BitVec.toNat_ofNat]
  omega

/-- A word below 16 is not negative, so adding 16 to negative positions leaves it as it is. -/
theorem l0_wrap_small (L : BitVec 32) (hL : L.toNat < 16) :
    Scalar.select (IntOp.cmpi .slt L 0#32) (IntOp.addi L 16#32) L = L := by
  have h0 : IntOp.cmpi .slt L 0#32 = 0#1 :=
    eq_zero_of_ne_one fun h => by
      have h' := (StableHlo.Predicate.slt_iff_toNat (a := L) (b := 0#32) (by omega) (by decide)).mp h
      simp at h'
  rw [h0, select_zero]

/-- Read signed and clamped into 0..15, a word below 16 is its value. -/
theorem l0_clamp_small (L : BitVec 32) (hL : L.toNat < 16) : min L.toInt.toNat 15 = L.toNat := by
  rw [StableHlo.Predicate.toInt_eq_toNat_of_lt (a := L) (by omega), Int.toNat_natCast]
  omega

/-- The position the three lookups read for atom types below 4: the pair label. -/
theorem l0_pos_eq_lab (zi zj : BitVec 32) (hi : zi.toNat < 4) (hj : zj.toNat < 4) :
    min (Scalar.select (IntOp.cmpi .slt (IntOp.addi (IntOp.muli zi 4#32) zj) 0#32)
        (IntOp.addi (IntOp.addi (IntOp.muli zi 4#32) zj) 16#32) (IntOp.addi (IntOp.muli zi 4#32) zj)).toInt.toNat 15
      = (lab zi zj).val := by
  have hL : (IntOp.addi (IntOp.muli zi 4#32) zj).toNat < 16 := by rw [l0_label_toNat zi zj hi hj]; omega
  rw [l0_wrap_small _ hL, l0_clamp_small _ hL, l0_label_toNat zi zj hi hj]
  show _ = 4 * (zi.toNat % 4) + zj.toNat % 4
  rw [Nat.mod_eq_of_lt hi, Nat.mod_eq_of_lt hj]

/-! ## The reference's stages at an index -/

/-- The label word at (b, i, j): 4 z_i + z_j in 32-bit arithmetic. -/
theorem l0_v46_at (x1 : (⟨S4x512, .i32⟩ : BufTy).Contents (Elt Ideal)) (b : Fin 4) (i j : Fin 512) :
    val_main_v46 (F := Ideal) x1 (ix3 b i j) = IntOp.addi (IntOp.muli (x1 (ix2 b i)) 4#32) (x1 (ix2 b j)) := by
  have e1 : idx_main_v40 (idx_main_v44 (ix3 b i j)) = ix2 b i := funext fun a => Fin.ext (by match a with | ⟨0, _⟩ => rfl | ⟨1, _⟩ => rfl)
  have e2 : idx_main_v43 (idx_main_v45 (ix3 b i j)) = ix2 b j := funext fun a => Fin.ext (by match a with | ⟨0, _⟩ => rfl | ⟨1, _⟩ => rfl)
  rw [val_main_v46_apply, val_main_v44_apply, val_main_v45_apply, val_main_v42_apply, val_main_v40_apply, val_main_v41_apply,
    val_main_c_8_apply, val_main_v43_apply, e1, e2]

/-- The position the weight lookup reads at (b, i, j) is the pair label. -/
theorem l0_pos55 (x1 : (⟨S4x512, .i32⟩ : BufTy).Contents (Elt Ideal)) (b : Fin 4) (i j : Fin 512) (hr : ∀ n : Fin 512, (x1 (ix2 b n)).toNat < 4) :
    min (val_main_v55 (F := Ideal) x1 (ix4 b i j (0 : Fin 1))).toInt.toNat 15 = (lab (x1 (ix2 b i)) (x1 (ix2 b j))).val := by
  have e : idx_main_v55 (ix4 b i j (0 : Fin 1)) = ix3 b i j := funext fun a => Fin.ext (by match a with | ⟨0, _⟩ => rfl | ⟨1, _⟩ => rfl | ⟨2, _⟩ => rfl)
  rw [val_main_v55_apply, e, val_main_v54_apply, val_main_v51_apply, val_main_v53_apply, val_main_v50_apply, val_main_c_10_apply, val_main_v52_apply, val_main_c_11_apply,
    l0_v46_at]
  exact l0_pos_eq_lab _ _ (hr i) (hr j)

/-- The position the width lookup reads at (b, i, j) is the pair label. -/
theorem l0_pos63 (x1 : (⟨S4x512, .i32⟩ : BufTy).Contents (Elt Ideal)) (b : Fin 4) (i j : Fin 512) (hr : ∀ n : Fin 512, (x1 (ix2 b n)).toNat < 4) :
    min (val_main_v63 (F := Ideal) x1 (ix4 b i j (0 : Fin 1))).toInt.toNat 15 = (lab (x1 (ix2 b i)) (x1 (ix2 b j))).val := by
  have e : idx_main_v63 (ix4 b i j (0 : Fin 1)) = ix3 b i j := funext fun a => Fin.ext (by match a with | ⟨0, _⟩ => rfl | ⟨1, _⟩ => rfl | ⟨2, _⟩ => rfl)
  rw [val_main_v63_apply, e, val_main_v62_apply, val_main_v59_apply, val_main_v61_apply, val_main_v58_apply, val_main_c_12_apply, val_main_v60_apply, val_main_c_13_apply,
    l0_v46_at]
  exact l0_pos_eq_lab _ _ (hr i) (hr j)

/-- The position the centre lookup reads at (b, i, j) is the pair label. -/
theorem l0_pos71 (x1 : (⟨S4x512, .i32⟩ : BufTy).Contents (Elt Ideal)) (b : Fin 4) (i j : Fin 512) (hr : ∀ n : Fin 512, (x1 (ix2 b n)).toNat < 4) :
    min (val_main_v71 (F := Ideal) x1 (ix4 b i j (0 : Fin 1))).toInt.toNat 15 = (lab (x1 (ix2 b i)) (x1 (ix2 b j))).val := by
  have e : idx_main_v71 (ix4 b i j (0 : Fin 1)) = ix3 b i j := funext fun a => Fin.ext (by match a with | ⟨0, _⟩ => rfl | ⟨1, _⟩ => rfl | ⟨2, _⟩ => rfl)
  rw [val_main_v71_apply, e, val_main_v70_apply, val_main_v67_apply, val_main_v69_apply, val_main_v66_apply, val_main_c_14_apply, val_main_v68_apply, val_main_c_15_apply,
    l0_v46_at]
  exact l0_pos_eq_lab _ _ (hr i) (hr j)

/-- The looked-up weight of the pair. -/
theorem l0_v56_at (x1 : (⟨S4x512, .i32⟩ : BufTy).Contents (Elt Ideal)) (x3 : (⟨S16, .f32⟩ : BufTy).Contents (Elt Ideal)) (b : Fin 4) (i j : Fin 512) (hr : ∀ n : Fin 512, (x1 (ix2 b n)).toNat < 4) :
    val_main_v56 (F := Ideal) x1 x3 (ix3 b i j) = x3 (ix1 (lab (x1 (ix2 b i)) (x1 (ix2 b j)))) := by
  unfold val_main_v56
  refine (l0_gather_elem_apply Facts₀.gather_S16_S4x512x512x1_S4x512x512_n_0_n_n_0_3_1_wf x3 (val_main_v55 (F := Ideal) x1) b i j).trans ?_
  exact congrArg (fun t => x3 (ix1 t)) (Fin.ext (l0_pos55 x1 b i j hr))

/-- The looked-up width of the pair. -/
theorem l0_v64_at (x1 : (⟨S4x512, .i32⟩ : BufTy).Contents (Elt Ideal)) (x4 : (⟨S16, .f32⟩ : BufTy).Contents (Elt Ideal)) (b : Fin 4) (i j : Fin 512) (hr : ∀ n : Fin 512, (x1 (ix2 b n)).toNat < 4) :
    val_main_v64 (F := Ideal) x1 x4 (ix3 b i j) = x4 (ix1 (lab (x1 (ix2 b i)) (x1 (ix2 b j)))) := by
  unfold val_main_v64
  refine (l0_gather_elem_apply Facts₀.gather_S16_S4x512x512x1_S4x512x512_n_0_n_n_0_3_1_wf x4 (val_main_v63 (F := Ideal) x1) b i j).trans ?_
  exact congrArg (fun t => x4 (ix1 t)) (Fin.ext (l0_pos63 x1 b i j hr))

/-- The looked-up centre k of the pair. -/
theorem l0_v72_at (x1 : (⟨S4x512, .i32⟩ : BufTy).Contents (Elt Ideal)) (x5 : (⟨S16x32, .f32⟩ : BufTy).Contents (Elt Ideal)) (b : Fin 4) (i j : Fin 512) (k : Fin 32) (hr : ∀ n : Fin 512, (x1 (ix2 b n)).toNat < 4) :
    val_main_v72 (F := Ideal) x1 x5 (ix4 b i j k) = x5 (ix2 (lab (x1 (ix2 b i)) (x1 (ix2 b j))) k) := by
  unfold val_main_v72
  refine (l0_gather_row_apply Facts₀.gather_S16x32_S4x512x512x1_S4x512x512x32_3_0_n_n_0_3_132_wf x5 (val_main_v71 (F := Ideal) x1) b i j k).trans ?_
  exact congrArg (fun t => x5 (ix2 t k)) (Fin.ext (l0_pos71 x1 b i j hr))

/-- The cutoff value carried through a unit axis and a sum over that axis: a sum of one term from 0. -/
theorem l0_v49_at (x2 : (⟨S4x512x3, .f32⟩ : BufTy).Contents (Elt Ideal)) (b : Fin 4) (i j : Fin 512) :
    val_main_v49 (F := Ideal) x2 (ix4 b i j (0 : Fin 1)) = val_main_v31 (F := Ideal) x2 (ix3 b i j) := by
  have e1 : idx_main_v49 (ix4 b i j (0 : Fin 1)) = ix3 b i j := funext fun a => Fin.ext (by match a with | ⟨0, _⟩ => rfl | ⟨1, _⟩ => rfl | ⟨2, _⟩ => rfl)
  have e2 : idx_main_v47 (idx_main_v48 (ix3 b i j) (0 : Fin 1)) = ix3 b i j := funext fun a => Fin.ext (by match a with | ⟨0, _⟩ => rfl | ⟨1, _⟩ => rfl | ⟨2, _⟩ => rfl)
  rw [val_main_v49_apply, e1, val_main_v48_apply, val_main_cst_9_apply, Fin.sum_univ_one, val_main_v47_apply, e2,
    Ideal.ofBits_def, Ideal.ofBits_zero_f32, zero_add]

/-- Channel k of the pair's expansion. -/
theorem l0_v81_at (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (b : Fin 4) (i j : Fin 512) (k : Fin 32) (hr : ∀ n : Fin 512, (x1 (ix2 b n)).toNat < 4) :
    val_main_v81 (F := Ideal) x1 x2 x3 x4 x5 (ix4 b i j k)
      = rbf (⟨fun l => x3 (ix1 l), fun l => x4 (ix1 l), fun l k => x5 (ix2 l k)⟩ : Tab 32) (lab (x1 (ix2 b i)) (x1 (ix2 b j))) (val_main_v31 (F := Ideal) x2 (ix3 b i j)) k := by
  have e80 : idx_main_v80 (ix4 b i j k) = ix4 b i j (0 : Fin 1) := funext fun a => Fin.ext (by match a with | ⟨0, _⟩ => rfl | ⟨1, _⟩ => rfl | ⟨2, _⟩ => rfl | ⟨3, _⟩ => rfl)
  have e75 : idx_main_v75 (ix4 b i j k) = ix4 b i j (0 : Fin 1) := funext fun a => Fin.ext (by match a with | ⟨0, _⟩ => rfl | ⟨1, _⟩ => rfl | ⟨2, _⟩ => rfl | ⟨3, _⟩ => rfl)
  have e73 : idx_main_v73 (ix4 b i j k) = ix4 b i j (0 : Fin 1) := funext fun a => Fin.ext (by match a with | ⟨0, _⟩ => rfl | ⟨1, _⟩ => rfl | ⟨2, _⟩ => rfl | ⟨3, _⟩ => rfl)
  have e57 : idx_main_v57 (ix4 b i j (0 : Fin 1)) = ix3 b i j := funext fun a => Fin.ext (by match a with | ⟨0, _⟩ => rfl | ⟨1, _⟩ => rfl | ⟨2, _⟩ => rfl)
  have e65 : idx_main_v65 (ix4 b i j (0 : Fin 1)) = ix3 b i j := funext fun a => Fin.ext (by match a with | ⟨0, _⟩ => rfl | ⟨1, _⟩ => rfl | ⟨2, _⟩ => rfl)
  rw [val_main_v81_apply, val_main_v80_apply, e80, val_main_v57_apply, e57, l0_v56_at x1 x3 b i j hr,
    val_main_v79_apply, val_main_v78_apply, val_main_v77_apply, val_main_v76_apply, val_main_v74_apply,
    val_main_v73_apply, e73, l0_v49_at, l0_v72_at x1 x5 b i j k hr,
    val_main_v75_apply, e75, val_main_v65_apply, e65, l0_v64_at x1 x4 b i j hr]
  simp only [Ideal.mulf_def, Ideal.subf_def, Ideal.hostNegf_def, Ideal.negf_def, Ideal.hostUnary_exp_def]
  rfl

end L0

open L0

variable [Cert.ReferenceIdeal.Facts]

/-- The first layer's channel sum for the pair (i, j) of structure b. -/
theorem layer0_apply (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (b : Fin 4) (i j : Fin 512)
    (hr : ∀ n : Fin 512, (x1 (ix2 b n)).toNat < 4) :
    val_main_v82 (F := Ideal) x1 x2 x3 x4 x5 (ix3 b i j)
      = ∑ k : Fin 32, rbf (⟨fun l => x3 (ix1 l), fun l => x4 (ix1 l), fun l k => x5 (ix2 l k)⟩ : Tab 32) (lab (x1 (ix2 b i)) (x1 (ix2 b j))) (val_main_v31 (F := Ideal) x2 (ix3 b i j)) k := by
  rw [val_main_v82_apply, val_main_cst_16_apply, Ideal.ofBits_def, Ideal.ofBits_zero_f32, zero_add]
  refine Finset.sum_congr rfl fun k _ => ?_
  have e : idx_main_v82 (ix3 b i j) k = ix4 b i j k := funext fun a => Fin.ext (by match a with | ⟨0, _⟩ => rfl | ⟨1, _⟩ => rfl | ⟨2, _⟩ => rfl | ⟨3, _⟩ => rfl)
  rw [e]
  exact l0_v81_at x1 x2 x3 x4 x5 b i j k hr

end Cert.Gnn.R

end
-- ==== Proof.RLayer1.lean ====
/-
  The second expansion layer as the reference computes it, masked: the pair's layer-1 weight, width and centres are
  looked up at the label 4 z_i + z_j (in range for atom types in 0..3), channel c of the expansion of the first layer's
  sum is formed, and the result is multiplied by the neighbour mask read as the number 0 or 1.
-/
import proofs.«418662_j3908420239890_3_alg».proof.Proof.RefImports
import proofs.«418662_j3908420239890_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.R

open Idealize.ShloMosaic Idealize.ShloMosaic.ValueIdx Cert.ReferenceIdeal Cert.ReferenceIdeal.Read Cert.Gnn

variable [Cert.ReferenceIdeal.Facts]

namespace L1

/-! ## A gather along the operand's first axis, read at an index

Both lookups have one start index per pair (b, i, j), kept on a trailing unit axis of the start-index array, that
names the operand's first axis, which is collapsed. The element read is the operand's at that start index, read as a
signed integer and clamped into 0..15; a second operand axis, kept whole, is read at the result's last coordinate. -/

/-- A table of 16 scalars looked up per pair: the result at (b, i, j) is the table at the clamped start index. -/
theorem gather_scalar_apply {α : Type} {w : Nat}
    (d : GatherDims ⟨1, ![16]⟩ ⟨4, ![4, 512, 512, 1]⟩ ⟨3, ![4, 512, 512]⟩)
    (hoff : d.offsetDims = []) (hcoll : d.collapsedSliceDims = [0]) (hob : d.operandBatchingDims = [])
    (hsim : d.startIndexMap = [0]) (hivd : d.indexVectorDim = 3)
    (x : (⟨1, ![16]⟩ : Shape).Idx → α) (idx : IVec ⟨4, ![4, 512, 512, 1]⟩ w) (b : Fin 4) (i j : Fin 512)
    (k : Fin 16) (hk : min (idx (ix4 b i j 0)).toInt.toNat 15 = k.val) :
    Host.gather d x idx (ix3 b i j) = x (ix1 k) := by
  cases d with | mk od cd ob sb sm iv ss wf =>
  simp only at hoff hcoll hob hsim hivd
  subst hoff hcoll hob hsim hivd
  unfold Host.gather
  congr 1
  funext a
  obtain rfl : a = 0 := Subsingleton.elim _ _
  refine Fin.ext ?_
  let d : GatherDims ⟨1, ![16]⟩ ⟨4, ![4, 512, 512, 1]⟩ ⟨3, ![4, 512, 512]⟩ := ⟨[], [0], [], sb, [0], 3, ss, wf⟩
  show d.start (ix3 b i j) idx 0 + d.batchCoord (ix3 b i j) 0 + d.offCoord (ix3 b i j) 0 = _
  -- no batching axis, and the one operand axis is collapsed: only the start index contributes
  rw [GatherDims.batchCoord_eq_zero d _ _ List.not_mem_nil,
    GatherDims.offCoord_eq_zero d _ _ (fun h => ((GatherDims.mem_sKept _ _).mp h).1 (List.mem_singleton.mpr rfl))]
  simp only [Nat.add_zero]
  have hsl : ss 0 = 1 := d.slice_collapsed 0 (List.mem_singleton.mpr rfl)
  unfold GatherDims.start
  rw [dif_pos (show (0 : Fin 1) ∈ d.startIndexMap from List.mem_singleton.mpr rfl)]
  -- the start index is read at (b, i, j, 0)
  have hsi : d.siIdx (ix3 b i j) ⟨List.idxOf (0 : Fin 1) d.startIndexMap,
      List.idxOf_lt_length_iff.2 (List.mem_singleton.mpr rfl)⟩ = ix4 b i j 0 := by
    funext c; refine Fin.ext ?_
    match c with
    | ⟨0, _⟩ => rfl
    | ⟨1, _⟩ => rfl
    | ⟨2, _⟩ => rfl
    | ⟨3, _⟩ => rfl
  rw [hsi]
  show min _ (16 - ss 0) = _
  rw [hsl]
  exact hk

/-- A table of 16 rows of 64 looked up per pair: the result at (b, i, j, c) is entry c of the row at the clamped
    start index. -/
theorem gather_row_apply {α : Type} {w : Nat}
    (d : GatherDims ⟨2, ![16, 64]⟩ ⟨4, ![4, 512, 512, 1]⟩ ⟨4, ![4, 512, 512, 64]⟩)
    (hoff : d.offsetDims = [3]) (hcoll : d.collapsedSliceDims = [0]) (hob : d.operandBatchingDims = [])
    (hsim : d.startIndexMap = [0]) (hivd : d.indexVectorDim = 3)
    (x : (⟨2, ![16, 64]⟩ : Shape).Idx → α) (idx : IVec ⟨4, ![4, 512, 512, 1]⟩ w) (b : Fin 4) (i j : Fin 512) (c : Fin 64)
    (k : Fin 16) (hk : min (idx (ix4 b i j 0)).toInt.toNat 15 = k.val) :
    Host.gather d x idx (ix4 b i j c) = x (ix2 k c) := by
  cases d with | mk od cd ob sb sm iv ss wf =>
  simp only at hoff hcoll hob hsim hivd
  subst hoff hcoll hob hsim hivd
  unfold Host.gather
  congr 1
  funext a
  refine Fin.ext ?_
  let d : GatherDims ⟨2, ![16, 64]⟩ ⟨4, ![4, 512, 512, 1]⟩ ⟨4, ![4, 512, 512, 64]⟩ := ⟨[3], [0], [], sb, [0], 3, ss, wf⟩
  match a with
  | ⟨0, _⟩ =>
    -- the row axis: collapsed, so only the start index contributes
    show d.start (ix4 b i j c) idx 0 + d.batchCoord (ix4 b i j c) 0 + d.offCoord (ix4 b i j c) 0 = _
    rw [GatherDims.batchCoord_eq_zero d _ _ List.not_mem_nil,
      GatherDims.offCoord_eq_zero d _ _ (fun h => ((GatherDims.mem_sKept _ _).mp h).1 (List.mem_singleton.mpr rfl))]
    simp only [Nat.add_zero]
    have hsl : ss 0 = 1 := d.slice_collapsed 0 (List.mem_singleton.mpr rfl)
    unfold GatherDims.start
    rw [dif_pos (show (0 : Fin 2) ∈ d.startIndexMap from List.mem_singleton.mpr rfl)]
    have hsi : d.siIdx (ix4 b i j c) ⟨List.idxOf (0 : Fin 2) d.startIndexMap,
        List.idxOf_lt_length_iff.2 (List.mem_singleton.mpr rfl)⟩ = ix4 b i j 0 := by
      funext e; refine Fin.ext ?_
      match e with
      | ⟨0, _⟩ => rfl
      | ⟨1, _⟩ => rfl
      | ⟨2, _⟩ => rfl
      | ⟨3, _⟩ => rfl
    rw [hsi]
    show min _ (16 - ss 0) = _
    rw [hsl]
    exact hk
  | ⟨1, _⟩ =>
    -- the channel axis: no start index, no batching; the offset is the result's last coordinate
    show d.start (ix4 b i j c) idx 1 + d.batchCoord (ix4 b i j c) 1 + d.offCoord (ix4 b i j c) 1 = c.val
    rw [GatherDims.batchCoord_eq_zero d _ _ List.not_mem_nil]
    have hst : d.start (ix4 b i j c) idx 1 = 0 := by
      unfold GatherDims.start
      rw [dif_neg (show (1 : Fin 2) ∉ ([0] : List (Fin 2)) by decide)]
    rw [hst]
    simp only [Nat.add_zero, Nat.zero_add]
    rfl

/-! ## The label word 4·z_i + z_j for atom types below 4 -/

/-- No wrap: the word's value is 4·z_i + z_j. -/
theorem label_toNat (zi zj : BitVec 32) (hi : zi.toNat < 4) (hj : zj.toNat < 4) :
    (IntOp.addi (IntOp.muli zi 4#32) zj).toNat = 4 * zi.toNat + zj.toNat := by
  simp only [IntOp.addi, IntOp.muli, BitVec.toNat_add, BitVec.toNat_mul, BitVec.toNat_ofNat]
  omega

/-- It is the label of the specification. -/
theorem lab_val (zi zj : BitVec 32) (hi : zi.toNat < 4) (hj : zj.toNat < 4) :
    (lab zi zj).val = 4 * zi.toNat + zj.toNat := by
  show 4 * (zi.toNat % 4) + zj.toNat % 4 = _
  omega

/-- A word below 16 is not negative, so the wrap-around of a negative index leaves it alone. -/
theorem select_small (L : BitVec 32) (hL : L.toNat < 16) :
    Scalar.select (IntOp.cmpi .slt L 0#32) (IntOp.addi L 16#32) L = L := by
  have hm : L.msb = false := BitVec.msb_eq_false_iff_two_mul_lt.mpr (by omega)
  have hz : (0#32 : BitVec 32).toInt = 0 := by decide
  have hL' : L.toInt = (L.toNat : Int) := by
    rw [BitVec.toInt_eq_msb_cond, hm]
    simp
  have hneg : ¬ (L.toInt < (0#32 : BitVec 32).toInt) := by
    rw [hL', hz]
    omega
  have h0 : IntOp.cmpi .slt L 0#32 = 0#1 := by
    show BitVec.ofBool (decide (L.toInt < (0#32 : BitVec 32).toInt)) = 0#1
    rw [decide_eq_false hneg]
    rfl
  rw [h0]
  exact select_zero _ _

/-- A word below 16, read signed and clamped into 0..15, is itself. -/
theorem clamp_small (L : BitVec 32) (hL : L.toNat < 16) : min L.toInt.toNat 15 = L.toNat := by
  have hm : L.msb = false := BitVec.msb_eq_false_iff_two_mul_lt.mpr (by omega)
  rw [BitVec.toInt_eq_msb_cond, hm]
  simp only [Bool.false_eq_true, if_false, Int.toNat_natCast]
  omega

/-- A one-bit word converted unsigned to a float is the number 0 or 1. -/
theorem uitofp_bit (m : BitVec 1) : FloatOps.uitofp (F := Ideal) .f32 m = bitE m := by
  rcases BitVec.eq_zero_or_eq_one m with rfl | rfl
  · show (((0#1 : BitVec 1).toNat : ℝ) : EReal) = bitE 0#1
    simp [bitE]
  · show (((1#1 : BitVec 1).toNat : ℝ) : EReal) = bitE 1#1
    simp [bitE]

/-! ## The index maps of the stages, composed, at explicit coordinates -/

theorem idx_zi (b : Fin 4) (i j : Fin 512) : idx_main_v40 (idx_main_v44 (ix3 b i j)) = ix2 b i :=
  funext fun a => Fin.ext (by match a with | ⟨0, _⟩ => rfl | ⟨1, _⟩ => rfl)
theorem idx_zj (b : Fin 4) (i j : Fin 512) : idx_main_v43 (idx_main_v45 (ix3 b i j)) = ix2 b j :=
  funext fun a => Fin.ext (by match a with | ⟨0, _⟩ => rfl | ⟨1, _⟩ => rfl)
theorem idx_v89 (b : Fin 4) (i j : Fin 512) : idx_main_v89 (ix4 b i j (0 : Fin 1)) = ix3 b i j :=
  funext fun a => Fin.ext (by match a with | ⟨0, _⟩ => rfl | ⟨1, _⟩ => rfl | ⟨2, _⟩ => rfl)
theorem idx_v97 (b : Fin 4) (i j : Fin 512) : idx_main_v97 (ix4 b i j (0 : Fin 1)) = ix3 b i j :=
  funext fun a => Fin.ext (by match a with | ⟨0, _⟩ => rfl | ⟨1, _⟩ => rfl | ⟨2, _⟩ => rfl)
theorem idx_v105 (b : Fin 4) (i j : Fin 512) : idx_main_v105 (ix4 b i j (0 : Fin 1)) = ix3 b i j :=
  funext fun a => Fin.ext (by match a with | ⟨0, _⟩ => rfl | ⟨1, _⟩ => rfl | ⟨2, _⟩ => rfl)
theorem idx_v107 (b : Fin 4) (i j : Fin 512) (c : Fin 64) : idx_main_v83 (idx_main_v107 (ix4 b i j c)) = ix3 b i j :=
  funext fun a => Fin.ext (by match a with | ⟨0, _⟩ => rfl | ⟨1, _⟩ => rfl | ⟨2, _⟩ => rfl)
theorem idx_v109 (b : Fin 4) (i j : Fin 512) (c : Fin 64) : idx_main_v99 (idx_main_v109 (ix4 b i j c)) = ix3 b i j :=
  funext fun a => Fin.ext (by match a with | ⟨0, _⟩ => rfl | ⟨1, _⟩ => rfl | ⟨2, _⟩ => rfl)
theorem idx_v114 (b : Fin 4) (i j : Fin 512) (c : Fin 64) : idx_main_v91 (idx_main_v114 (ix4 b i j c)) = ix3 b i j :=
  funext fun a => Fin.ext (by match a with | ⟨0, _⟩ => rfl | ⟨1, _⟩ => rfl | ⟨2, _⟩ => rfl)
theorem idx_v118 (b : Fin 4) (i j : Fin 512) (c : Fin 64) : idx_main_v116 (idx_main_v118 (ix4 b i j c)) = ix3 b i j :=
  funext fun a => Fin.ext (by match a with | ⟨0, _⟩ => rfl | ⟨1, _⟩ => rfl | ⟨2, _⟩ => rfl)

/-! ## The label stage and the three start-index stages at (b, i, j) -/

/-- The label stage at (b, i, j) is the word 4·z_i + z_j. -/
theorem label_apply (x1 : (⟨S4x512, .i32⟩ : BufTy).Contents (Elt Ideal)) (b : Fin 4) (i j : Fin 512) :
    val_main_v46 (F := Ideal) x1 (ix3 b i j) = IntOp.addi (IntOp.muli (x1 (ix2 b i)) 4#32) (x1 (ix2 b j)) := by
  rw [val_main_v46_apply, val_main_v44_apply, val_main_v42_apply, val_main_v40_apply, val_main_v41_apply,
    val_main_c_8_apply, val_main_v45_apply, val_main_v43_apply, idx_zi, idx_zj]

/-- For atom types below 4 the label word is below 16. -/
theorem label_lt (x1 : (⟨S4x512, .i32⟩ : BufTy).Contents (Elt Ideal)) (b : Fin 4) (i j : Fin 512)
    (hr : ∀ n : Fin 512, (x1 (ix2 b n)).toNat < 4) :
    (IntOp.addi (IntOp.muli (x1 (ix2 b i)) 4#32) (x1 (ix2 b j))).toNat < 16 := by
  rw [label_toNat _ _ (hr i) (hr j)]
  have := hr i
  have := hr j
  omega

/-- The weight lookup's start index at (b, i, j): the label word, the wrap-around of a negative index not taken. -/
theorem start_w_apply (x1 : (⟨S4x512, .i32⟩ : BufTy).Contents (Elt Ideal)) (b : Fin 4) (i j : Fin 512)
    (hr : ∀ n : Fin 512, (x1 (ix2 b n)).toNat < 4) :
    val_main_v89 (F := Ideal) x1 (ix4 b i j 0) = IntOp.addi (IntOp.muli (x1 (ix2 b i)) 4#32) (x1 (ix2 b j)) := by
  rw [val_main_v89_apply, idx_v89, val_main_v88_apply, val_main_v85_apply, val_main_v87_apply, val_main_v84_apply,
    val_main_c_17_apply, val_main_v86_apply, val_main_c_18_apply, label_apply]
  exact select_small _ (label_lt x1 b i j hr)

/-- The width lookup's start index at (b, i, j). -/
theorem start_s_apply (x1 : (⟨S4x512, .i32⟩ : BufTy).Contents (Elt Ideal)) (b : Fin 4) (i j : Fin 512)
    (hr : ∀ n : Fin 512, (x1 (ix2 b n)).toNat < 4) :
    val_main_v97 (F := Ideal) x1 (ix4 b i j 0) = IntOp.addi (IntOp.muli (x1 (ix2 b i)) 4#32) (x1 (ix2 b j)) := by
  rw [val_main_v97_apply, idx_v97, val_main_v96_apply, val_main_v93_apply, val_main_v95_apply, val_main_v92_apply,
    val_main_c_19_apply, val_main_v94_apply, val_main_c_20_apply, label_apply]
  exact select_small _ (label_lt x1 b i j hr)

/-- The centre lookup's start index at (b, i, j). -/
theorem start_c_apply (x1 : (⟨S4x512, .i32⟩ : BufTy).Contents (Elt Ideal)) (b : Fin 4) (i j : Fin 512)
    (hr : ∀ n : Fin 512, (x1 (ix2 b n)).toNat < 4) :
    val_main_v105 (F := Ideal) x1 (ix4 b i j 0) = IntOp.addi (IntOp.muli (x1 (ix2 b i)) 4#32) (x1 (ix2 b j)) := by
  rw [val_main_v105_apply, idx_v105, val_main_v104_apply, val_main_v101_apply, val_main_v103_apply, val_main_v100_apply,
    val_main_c_21_apply, val_main_v102_apply, val_main_c_22_apply, label_apply]
  exact select_small _ (label_lt x1 b i j hr)

/-- The clamped start index is the specification's label. -/
theorem clamp_label (x1 : (⟨S4x512, .i32⟩ : BufTy).Contents (Elt Ideal)) (b : Fin 4) (i j : Fin 512)
    (hr : ∀ n : Fin 512, (x1 (ix2 b n)).toNat < 4) :
    min (IntOp.addi (IntOp.muli (x1 (ix2 b i)) 4#32) (x1 (ix2 b j))).toInt.toNat 15
      = (lab (x1 (ix2 b i)) (x1 (ix2 b j))).val := by
  rw [clamp_small _ (label_lt x1 b i j hr), label_toNat _ _ (hr i) (hr j), lab_val _ _ (hr i) (hr j)]

/-! ## The three lookups at an index -/

/-- The pair's weight. -/
theorem weight_apply (x1 : (⟨S4x512, .i32⟩ : BufTy).Contents (Elt Ideal)) (x6 : (⟨S16, .f32⟩ : BufTy).Contents (Elt Ideal))
    (b : Fin 4) (i j : Fin 512) (hr : ∀ n : Fin 512, (x1 (ix2 b n)).toNat < 4) :
    val_main_v90 (F := Ideal) x1 x6 (ix3 b i j) = x6 (ix1 (lab (x1 (ix2 b i)) (x1 (ix2 b j)))) := by
  unfold val_main_v90
  refine gather_scalar_apply _ rfl rfl rfl rfl rfl x6 _ b i j _ ?_
  rw [start_w_apply x1 b i j hr]
  exact clamp_label x1 b i j hr

/-- The pair's width. -/
theorem width_apply (x1 : (⟨S4x512, .i32⟩ : BufTy).Contents (Elt Ideal)) (x7 : (⟨S16, .f32⟩ : BufTy).Contents (Elt Ideal))
    (b : Fin 4) (i j : Fin 512) (hr : ∀ n : Fin 512, (x1 (ix2 b n)).toNat < 4) :
    val_main_v98 (F := Ideal) x1 x7 (ix3 b i j) = x7 (ix1 (lab (x1 (ix2 b i)) (x1 (ix2 b j)))) := by
  unfold val_main_v98
  refine gather_scalar_apply _ rfl rfl rfl rfl rfl x7 _ b i j _ ?_
  rw [start_s_apply x1 b i j hr]
  exact clamp_label x1 b i j hr

/-- The pair's centre for channel c. -/
theorem centre_apply (x1 : (⟨S4x512, .i32⟩ : BufTy).Contents (Elt Ideal)) (x8 : (⟨S16x64, .f32⟩ : BufTy).Contents (Elt Ideal))
    (b : Fin 4) (i j : Fin 512) (c : Fin 64) (hr : ∀ n : Fin 512, (x1 (ix2 b n)).toNat < 4) :
    val_main_v106 (F := Ideal) x1 x8 (ix4 b i j c) = x8 (ix2 (lab (x1 (ix2 b i)) (x1 (ix2 b j))) c) := by
  unfold val_main_v106
  refine gather_row_apply _ rfl rfl rfl rfl rfl x8 _ b i j c _ ?_
  rw [start_c_apply x1 b i j hr]
  exact clamp_label x1 b i j hr

/-! ## The channel value and the mask factor -/

/-- Channel c of the expansion of the first layer's sum, before masking. -/
theorem channel_apply (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i j : Fin 512) (c : Fin 64) (hr : ∀ n : Fin 512, (x1 (ix2 b n)).toNat < 4) :
    val_main_v115 (F := Ideal) x1 x2 x3 x4 x5 x6 x7 x8 (ix4 b i j c)
      = rbf (⟨fun l => x6 (ix1 l), fun l => x7 (ix1 l), fun l k => x8 (ix2 l k)⟩ : Tab 64) (lab (x1 (ix2 b i)) (x1 (ix2 b j))) (val_main_v82 (F := Ideal) x1 x2 x3 x4 x5 (ix3 b i j)) c := by
  rw [val_main_v115_apply, val_main_v114_apply, val_main_v91_apply, idx_v114, val_main_v113_apply, val_main_v112_apply,
    val_main_v111_apply, val_main_v110_apply, val_main_v108_apply, val_main_v107_apply, val_main_v83_apply, idx_v107,
    val_main_v109_apply, val_main_v99_apply, idx_v109,
    weight_apply x1 x6 b i j hr, width_apply x1 x7 b i j hr, centre_apply x1 x8 b i j c hr]
  generalize val_main_v82 (F := Ideal) x1 x2 x3 x4 x5 (ix3 b i j) = r
  rfl

/-- The neighbour mask as the number 0 or 1, the same for every channel. -/
theorem mask_apply (x2 : (⟨S4x512x3, .f32⟩ : BufTy).Contents (Elt Ideal)) (b : Fin 4) (i j : Fin 512) (c : Fin 64) :
    val_main_v118 (F := Ideal) x2 (ix4 b i j c) = bitE (val_main_v24 (F := Ideal) x2 (ix3 b i j)) := by
  rw [val_main_v118_apply, val_main_v117_apply, val_main_v116_apply, idx_v118]
  exact uitofp_bit _

end L1

open L1

/-- Channel c of the masked second layer for the pair (i, j) of structure b. -/
theorem layer1_apply (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i j : Fin 512) (c : Fin 64) (hr : ∀ n : Fin 512, (x1 (ix2 b n)).toNat < 4) :
    val_main_v119 (F := Ideal) x1 x2 x3 x4 x5 x6 x7 x8 (ix4 b i j c)
      = rbf (⟨fun l => x6 (ix1 l), fun l => x7 (ix1 l), fun l k => x8 (ix2 l k)⟩ : Tab 64) (lab (x1 (ix2 b i)) (x1 (ix2 b j))) (val_main_v82 (F := Ideal) x1 x2 x3 x4 x5 (ix3 b i j)) c
          * bitE (val_main_v24 (F := Ideal) x2 (ix3 b i j)) := by
  rw [val_main_v119_apply, channel_apply x1 x2 x3 x4 x5 x6 x7 x8 b i j c hr, mask_apply x2 b i j c]
  generalize val_main_v82 (F := Ideal) x1 x2 x3 x4 x5 (ix3 b i j) = r
  generalize val_main_v24 (F := Ideal) x2 (ix3 b i j) = m
  rfl

end Cert.Gnn.R

end
-- ==== Proof.RFinal.lean ====
/-
  The end of the reference: L[c, f] = Σ_j φ(i, j)[c] · feat(i, j)[f], R = L Lᵀ, the sum of R's squared entries over both
  axes, its square root, the quotient, and the flattening of the 64 x 64 matrix (entry e = 64 c + d).
-/
import proofs.«418662_j3908420239890_3_alg».proof.Proof.RefImports
import proofs.«418662_j3908420239890_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Gnn.R

open Idealize.ShloMosaic Idealize.ShloMosaic.ValueIdx Cert.ReferenceIdeal Cert.ReferenceIdeal.Read Cert.Gnn

variable [Cert.ReferenceIdeal.Facts]

/-- L[c, f] for atom i of structure b, from the masked second layer and the features. -/
def Lref (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) (c : Fin 64) (f : Fin 4) : EReal :=
  (∑ j : Fin 512, val_main_v119 (F := Ideal) x1 x2 x3 x4 x5 x6 x7 x8 (ix4 b i j c) * val_main_v39 (F := Ideal) x2 (ix4 b i j f))

/-- R[c, d] = Σ_f L[c, f] · L[d, f]. -/
def Rref (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) (c d : Fin 64) : EReal :=
  ∑ f : Fin 4, Lref x1 x2 x3 x4 x5 x6 x7 x8 b i c f * Lref x1 x2 x3 x4 x5 x6 x7 x8 b i d f

namespace RF

/-- A sum over the two trailing axes of a [4, 512, 64, 64] array, read at (b, i): the initial value plus the double
    sum over the two dropped coordinates. An index drops to (b, i) exactly when its leading coordinates are b and i, and
    such an index is determined by its two trailing coordinates. -/
theorem hostReduceAdd_last2 (h : (⟨4, ![4, 512, 64, 64]⟩ : Shape).ReducesTo [2, 3] ⟨2, ![4, 512]⟩)
    (x : (⟨4, ![4, 512, 64, 64]⟩ : Shape).Idx → EReal) (init : EReal) (b : Fin 4) (i : Fin 512) :
    Ideal.hostReduceAdd h x init (ix2 b i) = init + ∑ c : Fin 64, ∑ d : Fin 64, x (ix4 b i c d) := by
  classical
  unfold Ideal.hostReduceAdd
  refine congrArg (init + ·) ?_
  have hdrop : ∀ q : (⟨4, ![4, 512, 64, 64]⟩ : Shape).Idx, h.drop q = ix2 b i ↔ (q 0 = b ∧ q 1 = i) := by
    intro q
    have h0 : (h.drop q 0 : Nat) = q 0 := Shape.ReducesTo.drop_apply_val_of_eq h q 0 0
    have h1 : (h.drop q 1 : Nat) = q 1 := Shape.ReducesTo.drop_apply_val_of_eq h q 1 1
    constructor
    · intro e
      rw [e] at h0 h1
      exact ⟨Fin.ext h0.symm, Fin.ext h1.symm⟩
    · rintro ⟨e0, e1⟩
      funext a
      match a with
      | ⟨0, _⟩ => exact Fin.ext (h0.trans (congrArg Fin.val e0))
      | ⟨1, _⟩ => exact Fin.ext (h1.trans (congrArg Fin.val e1))
  have hback : ∀ q : (⟨4, ![4, 512, 64, 64]⟩ : Shape).Idx, q 0 = b → q 1 = i → ix4 b i (q 2 : Fin 64) (q 3 : Fin 64) = q := by
    intro q e0 e1
    funext a
    match a with
    | ⟨0, _⟩ => exact e0.symm
    | ⟨1, _⟩ => exact e1.symm
    | ⟨2, _⟩ => rfl
    | ⟨3, _⟩ => rfl
  refine Eq.trans ?_ (Fintype.sum_prod_type' (fun (c : Fin 64) (d : Fin 64) => x (ix4 b i c d)))
  refine Finset.sum_bij' (fun q _ => ((q 2 : Fin 64), (q 3 : Fin 64))) (fun p _ => ix4 b i p.1 p.2)
    (fun _ _ => Finset.mem_univ _)
    (fun p _ => Finset.mem_filter.2 ⟨Finset.mem_univ _, (hdrop _).2 ⟨rfl, rfl⟩⟩)
    (fun q hq => hback q ((hdrop q).1 (Finset.mem_filter.1 hq).2).1 ((hdrop q).1 (Finset.mem_filter.1 hq).2).2)
    (fun _ _ => rfl) ?_
  intro q hq
  exact (congrArg x (hback q ((hdrop q).1 (Finset.mem_filter.1 hq).2).1 ((hdrop q).1 (Finset.mem_filter.1 hq).2).2)).symm

/-- Position e of the flattened 64 x 64 block of (b, i) inside [4, 512, 4096], back as the four coordinates
    (b, i, e / 64, e % 64) of [4, 512, 64, 64]. -/
theorem unflatten (b : Fin 4) (i : Fin 512) (e : Fin 4096) :
    ((b.val * 512 + i.val) * 4096 + e.val) / 2097152 = b.val
    ∧ ((b.val * 512 + i.val) * 4096 + e.val) / 4096 % 512 = i.val
    ∧ ((b.val * 512 + i.val) * 4096 + e.val) / 64 % 64 = e.val / 64
    ∧ ((b.val * 512 + i.val) * 4096 + e.val) % 64 = e.val % 64 := by
  have hb := b.isLt; have hi := i.isLt; have he := e.isLt
  refine ⟨by omega, by omega, by omega, by omega⟩

/-- The first contraction at (b, i, c, f) is L[c, f]: the sum over the neighbour index j. -/
theorem v120_at (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) (c : Fin 64) (f : Fin 4) :
    val_main_v120 (F := Ideal) x1 x2 x3 x4 x5 x6 x7 x8 (ix4 b i c f) = Lref x1 x2 x3 x4 x5 x6 x7 x8 b i c f := by
  rw [val_main_v120_apply]
  unfold Lref
  refine Finset.sum_congr rfl fun j _ => ?_
  have hl : lidx_main_v120 (ix4 b i c f) j = ix4 b i j c :=
    funext fun a => Fin.ext (by match a with | ⟨0, _⟩ => rfl | ⟨1, _⟩ => rfl | ⟨2, _⟩ => rfl | ⟨3, _⟩ => rfl)
  have hr : ridx_main_v120 (ix4 b i c f) j = ix4 b i j f :=
    funext fun a => Fin.ext (by match a with | ⟨0, _⟩ => rfl | ⟨1, _⟩ => rfl | ⟨2, _⟩ => rfl | ⟨3, _⟩ => rfl)
  rw [hl, hr]

/-- The second contraction at (b, i, c, d) is R[c, d] = Σ_f L[c, f] · L[d, f]. -/
theorem v121_at (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) (c d : Fin 64) :
    val_main_v121 (F := Ideal) x1 x2 x3 x4 x5 x6 x7 x8 (ix4 b i c d) = Rref x1 x2 x3 x4 x5 x6 x7 x8 b i c d := by
  rw [val_main_v121_apply]
  unfold Rref
  refine Finset.sum_congr rfl fun f _ => ?_
  have hl : lidx_main_v121 (ix4 b i c d) f = ix4 b i c f :=
    funext fun a => Fin.ext (by match a with | ⟨0, _⟩ => rfl | ⟨1, _⟩ => rfl | ⟨2, _⟩ => rfl | ⟨3, _⟩ => rfl)
  have hr : ridx_main_v121 (ix4 b i c d) f = ix4 b i d f :=
    funext fun a => Fin.ext (by match a with | ⟨0, _⟩ => rfl | ⟨1, _⟩ => rfl | ⟨2, _⟩ => rfl | ⟨3, _⟩ => rfl)
  rw [hl, hr, v120_at, v120_at]

/-- The sum of the squared entries of R over both axes, at (b, i); the initial value is the zero word. -/
theorem v123_at (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) :
    val_main_v123 (F := Ideal) x1 x2 x3 x4 x5 x6 x7 x8 (ix2 b i)
      = ∑ c : Fin 64, ∑ d : Fin 64, Rref x1 x2 x3 x4 x5 x6 x7 x8 b i c d * Rref x1 x2 x3 x4 x5 x6 x7 x8 b i c d := by
  unfold val_main_v123
  simp only [Host.reduceAdd, Ideal.hostReduceAdd_def]
  refine (hostReduceAdd_last2 _ _ _ b i).trans ?_
  have h0 : ∀ j, val_main_cst_23 (F := Ideal) j = 0 := fun _ => Ideal.ofBits_zero_f32
  rw [h0, zero_add]
  refine Finset.sum_congr rfl fun c _ => Finset.sum_congr rfl fun d _ => ?_
  rw [val_main_v122_apply, Ideal.mulf_def, v121_at]

/-- The norm broadcast back over the block: at every (b, i, c, d) the square root of that sum. -/
theorem v126_at (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) (c d : Fin 64) :
    val_main_v126 (F := Ideal) x1 x2 x3 x4 x5 x6 x7 x8 (ix4 b i c d)
      = Ideal.sqrt (∑ c : Fin 64, ∑ d : Fin 64, Rref x1 x2 x3 x4 x5 x6 x7 x8 b i c d * Rref x1 x2 x3 x4 x5 x6 x7 x8 b i c d) := by
  rw [val_main_v126_apply, val_main_v125_apply, val_main_v124_apply]
  have h1 : idx_main_v124 (idx_main_v126 (ix4 b i c d)) = ix2 b i :=
    funext fun a => Fin.ext (by match a with | ⟨0, _⟩ => rfl | ⟨1, _⟩ => rfl)
  rw [h1, v123_at, Ideal.hostUnary_sqrt_def]

end RF

open RF

/-- Entry e = 64 c + d of the result for atom i of structure b. -/
theorem result_apply (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (b : Fin 4) (i : Fin 512) (e : Fin 4096) :
    val_main_v128 (F := Ideal) x1 x2 x3 x4 x5 x6 x7 x8 (ix3 b i e)
      = Ideal.div (Rref x1 x2 x3 x4 x5 x6 x7 x8 b i (⟨e.val / 64, by omega⟩ : Fin 64) (⟨e.val % 64, by omega⟩ : Fin 64))
          (Ideal.sqrt (∑ c : Fin 64, ∑ d : Fin 64, Rref x1 x2 x3 x4 x5 x6 x7 x8 b i c d * Rref x1 x2 x3 x4 x5 x6 x7 x8 b i c d)) := by
  rw [val_main_v128_apply]
  have hidx : idx_main_v128 (ix3 b i e) = ix4 b i (⟨e.val / 64, by omega⟩ : Fin 64) (⟨e.val % 64, by omega⟩ : Fin 64) := by
    obtain ⟨u0, u1, u2, u3⟩ := unflatten b i e
    funext a
    refine Fin.ext ?_
    match a with
    | ⟨0, _⟩ => exact u0
    | ⟨1, _⟩ => exact u1
    | ⟨2, _⟩ => exact u2
    | ⟨3, _⟩ => exact u3
  rw [hidx, val_main_v127_apply, v121_at, v126_at, Ideal.hostDivf_def]

end Cert.Gnn.R

end
-- ==== Proof.RAll.lean ====
/-
  The reference's result is the descriptor of its inputs. Its L[c, f] sums φ(i, j)[c] · feat(i, j)[f] over the
  neighbours j, the descriptor's sums feat · φ: one product, by commutativity; everything after L is the same expression.
-/
import proofs.«418662_j3908420239890_3_alg».proof.Proof.RGeom
import proofs.«418662_j3908420239890_3_alg».proof.Proof.RLayer0
import proofs.«418662_j3908420239890_3_alg».proof.Proof.RLayer1
import proofs.«418662_j3908420239890_3_alg».proof.Proof.RFinal

set_option maxRecDepth 16384

noncomputable section

namespace Cert.Gnn.R

open Idealize.ShloMosaic Idealize.ShloMosaic.ValueIdx Cert.ReferenceIdeal Cert.ReferenceIdeal.Read Cert.Gnn

variable [Cert.ReferenceIdeal.Facts]

open Idealize.ShloMosaic.TcCoe Idealize.SL.Sem

/-- The reference's L[c, f] is the descriptor's L[f, c]. -/
theorem Lref_eq (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (hr : ∀ (b : Fin 4) (n : Fin 512), (x1 (ix2 b n)).toNat < 4) (b : Fin 4) (i : Fin 512) (c : Fin 64) (f : Fin 4) :
    Lref x1 x2 x3 x4 x5 x6 x7 x8 b i c f = Lmat (inpOf x1 x2 x3 x4 x5 x6 x7 x8) b i f c := by
  unfold Lref Lmat pairTerm phi
  refine Finset.sum_congr rfl fun j _ => ?_
  rw [layer1_apply x1 x2 x3 x4 x5 x6 x7 x8 b i j c (hr b), layer0_apply x1 x2 x3 x4 x5 b i j (hr b), cut_apply, nbr_apply, feat_apply, mul_comm]
  rfl

/-- The reference's result array is the descriptor of its arguments, for atom types in 0..3. -/
theorem ref_value (x1 : (⟨S4x512, .i32⟩ : BufTy).Contents (Elt Ideal)) (x2 : (⟨S4x512x3, .f32⟩ : BufTy).Contents (Elt Ideal)) (x3 x4 : (⟨S16, .f32⟩ : BufTy).Contents (Elt Ideal)) (x5 : (⟨S16x32, .f32⟩ : BufTy).Contents (Elt Ideal)) (x6 x7 : (⟨S16, .f32⟩ : BufTy).Contents (Elt Ideal)) (x8 : (⟨S16x64, .f32⟩ : BufTy).Contents (Elt Ideal))
    (hr : ∀ (b : Fin 4) (n : Fin 512), (x1 (ix2 b n)).toNat < 4) :
    val_main_v128 (F := Ideal) x1 x2 x3 x4 x5 x6 x7 x8 = outArr (inpOf x1 x2 x3 x4 x5 x6 x7 x8) := by
  funext y
  obtain ⟨b, i, e, rfl⟩ : ∃ (b : Fin 4) (i : Fin 512) (e : Fin 4096), y = ix3 b i e := ⟨y 0, y 1, y 2, eq_ix3 y⟩
  rw [result_apply]
  have hR : ∀ c d : Fin 64, Rref x1 x2 x3 x4 x5 x6 x7 x8 b i c d = Rmat (inpOf x1 x2 x3 x4 x5 x6 x7 x8) b i c d := fun c d => by
    unfold Rref Rmat; simp only [Lref_eq x1 x2 x3 x4 x5 x6 x7 x8 hr]
  simp only [hR]
  rfl

/-- The reference's run with its result named. -/
theorem run_value (m : (ℓ : Loc nD τ sig) → Buf (Elt Ideal) ℓ) (ρ : Dev nD → PrngReg)
    (hr : ∀ (c : Dev nD) (b : Fin 4) (n : Fin 512), (((m ((c.tc : Thread nD τ).loc main_arg1)) : S4x512.Idx → BitVec 32) (ix2 b n)).toNat < 4) :
    θ_run defs (onTc (τ := τ) (main (F := Ideal))) ⟨m, fun _ => 0, ρ⟩ fun r => ∀ c : Dev nD,
      r.2.mem ((c.tc : Thread nD τ).loc main_v128)
          = outArr (inpOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans ((val_main_v128_eq m c).trans (ref_value _ _ _ _ _ _ _ _ (hr c))), (h c).2⟩)
    (Cert.ReferenceIdeal.Value.run (F := Ideal) m ρ)

end Cert.Gnn.R

end
-- ==== Proof.PreDecode.lean ====
/-
  What the precondition says about the atom types: every entry of the integer input lies in 0..3.
-/
import proofs.«418662_j3908420239890_3_alg».proof.Pre_finite_inputs
import Idealize.ShloMosaic.PureOps.Ideal
import Idealize.ShloMosaic.Lib.ReduceAll
import Idealize.ShloMosaic.Lib.StableHlo.Predicate

noncomputable section

namespace Cert.Gnn.Pre

open Idealize.ShloMosaic Cert.Pre_finite_inputs

variable [Cert.Pre_finite_inputs.Facts]

/-- The rank-0 shape has exactly one index. -/
instance : Subsingleton S_.Idx := ⟨fun _ _ => funext fun d => d.elim0⟩

/-- A 32-bit word that is at least 0 and below 4 as a signed number is below 4 as a natural number. -/
theorem toNat_lt_four_of_signed (w : BitVec 32) (h0 : (0#32 : BitVec 32).toInt ≤ w.toInt) (h4 : w.toInt < (4#32 : BitVec 32).toInt) :
    w.toNat < 4 := by
  have e0 : (0#32 : BitVec 32).toInt = 0 := by decide
  have e4 : (4#32 : BitVec 32).toInt = 4 := by decide
  rw [e0] at h0
  rw [e4] at h4
  rw [BitVec.toInt_eq_toNat_cond] at h0 h4
  have hw := w.isLt
  split at h0 <;> omega

/-- If the printed precondition evaluates to the all-ones word on the nine inputs, then every atom type, read as a
    signed 32-bit word, is at least 0 and less than 4; as a natural number it is below 4. -/
theorem numbers_lt_four (a0 : FVec Ideal S4x9 .f32) (a1 : IVec S4x512 32) (a2 : FVec Ideal S4x512x3 .f32)
    (a3 a4 : FVec Ideal S16 .f32) (a5 : FVec Ideal S16x32 .f32) (a6 a7 : FVec Ideal S16 .f32) (a8 : FVec Ideal S16x64 .f32)
    (h : Cert.Pre_finite_inputs.fn (F := Ideal) a0 a1 a2 a3 a4 a5 a6 a7 a8 = fun _ => 1#1) (j : S4x512.Idx) :
    (a1 j).toNat < 4 := by
  -- the predicate at its one index: a conjunction whose last two conjuncts are the two range tests
  have h1 := congrFun h (fun d => d.elim0)
  dsimp only [fn, fn_part1, fn_part2, andi] at h1
  obtain ⟨hrest, hlt⟩ := IntOp.andi_eq_one.1 h1
  obtain ⟨_, hge⟩ := IntOp.andi_eq_one.1 hrest
  -- each range test holds at every entry
  have hge' := Host.reduce_andi_all _ _ _ _ _ hge j
  have hlt' := Host.reduce_andi_all _ _ _ _ _ hlt j
  -- an entry's two tests are the signed comparisons with 0 and with 4
  simp only [cmpi, IntOp.cmpi, broadcastInDim, constantI, StableHlo.Predicate.ofBool_eq_one_iff, BitVec.sle, BitVec.slt] at hge' hlt'
  exact toNat_lt_four_of_signed (a1 j) (of_decide_eq_true hge') (of_decide_eq_true hlt')

end Cert.Gnn.Pre

end
-- ==== Proof.lean ====
/-
  The kernel tiles the 512 x 512 pairs of each structure into 128 x 128 blocks and accumulates, along the neighbour-block
  axis, L[f, c] = Σ_j feat(i, j)[f] · φ(i, j)[c] · [j neighbour of i] for its 128 atoms i; at the last block it stores
  R = Lᵀ L divided by its Frobenius norm. The reference forms the same L over all pairs at once. Over the extended reals
  the two agree: the kernel picks a pair's parameters by a product with the 0/1 matrix [b = z_j] and a sum over a of
  [z_i = a] times a row group, which for atom types in 0..3 is the table's entry at the label 4 z_i + z_j that the
  reference looks up (0 · x = 0, 1 · x = x and 0 + x = x hold for every extended real, so no finiteness is used); the
  sum over j is split into four blocks; and the products commute. The precondition's added conjuncts say the atom types
  lie in 0..3, where the reference's lookup is in range.

  The three frames: both kernel programs run to the end, fault nowhere and leave their arguments unchanged (one text, in
  the two namespaces, for any float instance); the reference's frame is its run with the result dropped.
-/
import proofs.«418662_j3908420239890_3_alg».proof.Defs
import proofs.«418662_j3908420239890_3_alg».proof.Proof.K.Frame
import proofs.«418662_j3908420239890_3_alg».proof.Proof.KAcc
import proofs.«418662_j3908420239890_3_alg».proof.Proof.RAll
import proofs.«418662_j3908420239890_3_alg».proof.Proof.PreDecode
import proofs.«418662_j3908420239890_3_alg».proof.Proof.Gen.Kernel
import proofs.«418662_j3908420239890_3_alg».proof.Proof.Gen.KernelIdeal
import proofs.«418662_j3908420239890_3_alg».proof.Proof.Gen.ReferenceIdeal
import proofs.«418662_j3908420239890_3_alg».proof.Proof.Gen.Pre_finite_inputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition every atom type is in 0..3. -/
theorem types_in_range (m : (ℓ : Loc Cert.KernelIdeal.nD Cert.KernelIdeal.τ Cert.KernelIdeal.sig) → Buf (Elt Ideal) ℓ)
    (h : Cert.Pre_KernelIdeal m) (c : Dev Cert.KernelIdeal.nD) (b : Fin 4) (n : Fin 512) :
    ((Cert.KernelIdeal.Gen.inp m c).z b n).toNat < 4 :=
  Cert.Gnn.Pre.numbers_lt_four _ _ _ _ _ _ _ _ _ (h c) (ix2 b n)

/-- Both idealized programs end with the descriptor of the shared inputs in their result arrays. -/
theorem algebraic : Cert.algebraic_KernelIdeal_ReferenceIdeal := by
  intro m ρ m' ρ' hpre hagree
  have hr := types_in_range m hpre
  refine ⟨fun c => Cert.Gnn.outArr (Cert.KernelIdeal.Gen.inp m c), Cert.KernelIdeal.Gen.run_value m ρ hr, ?_⟩
  refine (θ_run Cert.ReferenceIdeal.defs _ _).mono (fun r h c => ⟨(h c).1.trans ?_, (h c).2⟩)
    (Cert.Gnn.R.run_value m' ρ' (fun c b n => by rw [(hagree c).2.1]; exact hr c b n))
  unfold Cert.KernelIdeal.Gen.inp
  rw [(hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
